-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S5632x2048 : Shape := ⟨2, ![5632, 2048]⟩
abbrev S2048x5632 : Shape := ⟨2, ![2048, 5632]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S2048x5632 : S_.BroadcastsInDim S2048x5632 (![] : Fin 0 → Fin S2048x5632.rank)
  reducesTo_S2048x5632_S_d0_1 : S2048x5632.ReducesTo [0, 1] S_

variable [Facts]

def fn_part1 {F : FTy → Type} [FloatOps F] (main_v13 : IVec S_ 1) (main_v16 : IVec S5632x2048 1) : IVec S_ 1 :=
  let main_c_5 : IVec S_ 1 := constantI S_ 1 1#1
  let main_v17 : IVec S_ 1 := (fun x v => Host.reduce IntOp.andi x v reducesTo_S5632x2048_S_d0_1 h_S_) main_v16 main_c_5
  let main_v18 : IVec S_ 1 := andi main_v13 main_v17
  main_v18

def fn {F : FTy → Type} [FloatOps F] (main_arg0 : FVec F S4x2048x2048 .f32) (main_arg1 : FVec F S5632x2048 .f32) (main_arg2 : FVec F S2048x5632 .f32) (main_arg3 : FVec F S5632x2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S5632x2048 .f32 := Host.absf main_arg1
  let main_cst_0 : FVec F S_ .f32 := constant S_ .f32 0x7F800000#32
  let main_v5 : FVec F S5632x2048 .f32 := broadcastInDim S5632x2048 ![] bcast_S_S5632x2048 main_cst_0
  let main_v6 : IVec S5632x2048 1 := cmpf .olt main_v4 main_v5
  let main_c_1 : IVec S_ 1 := constantI S_ 1 1#1
  let main_v7 : IVec S_ 1 := (fun x v => Host.reduce IntOp.andi x v reducesTo_S5632x2048_S_d0_1 h_S_) main_v6 main_c_1
  let main_v8 : IVec S_ 1 := andi main_v3 main_v7
  let main_v9 : FVec F S2048x5632 .f32 := Host.absf main_arg2
  let main_cst_2 : FVec F S_ .f32 := constant S_ .f32 0x7F800000#32
  let main_v10 : FVec F S2048x5632 .f32 := broadcastInDim S2048x5632 ![] bcast_S_S2048x5632 main_cst_2
  let main_v11 : IVec S2048x5632 1 := cmpf .olt main_v9 main_v10
  let main_c_3 : IVec S_ 1 := constantI S_ 1 1#1
  let main_v12 : IVec S_ 1 := (fun x v => Host.reduce IntOp.andi x v reducesTo_S2048x5632_S_d0_1 h_S_) main_v11 main_c_3
  let main_v13 : IVec S_ 1 := andi main_v8 main_v12
  let main_v14 : FVec F S5632x2048 .f32 := Host.absf main_arg3
  let main_cst_4 : FVec F S_ .f32 := constant S_ .f32 0x7F800000#32
  let main_v15 : FVec F S5632x2048 .f32 := broadcastInDim S5632x2048 ![] bcast_S_S5632x2048 main_cst_4
  let main_v16 : IVec S5632x2048 1 := cmpf .olt main_v14 main_v15
  fn_part1 (F := F) main_v13 main_v16
-- ==== Kernel.lean ====
abbrev S4x2048x2048 : Shape := ⟨3, ![4, 2048, 2048]⟩
abbrev S5632x2048 : Shape := ⟨2, ![5632, 2048]⟩
abbrev S2048x5632 : Shape := ⟨2, ![2048, 5632]⟩
abbrev S8192x2048 : Shape := ⟨2, ![8192, 2048]⟩
abbrev S_ : Shape := ⟨0, ![]⟩
abbrev S8192x5632 : Shape := ⟨2, ![8192, 5632]⟩
abbrev S1024x2048 : Shape := ⟨2, ![1024, 2048]⟩
abbrev S512x2048 : Shape := ⟨2, ![512, 2048]⟩
abbrev S1024x512 : Shape := ⟨2, ![1024, 512]⟩
abbrev S1024 : Shape := ⟨1, ![1024]⟩
abbrev S1024x1 : Shape := ⟨2, ![1024, 1]⟩
abbrev S2048x512 : Shape := ⟨2, ![2048, 512]⟩
abbrev S512x5632 : Shape := ⟨2, ![512, 5632]⟩
abbrev S512x512 : Shape := ⟨2, ![512, 512]⟩
abbrev S512 : Shape := ⟨1, ![512]⟩
abbrev S512x1 : Shape := ⟨2, ![512, 1]⟩
abbrev S5632x512 : Shape := ⟨2, ![5632, 512]⟩

abbrev nBuf : Space → Nat
  | .hbm => 80
  | .vmem => 16
  | .smem => 0
  | _ => 0

abbrev bufTy : (tb : Table) → Fin (tcTables nBuf tb) → BufTy
  | .hbm, ⟨0, _⟩ => ⟨S4x2048x2048, .f32⟩
  | .hbm, ⟨1, _⟩ => ⟨S5632x2048, .f32⟩
  | .hbm, ⟨2, _⟩ => ⟨S2048x5632, .f32⟩
  | .hbm, ⟨3, _⟩ => ⟨S5632x2048, .f32⟩
  | .hbm, ⟨4, _⟩ => ⟨S8192x2048, .f32⟩
  | .hbm, ⟨5, _⟩ => ⟨S5632x2048, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S5632x2048, .f32⟩
  | .hbm, ⟨16, _⟩ => ⟨S5632x2048, .f32⟩
  | .hbm, ⟨17, _⟩ => ⟨S5632x2048, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S5632x2048, .f32⟩
  | .hbm, ⟨22, _⟩ => ⟨S5632x2048, .f32⟩
  | .hbm, ⟨23, _⟩ => ⟨S_, .f32⟩
  | .hbm, ⟨24, _⟩ => ⟨S5632x2048, .f32⟩
  | .hbm, ⟨25, _⟩ => ⟨S5632x2048, .f32⟩
  | .hbm, ⟨26, _⟩ => ⟨S5632x2048, .f32⟩
  | .hbm, ⟨27, _⟩ => ⟨S5632x2048, .f32⟩
  | .hbm, ⟨28, _⟩ => ⟨S5632x2048, .bf16⟩
  | .hbm, ⟨29, _⟩ => ⟨S5632x2048, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S5632x2048, .f32⟩
  | .hbm, ⟨40, _⟩ => ⟨S5632x2048, .f32⟩
  | .hbm, ⟨41, _⟩ => ⟨S5632x2048, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S5632x2048, .f32⟩
  | .hbm, ⟨46, _⟩ => ⟨S5632x2048, .f32⟩
  | .hbm, ⟨47, _⟩ => ⟨S_, .f32⟩
  | .hbm, ⟨48, _⟩ => ⟨S5632x2048, .f32⟩
  | .hbm, ⟨49, _⟩ => ⟨S5632x2048, .f32⟩
  | .hbm, ⟨50, _⟩ => ⟨S5632x2048, .f32⟩
  | .hbm, ⟨51, _⟩ => ⟨S5632x2048, .f32⟩
  | .hbm, ⟨52, _⟩ => ⟨S5632x2048, .bf16⟩
  | .hbm, ⟨53, _⟩ => ⟨S2048x5632, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S2048x5632, .f32⟩
  | .hbm, ⟨64, _⟩ => ⟨S2048x5632, .f32⟩
  | .hbm, ⟨65, _⟩ => ⟨S2048x5632, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S2048x5632, .f32⟩
  | .hbm, ⟨70, _⟩ => ⟨S2048x5632, .f32⟩
  | .hbm, ⟨71, _⟩ => ⟨S_, .f32⟩
  | .hbm, ⟨72, _⟩ => ⟨S2048x5632, .f32⟩
  | .hbm, ⟨73, _⟩ => ⟨S2048x5632, .f32⟩
  | .hbm, ⟨74, _⟩ => ⟨S2048x5632, .f32⟩
  | .hbm, ⟨75, _⟩ => ⟨S2048x5632, .f32⟩
  | .hbm, ⟨76, _⟩ => ⟨S2048x5632, .bf16⟩
  | .hbm, ⟨77, _⟩ => ⟨S8192x5632, .bf16⟩
  | .hbm, ⟨78, _⟩ => ⟨S8192x2048, .f32⟩
  | .hbm, ⟨79, _⟩ => ⟨S4x2048x2048, .f32⟩
  | .local _ .vmem, ⟨0, _⟩ => ⟨S1024x2048, .f32⟩
  | .local _ .vmem, ⟨1, _⟩ => ⟨S1024x2048, .f32⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S1024x512, .bf16⟩
  | .local _ .vmem, ⟨7, _⟩ => ⟨S1024x512, .bf16⟩
  | .local _ .vmem, ⟨8, _⟩ => ⟨S1024x2048, .bf16⟩
  | .local _ .vmem, ⟨9, _⟩ => ⟨S512x5632, .bf16⟩
  | .local _ .vmem, ⟨10, _⟩ => ⟨S512x5632, .bf16⟩
  | .local _ .vmem, ⟨11, _⟩ => ⟨S512x5632, .bf16⟩
  | .local _ .vmem, ⟨12, _⟩ => ⟨S512x5632, .bf16⟩
  | .local _ .vmem, ⟨13, _⟩ => ⟨S512x512, .f32⟩
  | .local _ .vmem, ⟨14, _⟩ => ⟨S512x512, .f32⟩
  | .local _ .vmem, ⟨15, _⟩ => ⟨S512x5632, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_call0_v0 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_cst_4 : Ref sig .tc := ⟨.hbm, 19, rfl⟩
abbrev main_call2_v0 : Ref sig .tc := ⟨.hbm, 20, rfl⟩
abbrev main_call2_v1 : Ref sig .tc := ⟨.hbm, 21, rfl⟩
abbrev main_call2_v2 : Ref sig .tc := ⟨.hbm, 22, rfl⟩
abbrev main_call2_v3 : Ref sig .tc := ⟨.hbm, 23, rfl⟩
abbrev main_call2_v4 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_5 : Ref sig .tc := ⟨.hbm, 30, rfl⟩
abbrev main_v14 : Ref sig .tc := ⟨.hbm, 31, rfl⟩
abbrev main_cst_6 : Ref sig .tc := ⟨.hbm, 32, rfl⟩
abbrev main_v15 : Ref sig .tc := ⟨.hbm, 33, rfl⟩
abbrev main_cst_7 : Ref sig .tc := ⟨.hbm, 34, rfl⟩
abbrev main_call3_v0 : Ref sig .tc := ⟨.hbm, 35, rfl⟩
abbrev main_v16 : Ref sig .tc := ⟨.hbm, 36, rfl⟩
abbrev main_cst_8 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_9 : Ref sig .tc := ⟨.hbm, 42, rfl⟩
abbrev main_cst_10 : Ref sig .tc := ⟨.hbm, 43, rfl⟩
abbrev main_call5_v0 : Ref sig .tc := ⟨.hbm, 44, rfl⟩
abbrev main_call5_v1 : Ref sig .tc := ⟨.hbm, 45, rfl⟩
abbrev main_call5_v2 : Ref sig .tc := ⟨.hbm, 46, rfl⟩
abbrev main_call5_v3 : Ref sig .tc := ⟨.hbm, 47, rfl⟩
abbrev main_call5_v4 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst_11 : Ref sig .tc := ⟨.hbm, 54, rfl⟩
abbrev main_v26 : Ref sig .tc := ⟨.hbm, 55, rfl⟩
abbrev main_cst_12 : Ref sig .tc := ⟨.hbm, 56, rfl⟩
abbrev main_v27 : Ref sig .tc := ⟨.hbm, 57, rfl⟩
abbrev main_cst_13 : Ref sig .tc := ⟨.hbm, 58, rfl⟩
abbrev main_call6_v0 : Ref sig .tc := ⟨.hbm, 59, rfl⟩
abbrev main_v28 : Ref sig .tc := ⟨.hbm, 60, rfl⟩
abbrev main_cst_14 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_cst_15 : Ref sig .tc := ⟨.hbm, 66, rfl⟩
abbrev main_cst_16 : Ref sig .tc := ⟨.hbm, 67, rfl⟩
abbrev main_call8_v0 : Ref sig .tc := ⟨.hbm, 68, rfl⟩
abbrev main_call8_v1 : Ref sig .tc := ⟨.hbm, 69, rfl⟩
abbrev main_call8_v2 : Ref sig .tc := ⟨.hbm, 70, rfl⟩
abbrev main_call8_v3 : Ref sig .tc := ⟨.hbm, 71, rfl⟩
abbrev main_call8_v4 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![16, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x5632 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x5632 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S4x2048x2048_S8192x2048 : S4x2048x2048.ShapeCasts S8192x2048
  reducesTo_S5632x2048_S_d0_1 : S5632x2048.ReducesTo [0, 1] S_
  h_S_ : 0 < S_.numel
  bcast_S_S5632x2048 : S_.BroadcastsInDim S5632x2048 (![] : Fin 0 → Fin S5632x2048.rank)
  bitsLt_bf16_f32 : FTy.bits .bf16 < FTy.bits .f32
  reducesTo_S2048x5632_S_d0_1 : S2048x5632.ReducesTo [0, 1] S_
  bcast_S_S2048x5632 : S_.BroadcastsInDim S2048x5632 (![] : Fin 0 → Fin S2048x5632.rank)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  reduces_S1024x2048_S1024 : S1024x2048.Reduces [1] S1024
  shapeCasts_S1024_S1024x1 : S1024.ShapeCasts S1024x1
  broadcasts_S1024x1_S1024x2048 : S1024x1.Broadcasts S1024x2048
  packedbf16_S1024x2048_S1024x2048_0_0 : (Rect.unit (s := S1024x2048) ![0, 0] S1024x2048.size inb_S1024x2048_S1024x2048_0_0).PackedRows (EltTy.packing .bf16)
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  transposes_S512x2048_p1_0_S2048x512 : S512x2048.Transposes [1, 0] S2048x512
  inb_S1024x512_S1024x512_0_0 : ∀ a, (![0, 0] : Fin 2 → Nat) a + S1024x512.size a ≤ S1024x512.size a
  h_S1024x512 : 0 < S1024x512.numel
  packedbf16_S1024x512_S1024x512_0_0 : (Rect.unit (s := S1024x512) ![0, 0] S1024x512.size inb_S1024x512_S1024x512_0_0).PackedRows (EltTy.packing .bf16)
  inb_S512x5632_S512x5632_0_0 : ∀ a, (![0, 0] : Fin 2 → Nat) a + S512x5632.size a ≤ S512x5632.size a
  h_S512x5632 : 0 < S512x5632.numel
  shapeCasts_S512x5632_S512x5632 : S512x5632.ShapeCasts S512x5632
  reduces_S512x5632_S512 : S512x5632.Reduces [1] S512
  shapeCasts_S512_S512x1 : S512.ShapeCasts S512x1
  broadcasts_S512x1_S512x5632 : S512x1.Broadcasts S512x5632
  packedbf16_S512x5632_S512x5632_0_0 : (Rect.unit (s := S512x5632) ![0, 0] S512x5632.size inb_S512x5632_S512x5632_0_0).PackedRows (EltTy.packing .bf16)
  transposes_S512x5632_p1_0_S5632x512 : S512x5632.Transposes [1, 0] S5632x512
  inb_S512x512_S512x512_0_0 : ∀ a, (![0, 0] : Fin 2 → Nat) a + S512x512.size a ≤ S512x512.size a
  h_S512x512 : 0 < S512x512.numel
  shapeCasts_S8192x2048_S4x2048x2048 : S8192x2048.ShapeCasts S4x2048x2048
  dot_S1024x2048_S2048x512_S1024x512_1_0_0_1_n_n_wf : DotDims.WF S1024x2048 S2048x512 S1024x512 [1] [0] [0] [1] [] []
  dot_S512x5632_S5632x512_S512x512_1_0_0_1_n_n_wf : DotDims.WF S512x5632 S5632x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .f32 = 32 ∨ (Rect.block (s := S8192x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S5632x2048.size a
  hwx0_1 : ∀ i : grid0.Coords, EltTy.bits .bf16 = 32 ∨ (Rect.block (s := S5632x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S5632x2048.size a
  hwx0_2 : ∀ i : grid0.Coords, EltTy.bits .bf16 = 32 ∨ (Rect.block (s := S5632x2048) S512x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x5632.size a
  hwx0_3 : ∀ i : grid0.Coords, EltTy.bits .bf16 = 32 ∨ (Rect.block (s := S8192x5632) S1024x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x5632.size a ≤ S8192x5632.size a
  hwx1_0 : ∀ i : grid1.Coords, EltTy.bits .bf16 = 32 ∨ (Rect.block (s := S8192x5632) S512x5632.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x5632.size a ≤ S2048x5632.size a
  hwx1_1 : ∀ i : grid1.Coords, EltTy.bits .bf16 = 32 ∨ (Rect.block (s := S2048x5632) S512x5632.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S8192x2048.size a
  hwx1_2 : ∀ i : grid1.Coords, EltTy.bits .f32 = 32 ∨ (Rect.block (s := S8192x2048) S512x512.size (cc1_transform_2 i) (hinb1_2 i)).WholeWords (EltTy.packing .f32)

variable [Facts₀]

def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf
def dot_S512x5632_S5632x512_S512x512_1_0_0_1_n_n : DotDims S512x5632 S5632x512 S512x512 where
  lhsContracting := [1]
  rhsContracting := [0]
  lhsNonContracting := [0]
  rhsNonContracting := [1]
  lhsBatch := []
  rhsBatch := []
  wf := dot_S512x5632_S5632x512_S512x512_1_0_0_1_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v37) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v37) S512x5632.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S512x5632.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S512x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x2048x2048 : Shape := ⟨3, ![4, 2048, 2048]⟩
abbrev S5632x2048 : Shape := ⟨2, ![5632, 2048]⟩
abbrev S2048x5632 : Shape := ⟨2, ![2048, 5632]⟩
abbrev S_ : Shape := ⟨0, ![]⟩
abbrev S4x2048 : Shape := ⟨2, ![4, 2048]⟩
abbrev S4x2048x1 : Shape := ⟨3, ![4, 2048, 1]⟩
abbrev S4x2048x5632 : Shape := ⟨3, ![4, 2048, 5632]⟩

abbrev nBuf : Space → Nat
  | .hbm => 158
  | .vmem => 0
  | .smem => 0
  | _ => 0

abbrev hbmTy0_0 (i : Nat) : BufTy := match i % 128 with
  | 0 => ⟨S4x2048x2048, .f32⟩
  | 1 => ⟨S5632x2048, .f32⟩
  | 2 => ⟨S2048x5632, .f32⟩
  | 3 => ⟨S5632x2048, .f32⟩
  | 4 => ⟨S4x2048x2048, .f32⟩
  | 5 => ⟨S_, .f32⟩
  | 6 => ⟨S4x2048, .f32⟩
  | 7 => ⟨S4x2048x1, .f32⟩
  | 8 => ⟨S_, .f32⟩
  | 9 => ⟨S_, .f32⟩
  | 10 => ⟨S4x2048x1, .f32⟩
  | 11 => ⟨S4x2048x1, .f32⟩
  | 12 => ⟨S_, .f32⟩
  | 13 => ⟨S4x2048x1, .f32⟩
  | 14 => ⟨S4x2048x1, .f32⟩
  | 15 => ⟨S4x2048x2048, .f32⟩
  | 16 => ⟨S4x2048x2048, .f32⟩
  | 17 => ⟨S4x2048x2048, .f32⟩
  | 18 => ⟨S_, .f32⟩
  | 19 => ⟨S_, .f32⟩
  | 20 => ⟨S_, .f32⟩
  | 21 => ⟨S4x2048x2048, .f32⟩
  | 22 => ⟨S4x2048x2048, .f32⟩
  | 23 => ⟨S_, .f32⟩
  | 24 => ⟨S4x2048x2048, .f32⟩
  | 25 => ⟨S4x2048x2048, .f32⟩
  | 26 => ⟨S4x2048x2048, .f32⟩
  | 27 => ⟨S4x2048x2048, .f32⟩
  | 28 => ⟨S5632x2048, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S5632x2048, .f32⟩
  | 39 => ⟨S5632x2048, .f32⟩
  | 40 => ⟨S5632x2048, .f32⟩
  | 41 => ⟨S_, .f32⟩
  | 42 => ⟨S_, .f32⟩
  | 43 => ⟨S_, .f32⟩
  | 44 => ⟨S5632x2048, .f32⟩
  | 45 => ⟨S5632x2048, .f32⟩
  | 46 => ⟨S_, .f32⟩
  | 47 => ⟨S5632x2048, .f32⟩
  | 48 => ⟨S5632x2048, .f32⟩
  | 49 => ⟨S5632x2048, .f32⟩
  | 50 => ⟨S5632x2048, .f32⟩
  | 51 => ⟨S4x2048x5632, .f32⟩
  | 52 => ⟨S4x2048x5632, .f32⟩
  | 53 => ⟨S4x2048x5632, .f32⟩
  | 54 => ⟨S_, .f32⟩
  | 55 => ⟨S4x2048x5632, .f32⟩
  | 56 => ⟨S4x2048x5632, .f32⟩
  | 57 => ⟨S_, .f32⟩
  | 58 => ⟨S4x2048x5632, .f32⟩
  | 59 => ⟨S4x2048x5632, .f32⟩
  | 60 => ⟨S4x2048x5632, .f32⟩
  | 61 => ⟨S4x2048x2048, .f32⟩
  | 62 => ⟨S_, .f32⟩
  | 63 => ⟨S4x2048, .f32⟩
  | 64 => ⟨S4x2048x1, .f32⟩
  | 65 => ⟨S_, .f32⟩
  | 66 => ⟨S_, .f32⟩
  | 67 => ⟨S4x2048x1, .f32⟩
  | 68 => ⟨S4x2048x1, .f32⟩
  | 69 => ⟨S_, .f32⟩
  | 70 => ⟨S4x2048x1, .f32⟩
  | 71 => ⟨S4x2048x1, .f32⟩
  | 72 => ⟨S4x2048x2048, .f32⟩
  | 73 => ⟨S4x2048x2048, .f32⟩
  | 74 => ⟨S4x2048x2048, .f32⟩
  | 75 => ⟨S_, .f32⟩
  | 76 => ⟨S_, .f32⟩
  | 77 => ⟨S_, .f32⟩
  | 78 => ⟨S4x2048x2048, .f32⟩
  | 79 => ⟨S4x2048x2048, .f32⟩
  | 80 => ⟨S_, .f32⟩
  | 81 => ⟨S4x2048x2048, .f32⟩
  | 82 => ⟨S4x2048x2048, .f32⟩
  | 83 => ⟨S4x2048x2048, .f32⟩
  | 84 => ⟨S4x2048x2048, .f32⟩
  | 85 => ⟨S5632x2048, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S5632x2048, .f32⟩
  | 96 => ⟨S5632x2048, .f32⟩
  | 97 => ⟨S5632x2048, .f32⟩
  | 98 => ⟨S_, .f32⟩
  | 99 => ⟨S_, .f32⟩
  | 100 => ⟨S_, .f32⟩
  | 101 => ⟨S5632x2048, .f32⟩
  | 102 => ⟨S5632x2048, .f32⟩
  | 103 => ⟨S_, .f32⟩
  | 104 => ⟨S5632x2048, .f32⟩
  | 105 => ⟨S5632x2048, .f32⟩
  | 106 => ⟨S5632x2048, .f32⟩
  | 107 => ⟨S5632x2048, .f32⟩
  | 108 => ⟨S4x2048x5632, .f32⟩
  | 109 => ⟨S4x2048x5632, .f32⟩
  | 110 => ⟨S4x2048x5632, .f32⟩
  | 111 => ⟨S_, .f32⟩
  | 112 => ⟨S4x2048, .f32⟩
  | 113 => ⟨S4x2048x1, .f32⟩
  | 114 => ⟨S_, .f32⟩
  | 115 => ⟨S_, .f32⟩
  | 116 => ⟨S4x2048x1, .f32⟩
  | 117 => ⟨S4x2048x1, .f32⟩
  | 118 => ⟨S_, .f32⟩
  | 119 => ⟨S4x2048x1, .f32⟩
  | 120 => ⟨S4x2048x1, .f32⟩
  | 121 => ⟨S4x2048x5632, .f32⟩
  | 122 => ⟨S4x2048x5632, .f32⟩
  | 123 => ⟨S4x2048x5632, .f32⟩
  | 124 => ⟨S_, .f32⟩
  | 125 => ⟨S_, .f32⟩
  | 126 => ⟨S_, .f32⟩
  | 127 => ⟨S4x2048x5632, .f32⟩
  | _ => ⟨S4x2048x2048, .f32⟩

abbrev hbmTy0_1 (i : Nat) : BufTy := match i % 128 with
  | 0 => ⟨S4x2048x5632, .f32⟩
  | 1 => ⟨S_, .f32⟩
  | 2 => ⟨S4x2048x5632, .f32⟩
  | 3 => ⟨S4x2048x5632, .f32⟩
  | 4 => ⟨S4x2048x5632, .f32⟩
  | 5 => ⟨S4x2048x5632, .f32⟩
  | 6 => ⟨S2048x5632, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S2048x5632, .f32⟩
  | 17 => ⟨S2048x5632, .f32⟩
  | 18 => ⟨S2048x5632, .f32⟩
  | 19 => ⟨S_, .f32⟩
  | 20 => ⟨S_, .f32⟩
  | 21 => ⟨S_, .f32⟩
  | 22 => ⟨S2048x5632, .f32⟩
  | 23 => ⟨S2048x5632, .f32⟩
  | 24 => ⟨S_, .f32⟩
  | 25 => ⟨S2048x5632, .f32⟩
  | 26 => ⟨S2048x5632, .f32⟩
  | 27 => ⟨S2048x5632, .f32⟩
  | 28 => ⟨S2048x5632, .f32⟩
  | 29 => ⟨S4x2048x2048, .f32⟩
  | _ => ⟨S4x2048x2048, .f32⟩

abbrev hbmTy (i : Nat) : BufTy := match i / 128 with
  | 0 => hbmTy0_0 i
  | 1 => hbmTy0_1 i
  | _ => ⟨S4x2048x2048, .f32⟩

abbrev bufTy : (tb : Table) → Fin (tcTables nBuf tb) → BufTy
  | .hbm, ⟨i, _⟩ => hbmTy i
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_cst_3 : Ref sig .tc := ⟨.hbm, 19, rfl⟩
abbrev main_call2_v0 : Ref sig .tc := ⟨.hbm, 20, rfl⟩
abbrev main_call2_v1 : Ref sig .tc := ⟨.hbm, 21, rfl⟩
abbrev main_call2_v2 : Ref sig .tc := ⟨.hbm, 22, rfl⟩
abbrev main_call2_v3 : Ref sig .tc := ⟨.hbm, 23, rfl⟩
abbrev main_call2_v4 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_4 : Ref sig .tc := ⟨.hbm, 29, rfl⟩
abbrev main_v13 : Ref sig .tc := ⟨.hbm, 30, rfl⟩
abbrev main_cst_5 : Ref sig .tc := ⟨.hbm, 31, rfl⟩
abbrev main_v14 : Ref sig .tc := ⟨.hbm, 32, rfl⟩
abbrev main_cst_6 : Ref sig .tc := ⟨.hbm, 33, rfl⟩
abbrev main_call3_v0 : Ref sig .tc := ⟨.hbm, 34, rfl⟩
abbrev main_v15 : Ref sig .tc := ⟨.hbm, 35, rfl⟩
abbrev main_cst_7 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_8 : Ref sig .tc := ⟨.hbm, 41, rfl⟩
abbrev main_cst_9 : Ref sig .tc := ⟨.hbm, 42, rfl⟩
abbrev main_call5_v0 : Ref sig .tc := ⟨.hbm, 43, rfl⟩
abbrev main_call5_v1 : Ref sig .tc := ⟨.hbm, 44, rfl⟩
abbrev main_call5_v2 : Ref sig .tc := ⟨.hbm, 45, rfl⟩
abbrev main_call5_v3 : Ref sig .tc := ⟨.hbm, 46, rfl⟩
abbrev main_call5_v4 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_call6_v0 : Ref sig .tc := ⟨.hbm, 52, rfl⟩
abbrev main_call6_v1 : Ref sig .tc := ⟨.hbm, 53, rfl⟩
abbrev main_call6_cst : Ref sig .tc := ⟨.hbm, 54, rfl⟩
abbrev main_call6_v2 : Ref sig .tc := ⟨.hbm, 55, rfl⟩
abbrev main_call6_v3 : Ref sig .tc := ⟨.hbm, 56, rfl⟩
abbrev main_call6_cst_0 : Ref sig .tc := ⟨.hbm, 57, rfl⟩
abbrev main_call6_v4 : Ref sig .tc := ⟨.hbm, 58, rfl⟩
abbrev main_call6_v5 : Ref sig .tc := ⟨.hbm, 59, rfl⟩
abbrev main_v24 : Ref sig .tc := ⟨.hbm, 60, rfl⟩
abbrev main_v25 : Ref sig .tc := ⟨.hbm, 61, rfl⟩
abbrev main_cst_10 : Ref sig .tc := ⟨.hbm, 62, rfl⟩
abbrev main_v26 : Ref sig .tc := ⟨.hbm, 63, rfl⟩
abbrev main_v27 : Ref sig .tc := ⟨.hbm, 64, rfl⟩
abbrev main_cst_11 : Ref sig .tc := ⟨.hbm, 65, rfl⟩
abbrev main_call7_v0 : Ref sig .tc := ⟨.hbm, 66, rfl⟩
abbrev main_call7_v1 : Ref sig .tc := ⟨.hbm, 67, rfl⟩
abbrev main_v28 : Ref sig .tc := ⟨.hbm, 68, rfl⟩
abbrev main_cst_12 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_cst_13 : Ref sig .tc := ⟨.hbm, 75, rfl⟩
abbrev main_cst_14 : Ref sig .tc := ⟨.hbm, 76, rfl⟩
abbrev main_call9_v0 : Ref sig .tc := ⟨.hbm, 77, rfl⟩
abbrev main_call9_v1 : Ref sig .tc := ⟨.hbm, 78, rfl⟩
abbrev main_call9_v2 : Ref sig .tc := ⟨.hbm, 79, rfl⟩
abbrev main_call9_v3 : Ref sig .tc := ⟨.hbm, 80, rfl⟩
abbrev main_call9_v4 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_cst_15 : Ref sig .tc := ⟨.hbm, 86, rfl⟩
abbrev main_v38 : Ref sig .tc := ⟨.hbm, 87, rfl⟩
abbrev main_cst_16 : Ref sig .tc := ⟨.hbm, 88, rfl⟩
abbrev main_v39 : Ref sig .tc := ⟨.hbm, 89, rfl⟩
abbrev main_cst_17 : Ref sig .tc := ⟨.hbm, 90, rfl⟩
abbrev main_call10_v0 : Ref sig .tc := ⟨.hbm, 91, rfl⟩
abbrev main_v40 : Ref sig .tc := ⟨.hbm, 92, rfl⟩
abbrev main_cst_18 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_cst_19 : Ref sig .tc := ⟨.hbm, 98, rfl⟩
abbrev main_cst_20 : Ref sig .tc := ⟨.hbm, 99, rfl⟩
abbrev main_call12_v0 : Ref sig .tc := ⟨.hbm, 100, rfl⟩
abbrev main_call12_v1 : Ref sig .tc := ⟨.hbm, 101, rfl⟩
abbrev main_call12_v2 : Ref sig .tc := ⟨.hbm, 102, rfl⟩
abbrev main_call12_v3 : Ref sig .tc := ⟨.hbm, 103, rfl⟩
abbrev main_call12_v4 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_cst_21 : Ref sig .tc := ⟨.hbm, 111, rfl⟩
abbrev main_v51 : Ref sig .tc := ⟨.hbm, 112, rfl⟩
abbrev main_v52 : Ref sig .tc := ⟨.hbm, 113, rfl⟩
abbrev main_cst_22 : Ref sig .tc := ⟨.hbm, 114, rfl⟩
abbrev main_call13_v0 : Ref sig .tc := ⟨.hbm, 115, rfl⟩
abbrev main_call13_v1 : Ref sig .tc := ⟨.hbm, 116, rfl⟩
abbrev main_v53 : Ref sig .tc := ⟨.hbm, 117, rfl⟩
abbrev main_cst_23 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_cst_24 : Ref sig .tc := ⟨.hbm, 124, rfl⟩
abbrev main_cst_25 : Ref sig .tc := ⟨.hbm, 125, rfl⟩
abbrev main_call15_v0 : Ref sig .tc := ⟨.hbm, 126, rfl⟩
abbrev main_call15_v1 : Ref sig .tc := ⟨.hbm, 127, rfl⟩
abbrev main_call15_v2 : Ref sig .tc := ⟨.hbm, 128, rfl⟩
abbrev main_call15_v3 : Ref sig .tc := ⟨.hbm, 129, rfl⟩
abbrev main_call15_v4 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_cst_26 : Ref sig .tc := ⟨.hbm, 135, rfl⟩
abbrev main_v63 : Ref sig .tc := ⟨.hbm, 136, rfl⟩
abbrev main_cst_27 : Ref sig .tc := ⟨.hbm, 137, rfl⟩
abbrev main_v64 : Ref sig .tc := ⟨.hbm, 138, rfl⟩
abbrev main_cst_28 : Ref sig .tc := ⟨.hbm, 139, rfl⟩
abbrev main_call16_v0 : Ref sig .tc := ⟨.hbm, 140, rfl⟩
abbrev main_v65 : Ref sig .tc := ⟨.hbm, 141, rfl⟩
abbrev main_cst_29 : Ref sig .tc := ⟨.hbm, 142, rfl⟩
abbrev main_v66 : Ref sig .tc := ⟨.hbm, 143, rfl⟩
abbrev main_v67 : Ref sig .tc := ⟨.hbm, 144, rfl⟩
abbrev main_v68 : Ref sig .tc := ⟨.hbm, 145, rfl⟩
abbrev main_v69 : Ref sig .tc := ⟨.hbm, 146, rfl⟩
abbrev main_cst_30 : Ref sig .tc := ⟨.hbm, 147, rfl⟩
abbrev main_cst_31 : Ref sig .tc := ⟨.hbm, 148, rfl⟩
abbrev main_call18_v0 : Ref sig .tc := ⟨.hbm, 149, rfl⟩
abbrev main_call18_v1 : Ref sig .tc := ⟨.hbm, 150, rfl⟩
abbrev main_call18_v2 : Ref sig .tc := ⟨.hbm, 151, rfl⟩
abbrev main_call18_v3 : Ref sig .tc := ⟨.hbm, 152, rfl⟩
abbrev main_call18_v4 : Ref sig .tc := ⟨.hbm, 153, rfl⟩
abbrev main_v70 : Ref sig .tc := ⟨.hbm, 154, rfl⟩
abbrev main_v71 : Ref sig .tc := ⟨.hbm, 155, rfl⟩
abbrev main_v72 : Ref sig .tc := ⟨.hbm, 156, rfl⟩
abbrev main_v73 : Ref sig .tc := ⟨.hbm, 157, rfl⟩

abbrev nD : Nat := 1
abbrev τ : Topo := Topo.v7x

variable {F : FTy → Type} [FloatOps F]

class Facts₀ : Prop where
  reducesTo_S4x2048x2048_S4x2048_d2 : S4x2048x2048.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x2048_0_1_2 : S4x2048x1.BroadcastsInDim S4x2048x2048 (![0, 1, 2] : Fin 3 → Fin S4x2048x2048.rank)
  bcast_S_S4x2048x2048 : S_.BroadcastsInDim S4x2048x2048 (![] : Fin 0 → Fin S4x2048x2048.rank)
  reducesTo_S5632x2048_S_d0_1 : S5632x2048.ReducesTo [0, 1] S_
  bcast_S_S5632x2048 : S_.BroadcastsInDim S5632x2048 (![] : Fin 0 → Fin S5632x2048.rank)
  bcast_S_S4x2048x5632 : S_.BroadcastsInDim S4x2048x5632 (![] : Fin 0 → Fin S4x2048x5632.rank)
  reducesTo_S4x2048x5632_S4x2048_d2 : S4x2048x5632.ReducesTo [2] S4x2048
  bcast_S4x2048x1_S4x2048x5632_0_1_2 : S4x2048x1.BroadcastsInDim S4x2048x5632 (![0, 1, 2] : Fin 3 → Fin S4x2048x5632.rank)
  reducesTo_S2048x5632_S_d0_1 : S2048x5632.ReducesTo [0, 1] S_
  bcast_S_S2048x5632 : S_.BroadcastsInDim S2048x5632 (![] : Fin 0 → Fin S2048x5632.rank)
  dot_S4x2048x2048_S5632x2048_S4x2048x5632_2_1_01_0_n_n_wf : DotDims.WF S4x2048x2048 S5632x2048 S4x2048x5632 [2] [1] [0, 1] [0] [] []
  dot_S4x2048x5632_S2048x5632_S4x2048x2048_2_1_01_0_n_n_wf : DotDims.WF S4x2048x5632 S2048x5632 S4x2048x2048 [2] [1] [0, 1] [0] [] []

variable [Facts₀]

def dot_S4x2048x2048_S5632x2048_S4x2048x5632_2_1_01_0_n_n : DotDims S4x2048x2048 S5632x2048 S4x2048x5632 where
  lhsContracting := [2]
  rhsContracting := [1]
  lhsNonContracting := [0, 1]
  rhsNonContracting := [0]
  lhsBatch := []
  rhsBatch := []
  wf := dot_S4x2048x2048_S5632x2048_S4x2048x5632_2_1_01_0_n_n_wf
def dot_S4x2048x5632_S2048x5632_S4x2048x2048_2_1_01_0_n_n : DotDims S4x2048x5632 S2048x5632 S4x2048x2048 where
  lhsContracting := [2]
  rhsContracting := [1]
  lhsNonContracting := [0, 1]
  rhsNonContracting := [0]
  lhsBatch := []
  rhsBatch := []
  wf := dot_S4x2048x5632_S2048x5632_S4x2048x2048_2_1_01_0_n_n_wf

class Facts : Prop extends Facts₀ where

variable [Facts]
-- ==== Proof.KI.Body0.lean ====
/- The first kernel's body as a triple, one statement per control case. At a grid point whose second
   coordinate is 0 the body quantizes the row block of x it was handed, keeps the result in its scratch buffer, and
   computes the gated product block from that scratch and the two weight blocks; at any other point it reads the scratch
   the point before left and computes the gated product from it, leaving the scratch as found. -/
import proofs.«149337_j33191507264221_1_alg».proof.Proof.Gen.KernelIdeal.Launch
import proofs.«149337_j33191507264221_1_alg».proof.Proof.Gen.KernelIdeal.Skeleton
import proofs.«149337_j33191507264221_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 rectangle, as the constant function. -/
private theorem hz2 : (![0, 0] : Fin 2 → ℕ) = fun _ => 0 := funext fun a => by fin_cases a <;> rfl

/-- A load through the whole-shape rectangle at zero offsets reads the buffer's contents. -/
private theorem readAt_whole_unit {κ : Kind} {sp : Space} {S : Shape} {e : EltTy} (v : View sig κ sp S e) (f : v.ty.Contents (Elt F))
    {off : Fin S.rank → ℕ} (h : off = fun _ => 0) (inb : ∀ a, off a + S.size a ≤ S.size a) :
    View.readAt (Elt F) v (Rect.unit off S.size inb).toLoadRect f = View.read (Elt F) v f :=
  (View.readAt_eq_ld v f _).trans (View.ld_unit_zero h inb _)

/-- One store through the whole-shape rectangle at zero offsets, over any contents, reads back as its payload. -/
private theorem read_writes_whole_unit {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e) :
    View.read (Elt F) v (v.writes (Elt F) f [⟨Rect.unit off S.size inb, w⟩]) = w :=
  (View.read_writes_eq_canon v f _ (fun y => ⟨_, List.mem_singleton_self _, View.mem_set_unit_zero h inb y⟩)).trans
    (View.canon_unit_zero h inb w)

/-- The body's branch condition, a chain of word compares on the second grid coordinate, holds exactly when that
    coordinate is 0. -/
theorem cond0_iff (i : grid0.Coords) :
    (Scalar.cmpi .ne (Scalar.extui (Scalar.cmpi .eq (BitVec.ofNat 32 (i 1).val) 0#32)) 0#32 = 1#1) ↔ (i 1).val = 0 := by
  have h : ∀ j : Fin 11, (Scalar.cmpi .ne (Scalar.extui (Scalar.cmpi .eq (BitVec.ofNat 32 j.val) 0#32)) 0#32 = 1#1) ↔ j.val = 0 := by
    decide
  exact h (i 1)

/-- Second coordinate 0: the scratch is overwritten by the quantized block, the output by the gated product of it. -/
theorem sound_kernel0_first (c : Dev nD) (E : Set ℕ) (i : grid0.Coords) (hi : (i 1).val = 0)
    (arg2 : Memref sig .tc .vmem S1024x2048 .f32) (harg2 : arg2.IsWhole) (arg3 : Memref sig .tc .vmem S512x2048 .bf16) (harg3 : arg3.IsWhole)
    (arg4 : Memref sig .tc .vmem S512x2048 .bf16) (harg4 : arg4.IsWhole) (arg5 : Memref sig .tc .vmem S1024x512 .bf16) (harg5 : arg5.IsWhole)
    (arg6 : Memref sig .tc .vmem S1024x2048 .bf16) (harg6 : arg6.IsWhole)
    (x0 : Vec F S1024x2048 .f32) (w1 : Vec F S512x2048 .bf16) (w3 : Vec F S512x2048 .bf16) (K : PUnit → sProp 𝕄) :
    iprop(owns (c : Thread nD τ) arg2 fullShare x0 ∗ owns (c : Thread nD τ) arg3 fullShare w1 ∗ owns (c : Thread nD τ) arg4 fullShare w3
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare w1 ∗ owns (c : Thread nD τ) arg4 fullShare w3
            ∗ owns (c : Thread nD τ) arg5 fullShare (k0_pay2 (k0_pay1 x0) w1 w3) ∗ owns (c : Thread nD τ) arg6 fullShare (k0_pay1 x0)) -∗ K ⟨⟩))
      ⊢ wp frame (wpE (defs₀ (F := F)) Variants.none c none) E (cc0__kernel_a i arg2 harg2 arg3 harg3 arg4 harg4 arg5 harg5 arg6 harg6) K := by
  have hc : Scalar.cmpi .ne (Scalar.extui (Scalar.cmpi .eq (BitVec.ofNat 32 (i 1).val) 0#32)) 0#32 = 1#1 :=
    (cond0_iff i).mpr hi
  simp only [cc0__kernel_a_eq_skeleton]; unfold cc0__kernel_a_skel
  unfold owns
  iintro ⟨⟨%f2, %hf2, H2⟩, ⟨%f3, %hf3, H3⟩, ⟨%f4, %hf4, H4⟩, ⟨%d5, %f5, -, H5⟩, ⟨%d6, %f6, -, H6⟩, Hk⟩
  subst hf2; subst hf3; subst hf4
  sl_exec (disch := exact hc)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    rw [read_writes_whole_unit _ _ hz2, View.readCov_unit_zero _ hz2, readAt_whole_unit _ _ hz2, readAt_whole_unit _ _ hz2,
      readAt_whole_unit _ _ hz2]
  iexists _; isplitr
  swap; · iexact H6
  ipureintro
  sl_unfold_run_names
  rw [read_writes_whole_unit _ _ hz2, readAt_whole_unit _ _ hz2]

/-- Second coordinate not 0: the scratch is read and kept, the output is the gated product of it; the x block is not touched. -/
theorem sound_kernel0_rest (c : Dev nD) (E : Set ℕ) (i : grid0.Coords) (hi : (i 1).val ≠ 0)
    (arg2 : Memref sig .tc .vmem S1024x2048 .f32) (harg2 : arg2.IsWhole) (arg3 : Memref sig .tc .vmem S512x2048 .bf16) (harg3 : arg3.IsWhole)
    (arg4 : Memref sig .tc .vmem S512x2048 .bf16) (harg4 : arg4.IsWhole) (arg5 : Memref sig .tc .vmem S1024x512 .bf16) (harg5 : arg5.IsWhole)
    (arg6 : Memref sig .tc .vmem S1024x2048 .bf16) (harg6 : arg6.IsWhole)
    (w1 : Vec F S512x2048 .bf16) (w3 : Vec F S512x2048 .bf16) (s : Vec F S1024x2048 .bf16) (K : PUnit → sProp 𝕄) :
    iprop(owns (c : Thread nD τ) arg3 fullShare w1 ∗ owns (c : Thread nD τ) arg4 fullShare w3
        ∗ (∃ d, owns (c : Thread nD τ) arg5 fullShare d) ∗ owns (c : Thread nD τ) arg6 fullShare s
        ∗ (iprop(owns (c : Thread nD τ) arg3 fullShare w1 ∗ owns (c : Thread nD τ) arg4 fullShare w3
            ∗ owns (c : Thread nD τ) arg5 fullShare (k0_pay2 s w1 w3) ∗ owns (c : Thread nD τ) arg6 fullShare s) -∗ K ⟨⟩))
      ⊢ wp frame (wpE (defs₀ (F := F)) Variants.none c none) E (cc0__kernel_a i arg2 harg2 arg3 harg3 arg4 harg4 arg5 harg5 arg6 harg6) K := by
  have hc : ¬ (Scalar.cmpi .ne (Scalar.extui (Scalar.cmpi .eq (BitVec.ofNat 32 (i 1).val) 0#32)) 0#32 = 1#1) :=
    fun h => hi ((cond0_iff i).mp h)
  simp only [cc0__kernel_a_eq_skeleton]; unfold cc0__kernel_a_skel
  unfold owns
  iintro ⟨⟨%f3, %hf3, H3⟩, ⟨%f4, %hf4, H4⟩, ⟨%d5, %f5, -, H5⟩, ⟨%f6, %hf6, H6⟩, Hk⟩
  subst hf3; subst hf4; subst hf6
  sl_exec (disch := exact hc)
  sl_step
  iapply Hk
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [read_writes_whole_unit _ _ hz2, readAt_whole_unit _ _ hz2, readAt_whole_unit _ _ hz2, readAt_whole_unit _ _ hz2]
  iexists f6; isplitr; · ipureintro; rfl
  iexact H6

end Cert.KernelIdeal.Hand

end
-- ==== Proof.KI.Region0.lean ====
/- The first pallas_call as a pipeline region, at any contents V of the core's buffers when the region is entered:
   each window's block at a grid point, what the body leaves in its scratch buffer and in its output buffer at each point,
   the region's invariant, the pipeline's proof data and the body obligation.
   The grid is 8 row tiles by 11 column tiles, column fastest: point t is (t / 11, t % 11). The x window's block depends on the
   row tile only, so the scratch buffer, written at column 0 and kept at the other columns, holds after EVERY point the
   quantized x block of that same point. -/
import proofs.«149337_j33191507264221_1_alg».proof.Proof.Gen.KernelIdeal.Launch
import proofs.«149337_j33191507264221_1_alg».proof.Proof.Gen.KernelIdeal.Skeleton
import proofs.«149337_j33191507264221_1_alg».proof.Proof.Gen.KernelIdeal.Points
import proofs.«149337_j33191507264221_1_alg».proof.Proof.KI.Body0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x block, and the two weight blocks, at point t, at their literal types. -/
abbrev xblk0 (c : Dev nD) (t : Fin cfg0.N) : Vec F S1024x2048 .f32 := iblk0 V c 0 t
abbrev w1blk0 (c : Dev nD) (t : Fin cfg0.N) : Vec F S512x2048 .bf16 := iblk0 V c 1 t
abbrev w3blk0 (c : Dev nD) (t : Fin cfg0.N) : Vec F S512x2048 .bf16 := iblk0 V c 2 t

/-- What the scratch buffer holds after point t: the quantized x block of t. -/
def scr0 (c : Dev nD) (t : Fin cfg0.N) : Vec F S1024x2048 .bf16 := k0_pay1 (xblk0 V c t)

/-- What the output window's buffer holds after point t: the gated product of the quantized x block with the two weight blocks. -/
def out0 (c : Dev nD) (t : Fin cfg0.N) : Vec F S1024x512 .bf16 := k0_pay2 (scr0 V c t) (w1blk0 V c t) (w3blk0 V c t)

/-- Proof data that name the entry contents only: the library states "two points with one block index read one
    block" over proof data, and reads nothing of them but the arrays. -/
private def datA0 (c : Dev nD) : Dat τ (Elt F) Unit ℕ (UR sig nD τ) ℕ cfg0 c where
  A w := V c (Pipeline.arrRef spec0 w)
  after _ _ := fun _ => Classical.arbitrary _
  Φ _ := iprop(emp)
  q _ := fullShare
  owed _ := 0

/-- Every window of this call is uncut, so a fetch fills the whole staging buffer with the block. -/
private theorem fetchedA0 (c : Dev nD) (t : Fin cfg0.N) (d) : (datA0 V c).fetched 0 t d = iblk0 V c 0 t := by
  unfold Dat.fetched Dat.blockOf iblk0; rfl

/-- At a point that is not a row tile's first, the x block is the one of the point before. -/
theorem xblk0_prev (c : Dev nD) (t : Fin cfg0.N) (h : t.val % 11 ≠ 0) :
    xblk0 V c t = xblk0 V c ⟨t.val - 1, Nat.lt_of_le_of_lt (Nat.sub_le _ _) t.isLt⟩ := by
  -- the x window is not fetched at t, so its block index is the one of the point before
  have hf : (cfg0.win 0).fetch t = false := by
    cases hft : (cfg0.win 0).fetch t with
    | false => rfl
    | true => exact absurd ((fetch0_0 t).mp hft) h
  obtain ⟨-, hix⟩ := (cfg0.win 0).index_eq_of_fetch rfl t hf
  have e := (datA0 V c).fetched_congr 0 hix rfl (xblk0 V c t)
  rw [fetchedA0, fetchedA0] at e
  exact e

/-- The second grid coordinate of point t is t % 11. -/
theorem coord0_1 (t : Fin cfg0.N) : ((grid0.coords t) 1).val = t.val % 11 :=
  (by decide +kernel : ∀ t : Fin grid0.N, ((grid0.coords t) 1).val = t.val % 11) t

/-- The core's scoped buffers that are neither staging buffers of this call nor its scratch, each whole at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The region's invariant before position n: before the first point every scoped buffer that is no staging buffer at
    anything and the generator register at some state; afterwards the scratch at what the point before left in it. -/
def Phi0 (c : Dev nD) : (n : ℕ) → n ≤ cfg0.N → sProp 𝕄
  | 0, _ => Pipeline.ΦA spec0 c
  | n + 1, hn => iprop(owns (c : Thread nD τ) (Memref.whole cc0_scratch0) fullShare (scr0 V c ⟨n, Nat.lt_of_succ_le hn⟩) ∗ rest0 (F := F) c ∗ (∃ r, prngReg c r))

/-- The proof data of the first pipeline on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 V c t
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0 V c t := by dsimp only [dat0]

/-- The windows are uncut: a fetch fills the whole staging buffer with the block read off the entry contents. -/
private theorem fetched0_0 (c : Dev nD) (t : Fin cfg0.N) (d) : (dat0 V c).fetched 0 t d = iblk0 V c 0 t := by
  unfold Dat.fetched Dat.blockOf iblk0; rw [A_eq0]; rfl
private theorem fetched0_1 (c : Dev nD) (t : Fin cfg0.N) (d) : (dat0 V c).fetched 1 t d = iblk0 V c 1 t := by
  unfold Dat.fetched Dat.blockOf iblk0; rw [A_eq0]; rfl
private theorem fetched0_2 (c : Dev nD) (t : Fin cfg0.N) (d) : (dat0 V c).fetched 2 t d = iblk0 V c 2 t := by
  unfold Dat.fetched Dat.blockOf iblk0; rw [A_eq0]; rfl

/-- The block the library reads for a window is the one named here. -/
private theorem blockOf0 (c : Dev nD) (w : Fin cfg0.W) (t : Fin cfg0.N) : (dat0 V c).blockOf w t = iblk0 V c w t := by
  unfold Dat.blockOf iblk0; rw [A_eq0]

/-- Each input window's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0, blockOf0]) t d).trans (fetched0_0 V c t d)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1, blockOf0]) t d).trans (fetched0_1 V c t d)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2, blockOf0]) t d).trans (fetched0_2 V c t d)

/-! ## The invariant, position by position -/

/-- Before the first point the invariant is what the launch hands over. -/
theorem Phi0_zero (c : Dev nD) (n : ℕ) (h : n ≤ cfg0.N) (hz : n = 0) : Phi0 V c n h = Pipeline.ΦA spec0 c := by
  subst hz; rfl

/-- After point n: the scratch at the quantized x block of point n. -/
theorem Phi0_succ (c : Dev nD) (n : ℕ) (hn : n < cfg0.N) :
    Phi0 V c (n + 1) hn = iprop(owns (c : Thread nD τ) (Memref.whole cc0_scratch0) fullShare (scr0 V c ⟨n, hn⟩) ∗ rest0 (F := F) c ∗ (∃ r, prngReg c r)) := rfl

/-- Before a point that is not the first: the scratch at what the point before left. -/
theorem Phi0_pos (c : Dev nD) (n : ℕ) (h : n ≤ cfg0.N) (hz : n ≠ 0) :
    Phi0 V c n h = iprop(owns (c : Thread nD τ) (Memref.whole cc0_scratch0) fullShare (scr0 V c ⟨n - 1, by omega⟩) ∗ rest0 (F := F) c ∗ (∃ r, prngReg c r)) := by
  cases n with
  | zero => exact absurd rfl hz
  | succ n => rfl

/-- The invariant at a point's start, restated at the point's number. -/
theorem Phi0_castSucc (c : Dev nD) (t : Fin cfg0.N) : (dat0 V c).Φ t.castSucc = Phi0 V c t.val (Nat.le_of_lt t.isLt) := rfl

/-- The launch's invariant opened: this call's scratch at some contents, the other scoped buffers, the generator register. -/
theorem PhiA_eq0 (c : Dev nD) :
    (Pipeline.ΦA spec0 c : sProp 𝕄)
      = iprop(((∃ d, owns (c : Thread nD τ) (Memref.whole cc0_scratch0) fullShare d) ∗ rest0 (F := F) c) ∗ (∃ r, prngReg c r)) := by
  unfold Pipeline.ΦA rest0; rw [scopedRest0_eq]; simp only [owns_whole]; try rfl

/-- At a point that is not a row tile's first the scratch contents named for the point before are this point's. -/
theorem scr0_prev (c : Dev nD) (t : Fin cfg0.N) (h : t.val % 11 ≠ 0) (hlt : t.val - 1 < cfg0.N) :
    scr0 V c ⟨t.val - 1, hlt⟩ = scr0 V c t := by
  unfold scr0; rw [xblk0_prev V c t h]

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns: no window is idle at any point, so each buffer is left at the named contents. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 1600000 in
/-- The body at any point. At a row tile's first point (second coordinate 0) the x block is quantized into the scratch,
    whatever the scratch held (anything at the very first point, the previous row tile's block afterwards); at the other
    points the scratch holds the quantized block of the point before, which is this point's since the x block has not
    moved, and is kept. In both cases the output is the gated product of the scratch with the two weight blocks. The
    other scoped buffers, the generator register and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl,
    after0_0, after0_1, after0_2, after0_3,
    show (dat0 V c).Φ t.succ = Phi0 V c (t.val + 1) t.isLt from rfl, Phi0_succ, Phi0_castSucc]
  unfold out0
  by_cases h : t.val % 11 = 0
  · have hi : ((grid0.coords t) 1).val = 0 := (coord0_1 t).trans h
    by_cases hz : t.val = 0
    · rw [Phi0_zero V c _ _ hz, PhiA_eq0]
      unfold scr0
      iintro ⟨⟨⟨HS, Hr⟩, Hg⟩, Ho, ⟨%d0, H0⟩, ⟨%d1, H1⟩, ⟨%d2, H2⟩, ⟨%d3, H3⟩⟩
      iapply (sound_kernel0_first c Set.univ (grid0.coords t) hi _ _ _ _ _ _ _ _ _ _ (xblk0 V c t) (w1blk0 V c t) (w3blk0 V c t) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3
    · rw [Phi0_pos V c _ _ hz]
      unfold scr0
      iintro ⟨⟨HS, Hr, Hg⟩, Ho, ⟨%d0, H0⟩, ⟨%d1, H1⟩, ⟨%d2, H2⟩, ⟨%d3, H3⟩⟩
      iapply (sound_kernel0_first c Set.univ (grid0.coords t) hi _ _ _ _ _ _ _ _ _ _ (xblk0 V c t) (w1blk0 V c t) (w3blk0 V c t) _)
      isplitl [H0]; · iexact H0
      isplitl [H1]; · iexact H1
      isplitl [H2]; · iexact H2
      isplitl [H3]; · iexists _; iexact H3
      isplitl [HS]; · iexists _; iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3
  · have hi : ((grid0.coords t) 1).val ≠ 0 := fun e => h ((coord0_1 t).symm.trans e)
    have hz : t.val ≠ 0 := fun e => h (by rw [e])
    rw [Phi0_pos V c _ _ hz, scr0_prev V c t h]
    iintro ⟨⟨HS, Hr, Hg⟩, Ho, ⟨%d0, H0⟩, ⟨%d1, H1⟩, ⟨%d2, H2⟩, ⟨%d3, H3⟩⟩
    iapply (sound_kernel0_rest c Set.univ (grid0.coords t) hi _ _ _ _ _ _ _ _ _ _ (w1blk0 V c t) (w3blk0 V c t) (scr0 V c t) _)
    isplitl [H1]; · iexact H1
    isplitl [H2]; · iexact H2
    isplitl [H3]; · iexists _; iexact H3
    isplitl [HS]; · iexact HS
    iintro ⟨H1, H2, H3, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]

/-- After the last point the invariant gives the scoped buffers back at some contents, the scratch's named contents forgotten. -/
theorem hout0 (c : Dev nD) : (dat0 V c).Φ (Fin.last cfg0.N) ⊢ Pipeline.ΦA spec0 c := by
  have hN : cfg0.N ≠ 0 := by rw [show cfg0.N = 88 from N_0]; decide
  rw [show (dat0 V c).Φ (Fin.last cfg0.N) = Phi0 V c cfg0.N (Nat.le_refl _) from rfl, Phi0_pos V c _ _ hN, PhiA_eq0]
  iintro ⟨HS, Hr, Hg⟩
  isplitl [HS Hr]
  · isplitl [HS]; · iexists _; iexact HS
    iexact Hr
  iexact Hg

end Region0

end Cert.KernelIdeal.Hand

end
-- ==== Proof.KI.Body1.lean ====
/- The second kernel's body as a triple, one statement per control case. At a grid point whose second
   coordinate is 0 the body quantizes the row block of the activation it was handed, keeps the result in its scratch
   buffer, and multiplies it with the weight block; at any other point it multiplies the scratch the point before left. -/
import proofs.«149337_j33191507264221_1_alg».proof.Proof.Gen.KernelIdeal.Launch
import proofs.«149337_j33191507264221_1_alg».proof.Proof.Gen.KernelIdeal.Skeleton
import proofs.«149337_j33191507264221_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 rectangle, as the constant function. -/
private theorem hz2 : (![0, 0] : Fin 2 → ℕ) = fun _ => 0 := funext fun a => by fin_cases a <;> rfl

/-- A load through the whole-shape rectangle at zero offsets reads the buffer's contents. -/
private theorem readAt_whole_unit {κ : Kind} {sp : Space} {S : Shape} {e : EltTy} (v : View sig κ sp S e) (f : v.ty.Contents (Elt F))
    {off : Fin S.rank → ℕ} (h : off = fun _ => 0) (inb : ∀ a, off a + S.size a ≤ S.size a) :
    View.readAt (Elt F) v (Rect.unit off S.size inb).toLoadRect f = View.read (Elt F) v f :=
  (View.readAt_eq_ld v f _).trans (View.ld_unit_zero h inb _)

/-- One store through the whole-shape rectangle at zero offsets, over any contents, reads back as its payload. -/
private theorem read_writes_whole_unit {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e) :
    View.read (Elt F) v (v.writes (Elt F) f [⟨Rect.unit off S.size inb, w⟩]) = w :=
  (View.read_writes_eq_canon v f _ (fun y => ⟨_, List.mem_singleton_self _, View.mem_set_unit_zero h inb y⟩)).trans
    (View.canon_unit_zero h inb w)

/-- The body's branch condition, a chain of word compares on the second grid coordinate, holds exactly when that
    coordinate is 0. -/
theorem cond1_iff (i : grid1.Coords) :
    (Scalar.cmpi .ne (Scalar.extui (Scalar.cmpi .eq (BitVec.ofNat 32 (i 1).val) 0#32)) 0#32 = 1#1) ↔ (i 1).val = 0 := by
  have h : ∀ j : Fin 4, (Scalar.cmpi .ne (Scalar.extui (Scalar.cmpi .eq (BitVec.ofNat 32 j.val) 0#32)) 0#32 = 1#1) ↔ j.val = 0 := by
    decide
  exact h (i 1)

/-- Second coordinate 0: the scratch is overwritten by the quantized block, the output by its product with the weight block. -/
theorem sound_kernel1_first (c : Dev nD) (E : Set ℕ) (i : grid1.Coords) (hi : (i 1).val = 0)
    (arg2 : Memref sig .tc .vmem S512x5632 .bf16) (harg2 : arg2.IsWhole) (arg3 : Memref sig .tc .vmem S512x5632 .bf16) (harg3 : arg3.IsWhole)
    (arg4 : Memref sig .tc .vmem S512x512 .f32) (harg4 : arg4.IsWhole) (arg5 : Memref sig .tc .vmem S512x5632 .bf16) (harg5 : arg5.IsWhole)
    (a0 : Vec F S512x5632 .bf16) (w2 : Vec F S512x5632 .bf16) (K : PUnit → sProp 𝕄) :
    iprop(owns (c : Thread nD τ) arg2 fullShare a0 ∗ owns (c : Thread nD τ) arg3 fullShare w2
        ∗ (∃ d, owns (c : Thread nD τ) arg4 fullShare d) ∗ (∃ d, owns (c : Thread nD τ) arg5 fullShare d)
        ∗ (iprop(owns (c : Thread nD τ) arg2 fullShare a0 ∗ owns (c : Thread nD τ) arg3 fullShare w2
            ∗ owns (c : Thread nD τ) arg4 fullShare (k1_pay2 (k1_pay1 a0) w2) ∗ owns (c : Thread nD τ) arg5 fullShare (k1_pay1 a0)) -∗ K ⟨⟩))
      ⊢ wp frame (wpE (defs₀ (F := F)) Variants.none c none) E (cc1__kernel_b i arg2 harg2 arg3 harg3 arg4 harg4 arg5 harg5) K := by
  have hc : Scalar.cmpi .ne (Scalar.extui (Scalar.cmpi .eq (BitVec.ofNat 32 (i 1).val) 0#32)) 0#32 = 1#1 :=
    (cond1_iff i).mpr hi
  simp only [cc1__kernel_b_eq_skeleton]; unfold cc1__kernel_b_skel
  unfold owns
  iintro ⟨⟨%f2, %hf2, H2⟩, ⟨%f3, %hf3, H3⟩, ⟨%d4, %f4, -, H4⟩, ⟨%d5, %f5, -, H5⟩, Hk⟩
  subst hf2; subst hf3
  sl_exec (disch := exact hc)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [read_writes_whole_unit _ _ hz2, View.readCov_unit_zero _ hz2, readAt_whole_unit _ _ hz2, readAt_whole_unit _ _ hz2]
  iexists _; isplitr
  swap; · iexact H5
  ipureintro
  sl_unfold_run_names
  rw [read_writes_whole_unit _ _ hz2, readAt_whole_unit _ _ hz2]

/-- Second coordinate not 0: the scratch is read and kept, the output is its product with the weight block; the activation block is not touched. -/
theorem sound_kernel1_rest (c : Dev nD) (E : Set ℕ) (i : grid1.Coords) (hi : (i 1).val ≠ 0)
    (arg2 : Memref sig .tc .vmem S512x5632 .bf16) (harg2 : arg2.IsWhole) (arg3 : Memref sig .tc .vmem S512x5632 .bf16) (harg3 : arg3.IsWhole)
    (arg4 : Memref sig .tc .vmem S512x512 .f32) (harg4 : arg4.IsWhole) (arg5 : Memref sig .tc .vmem S512x5632 .bf16) (harg5 : arg5.IsWhole)
    (w2 : Vec F S512x5632 .bf16) (s : Vec F S512x5632 .bf16) (K : PUnit → sProp 𝕄) :
    iprop(owns (c : Thread nD τ) arg3 fullShare w2
        ∗ (∃ d, owns (c : Thread nD τ) arg4 fullShare d) ∗ owns (c : Thread nD τ) arg5 fullShare s
        ∗ (iprop(owns (c : Thread nD τ) arg3 fullShare w2
            ∗ owns (c : Thread nD τ) arg4 fullShare (k1_pay2 s w2) ∗ owns (c : Thread nD τ) arg5 fullShare s) -∗ K ⟨⟩))
      ⊢ wp frame (wpE (defs₀ (F := F)) Variants.none c none) E (cc1__kernel_b i arg2 harg2 arg3 harg3 arg4 harg4 arg5 harg5) K := by
  have hc : ¬ (Scalar.cmpi .ne (Scalar.extui (Scalar.cmpi .eq (BitVec.ofNat 32 (i 1).val) 0#32)) 0#32 = 1#1) :=
    fun h => hi ((cond1_iff i).mp h)
  simp only [cc1__kernel_b_eq_skeleton]; unfold cc1__kernel_b_skel
  unfold owns
  iintro ⟨⟨%f3, %hf3, H3⟩, ⟨%d4, %f4, -, H4⟩, ⟨%f5, %hf5, H5⟩, Hk⟩
  subst hf3; subst hf5
  sl_exec (disch := exact hc)
  sl_step
  iapply Hk
  isplitl [H3]
  · iexists f3; isplitr; · ipureintro; rfl
    iexact H3
  isplitl [H4]
  · iexists _; isplitr
    swap; · iexact H4
    ipureintro
    rw [read_writes_whole_unit _ _ hz2, readAt_whole_unit _ _ hz2, readAt_whole_unit _ _ hz2]
  iexists f5; isplitr; · ipureintro; rfl
  iexact H5

end Cert.KernelIdeal.Hand

end
-- ==== Proof.KI.Region1.lean ====
/- The second pallas_call as a pipeline region, at any contents V of the core's buffers when the region is entered:
   each window's block at a grid point, what the body leaves in its scratch buffer and in its output buffer at each point,
   the region's invariant, the pipeline's proof data and the body obligation.
   The grid is 16 row tiles by 4 column tiles, column fastest: point t is (t / 4, t % 4). The activation window's block depends
   on the row tile only, so the scratch buffer, written at column 0 and kept at the other columns, holds after EVERY point the
   quantized activation block of that same point. -/
import proofs.«149337_j33191507264221_1_alg».proof.Proof.Gen.KernelIdeal.Launch
import proofs.«149337_j33191507264221_1_alg».proof.Proof.Gen.KernelIdeal.Skeleton
import proofs.«149337_j33191507264221_1_alg».proof.Proof.Gen.KernelIdeal.Points
import proofs.«149337_j33191507264221_1_alg».proof.Proof.KI.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activation block and the weight block at point t, at their literal types. -/
abbrev ablk1 (c : Dev nD) (t : Fin cfg1.N) : Vec F S512x5632 .bf16 := iblk1 V c 0 t
abbrev w2blk1 (c : Dev nD) (t : Fin cfg1.N) : Vec F S512x5632 .bf16 := iblk1 V c 1 t

/-- What the scratch buffer holds after point t: the quantized activation block of t. -/
def scr1 (c : Dev nD) (t : Fin cfg1.N) : Vec F S512x5632 .bf16 := k1_pay1 (ablk1 V c t)

/-- What the output window's buffer holds after point t: the product of the quantized activation block with the weight block. -/
def out1 (c : Dev nD) (t : Fin cfg1.N) : Vec F S512x512 .f32 := k1_pay2 (scr1 V c t) (w2blk1 V c t)

/-- The second grid coordinate of point t is t % 4. -/
theorem coord1_1 (t : Fin cfg1.N) : ((grid1.coords t) 1).val = t.val % 4 :=
  (by decide +kernel : ∀ t : Fin grid1.N, ((grid1.coords t) 1).val = t.val % 4) t

/-- The core's scoped buffers that are neither staging buffers of this call nor its scratch, each whole at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- The region's invariant before position n: before the first point every scoped buffer that is no staging buffer at
    anything and the generator register at some state; afterwards the scratch at what the point before left in it. -/
def Phi1 (c : Dev nD) : (n : ℕ) → n ≤ cfg1.N → sProp 𝕄
  | 0, _ => Pipeline.ΦA spec1 c
  | n + 1, hn => iprop(owns (c : Thread nD τ) (Memref.whole cc1_scratch0) fullShare (scr1 V c ⟨n, Nat.lt_of_succ_le hn⟩) ∗ rest1 (F := F) c ∗ (∃ r, prngReg c r))

/-- The proof data of the second pipeline on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 V c t
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 V c t := by dsimp only [dat1]

/-- What a fetch of an input window puts in its staging buffer is the window's block, whatever the buffer held. -/
theorem fetched1_0 (c : Dev nD) (t : Fin cfg1.N) (d) : (dat1 V c).fetched 0 t d = iblk1 V c 0 t := by
  unfold Dat.fetched Dat.blockOf iblk1; rw [A_eq1]; try rfl
theorem fetched1_1 (c : Dev nD) (t : Fin cfg1.N) (d) : (dat1 V c).fetched 1 t d = iblk1 V c 1 t := by
  unfold Dat.fetched Dat.blockOf iblk1; rw [A_eq1]; try rfl

/-- At a point that is not a row tile's first, the activation block is the one of the point before. -/
theorem ablk1_prev (c : Dev nD) (t : Fin cfg1.N) (h : t.val % 4 ≠ 0) :
    ablk1 V c t = ablk1 V c ⟨t.val - 1, Nat.lt_of_le_of_lt (Nat.sub_le _ _) t.isLt⟩ := by
  have hf : (cfg1.win 0).fetch t = false := by
    rw [← Bool.not_eq_true]; exact fun hft => h ((fetch1_0 t).mp hft)
  obtain ⟨_, hix⟩ := (cfg1.win 0).index_eq_of_fetch rfl t hf
  exact ((fetched1_0 V c t (ablk1 V c t)).symm.trans ((dat1 V c).fetched_congr 0 hix rfl (ablk1 V c t))).trans
    (fetched1_0 V c _ (ablk1 V c t))

/-- Each input window's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans (fetched1_0 V c t d)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans (fetched1_1 V c t d)

/-- The invariant's cases. -/
theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(owns (c : Thread nD τ) (Memref.whole cc1_scratch0) fullShare (scr1 V c ⟨n, hn⟩) ∗ rest1 (F := F) c ∗ (∃ r, prngReg c r)) := rfl

theorem Phi1_pos (c : Dev nD) (n : ℕ) (h : n ≤ cfg1.N) (hz : n ≠ 0) :
    Phi1 V c n h = iprop(owns (c : Thread nD τ) (Memref.whole cc1_scratch0) fullShare (scr1 V c ⟨n - 1, by omega⟩) ∗ rest1 (F := F) c ∗ (∃ r, prngReg c r)) := by
  cases n with
  | zero => exact absurd rfl hz
  | succ n => rfl

theorem Phi1_castSucc (c : Dev nD) (t : Fin cfg1.N) :
    (dat1 V c).Φ t.castSucc = Phi1 V c t.val (Nat.le_of_lt t.isLt) := by
  dsimp only [dat1]; simp only [Fin.coe_castSucc]

/-- The class invariant with this call's scratch split off as a memref owned at some contents. -/
theorem PhiA1_eq (c : Dev nD) :
    (Pipeline.ΦA spec1 c : sProp 𝕄)
      = iprop((∃ d, owns (c : Thread nD τ) (Memref.whole cc1_scratch0) fullShare d) ∗ rest1 (F := F) c ∗ (∃ r, prngReg c r)) := by
  have h₁ : (Pipeline.ΦA spec1 c : sProp 𝕄)
      ⊢ iprop((∃ d, owns (c : Thread nD τ) (Memref.whole cc1_scratch0) fullShare d) ∗ rest1 (F := F) c ∗ (∃ r, prngReg c r)) := by
    unfold Pipeline.ΦA rest1; rw [scopedRest1_eq]; simp only [owns_whole]
    iintro ⟨⟨H0, H1, H2, H3, H4, H5, H6, H7, H8, HS⟩, Hg⟩
    isplitl [HS]; · iexact HS
    isplitr [Hg]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    iexact Hg
  have h₂ : iprop((∃ d, owns (c : Thread nD τ) (Memref.whole cc1_scratch0) fullShare d) ∗ rest1 (F := F) c ∗ (∃ r, prngReg c r))
      ⊢ (Pipeline.ΦA spec1 c : sProp 𝕄) := by
    unfold Pipeline.ΦA rest1; rw [scopedRest1_eq]; simp only [owns_whole]
    iintro ⟨HS, ⟨H0, H1, H2, H3, H4, H5, H6, H7, H8⟩, Hg⟩
    isplitr [Hg]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact HS
    iexact Hg
  exact BI.equiv_iff.mp ⟨h₁, h₂⟩

/-- The scratch's contents after a point that is not a row tile's first are those after the point before. -/
theorem scr1_prev (c : Dev nD) (t : Fin cfg1.N) (h : t.val % 4 ≠ 0) :
    scr1 V c ⟨t.val - 1, Nat.lt_of_le_of_lt (Nat.sub_le _ _) t.isLt⟩ = scr1 V c t := by
  unfold scr1; rw [ablk1_prev V c t h]

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 1600000 in
/-- The body at any point. At a row tile's first point the body quantizes the activation block into the scratch, which the
    invariant hands it at anything (before the first point of the grid) or at the contents of the tile before (forgotten); at
    the other points the invariant hands it the scratch at what the point before left, which is this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ]
  rw [after1_0, after1_1, after1_2]
  by_cases h : t.val % 4 = 0
  · have hi : ((grid1.coords t) 1).val = 0 := (coord1_1 t).trans h
    by_cases hz : t.val = 0
    · rw [Phi1_castSucc V c t, Phi1_zero V c _ _ hz, PhiA1_eq]
      iintro ⟨⟨HS, Hr, Hg⟩, Ho, ⟨%d0, H0⟩, ⟨%d1, H1⟩, ⟨%d2, H2⟩⟩
      iapply (sound_kernel1_first c Set.univ (grid1.coords t) hi _ _ _ _ _ _ _ _ (ablk1 V c t) (w2blk1 V c t) _)
      isplitl [H0]; · iexact H0
      isplitl [H1]; · iexact H1
      isplitl [H2]; · iexists _; iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexact H2
    · rw [Phi1_castSucc V c t, Phi1_pos V c _ _ hz]
      iintro ⟨⟨HS, Hr, Hg⟩, Ho, ⟨%d0, H0⟩, ⟨%d1, H1⟩, ⟨%d2, H2⟩⟩
      iapply (sound_kernel1_first c Set.univ (grid1.coords t) hi _ _ _ _ _ _ _ _ (ablk1 V c t) (w2blk1 V c t) _)
      isplitl [H0]; · iexact H0
      isplitl [H1]; · iexact H1
      isplitl [H2]; · iexists _; iexact H2
      isplitl [HS]; · iexists _; iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexact H2
  · have hi : ((grid1.coords t) 1).val ≠ 0 := fun e => h ((coord1_1 t).symm.trans e)
    have hz : t.val ≠ 0 := fun e => h (by rw [e])
    rw [Phi1_castSucc V c t, Phi1_pos V c _ _ hz, scr1_prev V c t h]
    iintro ⟨⟨HS, Hr, Hg⟩, Ho, ⟨%d0, H0⟩, ⟨%d1, H1⟩, ⟨%d2, H2⟩⟩
    iapply (sound_kernel1_rest c Set.univ (grid1.coords t) hi (win1_0.stage (cfg1.slots t 0)) _ _ _ _ _ _ _ (w2blk1 V c t) (scr1 V c t) _)
    isplitl [H1]; · iexact H1
    isplitl [H2]; · iexists _; iexact H2
    isplitl [HS]; · iexact HS
    iintro ⟨H1, H2, HS⟩
    isplitl [HS Hr Hg]
    · isplitl [HS]; · iexact HS
      isplitl [Hr]; · iexact Hr
      iexact Hg
    isplitl [Ho]; · iexact Ho
    isplitl [H0]; · iexact H0
    isplitl [H1]; · iexact H1
    iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After the last point the invariant gives the scoped buffers back at some contents, the scratch's named contents forgotten. -/
theorem hout1 (c : Dev nD) : (dat1 V c).Φ (Fin.last cfg1.N) ⊢ Pipeline.ΦA spec1 c := by
  have hne : (Fin.last cfg1.N).val ≠ 0 := by rw [Fin.val_last]; have : cfg1.N = 64 := N_1; omega
  rw [show (dat1 V c).Φ (Fin.last cfg1.N) = Phi1 V c (Fin.last cfg1.N).val (Nat.le_of_lt_succ (Fin.last cfg1.N).isLt) from rfl,
    Phi1_pos V c _ _ hne, PhiA1_eq]
  iintro ⟨HS, Hr, Hg⟩
  isplitl [HS]; · iexists _; iexact HS
  isplitl [Hr]; · iexact Hr
  iexact Hg

end Region1

end Cert.KernelIdeal.Hand

end
-- ==== Proof.KI.Regs.lean ====
/- The two pallas_calls as regions of @main between its stretches of host operations: the buffers' contents at each region's
   entry and exit, every pipeline's proof data, and each region's record — entered from every unscoped buffer held at the
   contents before it, left with its output array at what its write-backs folded, the generator register riding along, nothing owed. -/
import proofs.«149337_j33191507264221_1_alg».proof.Proof.Gen.KernelIdeal.Launch
import proofs.«149337_j33191507264221_1_alg».proof.Proof.Gen.KernelIdeal.Skeleton
import proofs.«149337_j33191507264221_1_alg».proof.Proof.Gen.KernelIdeal.Points
import proofs.«149337_j33191507264221_1_alg».proof.Proof.KI.Region0
import proofs.«149337_j33191507264221_1_alg».proof.Proof.KI.Region1
import proofs.«149337_j33191507264221_1_alg».proof.Proof.KI.RunCond
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the two regions' entries and exits -/

/-- The core's buffers when region 0 is entered: the launch contents through the host operations before it. -/
abbrev E0 : (c : Dev nD) → (b : Ref sig .tc) → Buf (Elt F) ((c : Thread nD τ).loc b) := fun c b => Gen.V19 m c b

/-- What region 0 leaves in its output array: its write-backs folded over the array as entered. -/
def X0 (c : Dev nD) : Buf (Elt F) ((c : Thread nD τ).loc main_v37) := (dat0 (E0 m) c).arrAt 3 cfg0.N

/-- The core's buffers when region 1 is entered: region 0's output array at what it left, the others as region 0 found them. -/
abbrev W20 (c : Dev nD) : Valuation τ sig (Elt F) := Function.update (Gen.V19 m c) main_v37 (X0 m c)
abbrev E1 : (c : Dev nD) → (b : Ref sig .tc) → Buf (Elt F) ((c : Thread nD τ).loc b) := fun c b => W20 m c b

/-- What region 1 leaves in its output array. -/
def X1 (c : Dev nD) : Buf (Elt F) ((c : Thread nD τ).loc main_v38) := (dat1 (E1 m) c).arrAt 2 cfg1.N

/-- The core's buffers after region 1. -/
abbrev W21 (c : Dev nD) : Valuation τ sig (Elt F) := Function.update (W20 m c) main_v38 (X1 m c)

/-- The contents the regions leave, as the family the generated valuations are written over. -/
def outs : Gen.Outs (F := F) := fun _ r c => W21 m c r

theorem outs_20 (c : Dev nD) : outs m 20 main_v37 c = X0 m c := by
  have h : (Proc.devRef .tc main_v37 : DevRef τ sig) ≠ Proc.devRef .tc main_v38 := StableHlo.devRef_ne_of_ne (by decide)
  show Function.update (Function.update (Gen.V19 m c) main_v37 (X0 m c)) main_v38 (X1 m c) main_v37 = X0 m c
  rw [Function.update_of_ne h, Function.update_self]

theorem outs_21 (c : Dev nD) : outs m 21 main_v38 c = X1 m c := by
  show Function.update (W20 m c) main_v38 (X1 m c) main_v38 = X1 m c
  rw [Function.update_self]

theorem V20_eq (c : Dev nD) : Gen.V20 m (outs m) c = W20 m c := by
  show Function.update (Gen.V19 m c) main_v37 (outs m 20 main_v37 c) = Function.update (Gen.V19 m c) main_v37 (X0 m c)
  rw [outs_20]

theorem V21_eq (c : Dev nD) : Gen.V21 m (outs m) c = W21 m c := by
  show Function.update (Gen.V20 m (outs m) c) main_v38 (outs m 21 main_v38 c) = Function.update (W20 m c) main_v38 (X1 m c)
  rw [V20_eq, outs_21]

/-! ## The proof data family and the thread state -/

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => dat0 (E0 m) c
  | ⟨1, _⟩ => fun c => dat1 (E1 m) c

abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev Rr (c : Dev nD) : sProp 𝕄 := iprop((∃ r, prngReg c r) ∗ ∃ W, owes (c : Thread nD τ) (0 : CellTallies nD τ sig Unit) W)

/-- At region 0's exit each of its arrays holds what the pipeline leaves, and every other buffer what it held at entry. -/
theorem hF0 (c : Dev nD) (w : Fin cfg0.W) : (dat0 (E0 m) c).arrAt w cfg0.N = Gen.V20 m (outs m) c (Pipeline.arrRef spec0 w) := by
  match w with
  | ⟨0, _⟩ => exact ((dat0 (E0 m) c).arrAt_in _ rfl _).trans ((A_eq0 (E0 m) c _).trans (Gen.V20_of m (outs m) c main_v0 (by decide)).symm)
  | ⟨1, _⟩ => exact ((dat0 (E0 m) c).arrAt_in _ rfl _).trans ((A_eq0 (E0 m) c _).trans (Gen.V20_of m (outs m) c main_v12 (by decide)).symm)
  | ⟨2, _⟩ => exact ((dat0 (E0 m) c).arrAt_in _ rfl _).trans ((A_eq0 (E0 m) c _).trans (Gen.V20_of m (outs m) c main_v24 (by decide)).symm)
  | ⟨3, _⟩ =>
    rw [V20_eq]
    show X0 m c = Function.update (Gen.V19 m c) main_v37 (X0 m c) main_v37
    rw [Function.update_self]
theorem hrest0 (c : Dev nD) : ∀ b : Ref sig .tc, b ∉ Finset.univ.image (Pipeline.arrRef spec0) → Gen.V20 m (outs m) c b = Gen.V19 m c b := by
  intro b hb
  refine Gen.V20_of m (outs m) c b fun hmem => hb ?_
  rw [List.mem_singleton] at hmem
  subst hmem
  exact Finset.mem_image.mpr ⟨3, Finset.mem_univ _, rfl⟩
/-- The same for region 1. -/
theorem hF1 (c : Dev nD) (w : Fin cfg1.W) : (dat1 (E1 m) c).arrAt w cfg1.N = Gen.V21 m (outs m) c (Pipeline.arrRef spec1 w) := by
  match w with
  | ⟨0, _⟩ =>
    exact ((dat1 (E1 m) c).arrAt_in _ rfl _).trans ((A_eq1 (E1 m) c _).trans
      ((Gen.V21_of m (outs m) c main_v37 (by decide)).trans (congrFun (V20_eq m c) _)).symm)
  | ⟨1, _⟩ =>
    exact ((dat1 (E1 m) c).arrAt_in _ rfl _).trans ((A_eq1 (E1 m) c _).trans
      ((Gen.V21_of m (outs m) c main_v36 (by decide)).trans (congrFun (V20_eq m c) _)).symm)
  | ⟨2, _⟩ =>
    rw [V21_eq]
    show X1 m c = Function.update (W20 m c) main_v38 (X1 m c) main_v38
    rw [Function.update_self]
theorem hrest1 (c : Dev nD) : ∀ b : Ref sig .tc, b ∉ Finset.univ.image (Pipeline.arrRef spec1) → Gen.V21 m (outs m) c b = Gen.V20 m (outs m) c b := by
  intro b hb
  refine Gen.V21_of m (outs m) c b fun hmem => hb ?_
  rw [List.mem_singleton] at hmem
  subst hmem
  exact Finset.mem_image.mpr ⟨2, Finset.mem_univ _, rfl⟩
/-- Region 1's proof data takes its arrays from the valuation the generated thread state names. -/
theorem A1_eq (c : Dev nD) (w : Fin cfg1.W) : (pdats m 1 c).A w = Gen.V20 m (outs m) c (Pipeline.arrRef spec1 w) := by
  show (dat1 (E1 m) c).A w = _
  exact (A_eq1 (E1 m) c w).trans (congrFun (V20_eq m c) _).symm

/-! ## What both regions share -/

/-- A pipeline with no prefetched table holds nothing for its tables. -/
private theorem prefHeld_of_none (pre : Pipeline.Prefetch sig) (hK : pre.K = 0) (c : Dev nD) (q : Fin pre.K → PosShare TreeShare)
    (T : pre.Contents (Elt F)) :
    (Pipeline.prefHeld (Ix := Unit) (Name := ℕ) (U := UR sig nD τ) (Lvl := ℕ) pre c q T : sProp 𝕄) = BI.emp := by
  haveI : IsEmpty (Fin pre.K) := by rw [hK]; infer_instance
  unfold Pipeline.prefHeld
  rw [Finset.univ_eq_empty, BI.bigSep_empty]

/-- A core that owes nothing meets the proof data's tally at a point where the data owes nothing and bounds no pair. -/
private theorem owesAt_of_owes_zero {cfg : Cfg sig Λ₀} {c : Dev nD} (dat : Dat τ (Elt F) Unit ℕ (UR sig nD τ) ℕ cfg c)
    (t : Fin (cfg.N + 1)) (hO : dat.owed t = 0) (hrec : dat.recorded t = Set.univ) :
    (iprop(∃ W, owes (c : Thread nD τ) (0 : CellTallies nD τ sig Unit) W) : sProp 𝕄) ⊢ dat.owesAt () t := by
  show _ ⊢ iprop(∃ W, ⌜↑W ⊆ dat.bound () t⌝ ∗ owes (c : Thread nD τ) (dat.owed t) W)
  rw [hO]
  iintro ⟨%W, HO⟩
  iexists W
  isplitr
  · ipureintro
    intro x _
    exact Or.inl (hrec ▸ Set.mem_univ x)
  iexact HO

/-- And back, the bound forgotten. -/
private theorem owes_zero_of_owesAt {cfg : Cfg sig Λ₀} {c : Dev nD} (dat : Dat τ (Elt F) Unit ℕ (UR sig nD τ) ℕ cfg c)
    (t : Fin (cfg.N + 1)) (hO : dat.owed t = 0) :
    dat.owesAt () t ⊢ (iprop(∃ W, owes (c : Thread nD τ) (0 : CellTallies nD τ sig Unit) W) : sProp 𝕄) := by
  show iprop(∃ W, ⌜↑W ⊆ dat.bound () t⌝ ∗ owes (c : Thread nD τ) (dat.owed t) W) ⊢ _
  rw [hO]
  iintro ⟨%W, -, HO⟩
  iexists W
  iexact HO

/-! ## The regions as segments -/

set_option backward.isDefEq.respectTransparency.types false in
/-- REGION 0: entered from every unscoped buffer at the contents before it, left with its output array at what it wrote. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (Gen.V19 m c) ∗ Rr c)
  post c := iprop(StableHlo.held (c : Thread nD τ) (Pipeline.ucRefs τ sig) (Gen.V20 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    have hsplit := Pipeline.arrays_of_unscopedBufs (p := 0) (pcfgs (F := F)) Gen.adm (pdats m) launch0.win launch0.arr_whole c
      ((pdats m 0 c).share_full fun _ => rfl) (E0 m c) fun _ => rfl
    rw [Pipeline.unscopedBufs_held] at hsplit
    rw [prefHeld_of_none _ rfl]
    iintro ⟨⟨Hbufs, Hreg, Howes⟩, -⟩
    imodintro
    ihave Hs := hsplit $$ Hbufs
    icases Hs with ⟨Harr, Hrest⟩
    isplitl [Harr]; · iexact Harr
    isplitr; · iempintro
    isplitl [Howes]
    · iapply owesAt_of_owes_zero (pdats m 0 c) 0 rfl rfl
      iexact Howes
    isplitl [Hreg]; · iexact Hreg
    iexact Hrest
  hin c := by
    refine .trans ?_ (hin0 (E0 m) c)
    unfold Pipeline.ΦA
    iintro ⟨Hreg, -, Hsc⟩
    isplitl [Hsc]; · iexact Hsc
    iexact Hreg
  hout c := by
    rw [Pipeline.ownSems0_none]
    refine (hout0 (E0 m) c).trans ?_
    unfold Pipeline.ΦA
    iintro ⟨Hsc, Hreg⟩
    isplitl [Hreg]; · iexact Hreg
    isplitr; · iempintro
    iexact Hsc
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E0 m c) (fun b => Gen.V20 m (outs m) c b) ((pdats m 0 c).arrAt · cfg0.N) (hF0 m c) (hrest0 m c)
    rw [Pipeline.unscopedBufs_held] at hjoin
    iintro ⟨Harr, Howes, Hreg, Hrest⟩
    imodintro
    isplitl [Harr Hrest]
    · iapply hjoin
      isplitl [Harr]; · iexact Harr
      iexact Hrest
    isplitl [Hreg]; · iexact Hreg
    iapply owes_zero_of_owesAt (pdats m 0 c) _ rfl
    iexact Howes

set_option backward.isDefEq.respectTransparency.types false in
/-- REGION 1: entered from what region 0 left, left with its own output array at what it wrote. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (Gen.V20 m (outs m) c) ∗ Rr c)
  post c := iprop(StableHlo.held (c : Thread nD τ) (Pipeline.ucRefs τ sig) (Gen.V21 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    have hsplit := Pipeline.arrays_of_unscopedBufs (p := 1) (pcfgs (F := F)) Gen.adm (pdats m) launch1.win launch1.arr_whole c
      ((pdats m 1 c).share_full fun _ => rfl) (fun b => Gen.V20 m (outs m) c b) (A1_eq m c)
    rw [Pipeline.unscopedBufs_held] at hsplit
    have hE : E1 m c = fun b : Ref sig .tc => Gen.V20 m (outs m) c b := by rw [V20_eq]
    have hsplit' : (StableHlo.held (c : Thread nD τ) (Pipeline.ucRefs τ sig) (Gen.V20 m (outs m) c) : sProp 𝕄)
        ⊢ iprop(((pdats m 1 c).arrays fun w => (pdats m 1 c).arrAt w 0)
          ∗ Pipeline.unscopedRest (Ix := Unit) (Name := ℕ) (U := UR sig nD τ) (Lvl := ℕ) spec1 c (E1 m c)) := by
      rw [hE]; exact hsplit
    rw [prefHeld_of_none _ rfl]
    iintro ⟨⟨Hbufs, Hreg, Howes⟩, -⟩
    imodintro
    ihave Hs := hsplit' $$ Hbufs
    icases Hs with ⟨Harr, Hrest⟩
    isplitl [Harr]; · iexact Harr
    isplitr; · iempintro
    isplitl [Howes]
    · iapply owesAt_of_owes_zero (pdats m 1 c) 0 rfl rfl
      iexact Howes
    isplitl [Hreg]; · iexact Hreg
    iexact Hrest
  hin c := by
    refine .trans ?_ (hin1 (E1 m) c)
    unfold Pipeline.ΦA
    iintro ⟨Hreg, -, Hsc⟩
    isplitl [Hsc]; · iexact Hsc
    iexact Hreg
  hout c := by
    rw [Pipeline.ownSems0_none]
    refine (hout1 (E1 m) c).trans ?_
    unfold Pipeline.ΦA
    iintro ⟨Hsc, Hreg⟩
    isplitl [Hreg]; · iexact Hreg
    isplitr; · iempintro
    iexact Hsc
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E1 m c) (fun b => Gen.V21 m (outs m) c b) ((pdats m 1 c).arrAt · cfg1.N) (hF1 m c)
      (fun b hb => (hrest1 m c b hb).trans (congrFun (V20_eq m c) _))
    rw [Pipeline.unscopedBufs_held] at hjoin
    iintro ⟨Harr, Howes, Hreg, Hrest⟩
    imodintro
    isplitl [Harr Hrest]
    · iapply hjoin
      isplitl [Harr]; · iexact Harr
      iexact Hrest
    isplitl [Hreg]; · iexact Hreg
    iapply owes_zero_of_owesAt (pdats m 1 c) _ rfl
    iexact Howes

end Cert.KernelIdeal.Hand

end
-- ==== Proof.KI.Run.lean ====
/- The whole run of the kernel program: the launch over @main's segments with the two regions' records; every weakly fair
   execution terminates and every unscoped buffer ends at the last valuation — the four arguments as launched, @main's
   result the last host operation's reshape of what the second region left. -/
import proofs.«149337_j33191507264221_1_alg».proof.Proof.Gen.KernelIdeal.Launch
import proofs.«149337_j33191507264221_1_alg».proof.Proof.Gen.KernelIdeal.Skeleton
import proofs.«149337_j33191507264221_1_alg».proof.Proof.Gen.KernelIdeal.Points
import proofs.«149337_j33191507264221_1_alg».proof.Proof.KI.Regs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run -/

set_option backward.isDefEq.respectTransparency.types false in
/-- Every weakly fair execution of @main terminates, and every unscoped buffer ends at the last valuation. -/
theorem run_main : θ_run defs (onTc (τ := τ) (main (F := F))) ⟨m, fun _ => 0, ρ⟩ (fun r => ∀ c : Dev nD,
      ∀ b ∈ Pipeline.ucRefs τ sig, r.2.mem ((c : Thread nD τ).1, b) = Gen.V22 m (outs m) c b) :=
  Cert.KernelIdeal.GenP.run_cond m (EP := emb₁) (ι := ()) (𝒱₀ := 𝒱₀) (L := L) (lv := lv) (hL := fun _ _ => rfl) (ρ := ρ)
    (outs := outs m) (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := by
      refine Pipeline.initEach L lv fun c => ?_
      iintro ⟨⟨-, HO, -, Hp, -⟩, -⟩
      imodintro
      isplitl [Hp]; · iexists _; iexact Hp
      iexists ∅; iexact HO)
    (hE2 := fun c => by
      iintro ⟨-, H⟩
      iexact H)
    (R0 := reg0 m) (hpre0 := fun c => .rfl) (hpost0 := fun c => .rfl)
    (R1 := reg1 m) (hpre1 := fun c => .rfl) (hpost1 := fun c => .rfl)

/-- An unscoped buffer of the TensorCore is among those the run names. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (Gen.V22_main_arg0 m (outs m) c),
     (h c _ (mem_uc main_arg1 (by decide))).trans (Gen.V22_main_arg1 m (outs m) c),
     (h c _ (mem_uc main_arg2 (by decide))).trans (Gen.V22_main_arg2 m (outs m) c),
     (h c _ (mem_uc main_arg3 (by decide))).trans (Gen.V22_main_arg3 m (outs m) c)⟩) (run_main m ρ)

/-- The run with @main's result named: the last host operation's reshape of what region 1 left. -/
theorem run_result : θ_run defs (onTc (τ := τ) (main (F := F))) ⟨m, fun _ => 0, ρ⟩ (fun r => ∀ c : Dev nD,
      r.2.mem ((c.tc : Thread nD τ).loc main_v39) = Gen.V22 m (outs m) c main_v39
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨h c _ (mem_uc main_v39 (by decide)),
     (h c _ (mem_uc main_arg0 (by decide))).trans (Gen.V22_main_arg0 m (outs m) c),
     (h c _ (mem_uc main_arg1 (by decide))).trans (Gen.V22_main_arg1 m (outs m) c),
     (h c _ (mem_uc main_arg2 (by decide))).trans (Gen.V22_main_arg2 m (outs m) c),
     (h c _ (mem_uc main_arg3 (by decide))).trans (Gen.V22_main_arg3 m (outs m) c)⟩) (run_main m ρ)

end Cert.KernelIdeal.Hand

end
-- ==== Proof.Spec.lean ====
/-
  The mathematics both programs compute, over plain functions into the extended reals.

  A ROW is quantized against its own largest absolute value: with  amax v = max_k |v k|  (from -inf),
  scale v = 127 / max(eps, amax v)  and  qrow v k = clamp(round_even(v k * scale v), -128, 127) / scale v,
  eps, 127 and -128 the f32 literals the programs spell.  A hidden unit is the gated pair
  gate a b = (a * logistic a) * b  of two dot products of a quantized row of x with rows of the two quantized
  weight matrices; the output is the dot product of the quantized row of hidden units with a row of the third.
  Everything is stated by coordinates, so that a tile of the kernel and an entry of the reference's
  whole arrays read the same terms.
-/
import Idealize.ShloMosaic.PureOps.Ideal
import Idealize.ShloMosaic.Lib.ValueIdx

open scoped BigOperators

noncomputable section

namespace Cert.Spec

open Idealize.ShloMosaic Idealize.ShloMosaic.ValueIdx

/-- The absolute value on the extended reals. -/
def eabs (a : EReal) : EReal := max a (-a)

/-- A row's largest absolute value, folded from the f32 literal -inf. -/
def amax {n : ℕ} (v : Fin n → EReal) : EReal :=
  (Finset.univ : Finset (Fin n)).fold max (Ideal.ofBits .f32 0xFF800000#32) (fun k => eabs (v k))

/-- The row's scale: 127 over its largest absolute value, that value kept at least eps. -/
def qscale {n : ℕ} (v : Fin n → EReal) : EReal :=
  Ideal.div (Ideal.ofBits .f32 0x42FE0000#32) (max (Ideal.ofBits .f32 0x3727C5AC#32) (amax v))

/-- The quantized row: scaled, rounded half to even, clamped to [-128, 127], scaled back. -/
def qrow {n : ℕ} (v : Fin n → EReal) (k : Fin n) : EReal :=
  Ideal.div (min (Ideal.ofBits .f32 0x42FE0000#32) (max (Ideal.ofBits .f32 0xC3000000#32)
    (Ideal.liftRound Ideal.roundHalfEven (v k * qscale v)))) (qscale v)

/-- The gate: a times its logistic, times b. -/
def gate (a b : EReal) : EReal := (a * Ideal.logistic a) * b

/-- One hidden unit: row r of x quantized, against rows h of the two weight matrices. -/
def hid (x : (⟨2, ![8192, 2048]⟩ : Shape).Idx → EReal) (q1 q3 : (⟨2, ![5632, 2048]⟩ : Shape).Idx → EReal)
    (r : Fin 8192) (h : Fin 5632) : EReal :=
  gate (∑ d : Fin 2048, qrow (fun d' => x (ix2 r d')) d * q1 (ix2 h d))
       (∑ d : Fin 2048, qrow (fun d' => x (ix2 r d')) d * q3 (ix2 h d))

/-- The array of hidden units. -/
def G0 (x : (⟨2, ![8192, 2048]⟩ : Shape).Idx → EReal) (q1 q3 : (⟨2, ![5632, 2048]⟩ : Shape).Idx → EReal) :
    (⟨2, ![8192, 5632]⟩ : Shape).Idx → EReal :=
  fun j => hid x q1 q3 (j 0) (j 1)

/-- One output entry: row r of the hidden array quantized, against row e of the third weight matrix. -/
def outv (a : (⟨2, ![8192, 5632]⟩ : Shape).Idx → EReal) (q2 : (⟨2, ![2048, 5632]⟩ : Shape).Idx → EReal)
    (r : Fin 8192) (e : Fin 2048) : EReal :=
  ∑ k : Fin 5632, qrow (fun k' => a (ix2 r k')) k * q2 (ix2 e k)

/-- The output array, rows flat. -/
def G1 (a : (⟨2, ![8192, 5632]⟩ : Shape).Idx → EReal) (q2 : (⟨2, ![2048, 5632]⟩ : Shape).Idx → EReal) :
    (⟨2, ![8192, 2048]⟩ : Shape).Idx → EReal :=
  fun j => outv a q2 (j 0) (j 1)

theorem G0_ix2 (x : (⟨2, ![8192, 2048]⟩ : Shape).Idx → EReal) (q1 q3 : (⟨2, ![5632, 2048]⟩ : Shape).Idx → EReal)
    (r : Fin 8192) (h : Fin 5632) : G0 x q1 q3 (ix2 r h) = hid x q1 q3 r h := rfl

theorem G1_ix2 (a : (⟨2, ![8192, 5632]⟩ : Shape).Idx → EReal) (q2 : (⟨2, ![2048, 5632]⟩ : Shape).Idx → EReal)
    (r : Fin 8192) (e : Fin 2048) : G1 a q2 (ix2 r e) = outv a q2 r e := rfl

end Cert.Spec

end
-- ==== Proof.LibKeepdims.lean ====
/-
  The column forms of a row reduction kept as a unit axis (`jnp.sum(x, axis=-1, keepdims=True)` inside a kernel), read
  at an index written with `ValueIdx.ix1` / `ix2`, for any extents `a`, `b`:

  • `shapeCast_a_a1_apply`: an `[a]` vector cast to the column `[a, 1]` reads, at `(p, u)`, the vector at `p`;
  • `broadcastTo_a1_ab_apply`: a column `[a, 1]` broadcast along the rows to `[a, b]` reads, at `(p, q)`, the column at
    `(p, 0)`;
  • `multiReduction_add_rows`: at the ideal values the lane sum of an `[a, b]` vector over its second axis, read at `p`,
    is `∑ k : Fin b, v (p, k)` (the accumulator is the neutral zero, which the sum drops).

  Together: a kernel's `x / (√(∑ x², keepdims) + ε)` at `(p, q)` mentions row `p` of `x` only.
-/
import Idealize.ShloMosaic.Lib.Pipeline.Value
import Idealize.ShloMosaic.Lib.ValueIdx
import Idealize.ShloMosaic.PureOps.Ideal.Laws

open scoped BigOperators

namespace Idealize.ShloMosaic.ValueIdx

open Idealize.ShloMosaic

variable {α : Type}

/-- An `[a]` vector cast to the column `[a, 1]` reads, at `(p, u)`, the vector at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast along the rows to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- At the ideal values the lane sum of an `[a, b]` vector over its second axis, read at row `p`, is the sum of the row. -/
theorem multiReduction_add_rows {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

end Idealize.ShloMosaic.ValueIdx
-- ==== Proof.KI.PayIdx.lean ====
/- The four payloads of the two kernel bodies read at an index, at the ideal values: the quantizing payloads are the
   row quantization of the spec applied to the block's own row, the multiplying payloads are dot products of a row of
   the first operand with a row of the (transposed) weight block, gated in the first kernel. -/
import proofs.«149337_j33191507264221_1_alg».proof.Proof.Gen.KernelIdeal.Skeleton
import proofs.«149337_j33191507264221_1_alg».proof.Proof.Spec
import proofs.«149337_j33191507264221_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

open scoped BigOperators

noncomputable section

namespace Cert.KernelIdeal.Val

open Cert.KernelIdeal Cert.KernelIdeal.Gen Cert.Spec
open Idealize.ShloMosaic Idealize.ShloMosaic.ValueIdx

/-- The row index p with the coordinate k put on the second axis is the index (p, k). -/
private theorem lift_row {a b : ℕ} (h : (⟨2, ![a, b]⟩ : Shape).Reduces [1] ⟨1, ![a]⟩) (p : Fin a) (k : Fin b) :
    h.lift (ix1 p) k = ix2 p k :=
  funext fun ax => Fin.ext (by
    match ax with
    | ⟨0, _⟩ => rfl
    | ⟨1, _⟩ => rfl)

/-- The maximum over the second axis of the absolute values, from the literal -inf, read at row p: the row's largest absolute value. -/
private theorem rowmax_apply {a b : ℕ} (v : FVec Ideal ⟨2, ![a, b]⟩ .f32) (h : (⟨2, ![a, b]⟩ : Shape).Reduces [1] ⟨1, ![a]⟩)
    (hφ : FKind.Formats .f32) (hacc : (0xFF800000#32 : BitVec FTy.f32.bits) = FKind.maximumf.neutral .f32 hφ) (p : Fin a) :
    multiReduction (F := Ideal) .maximumf [1] ⟨1, ![a]⟩ (absf v) 0xFF800000#32 h hφ hacc (ix1 p) = amax (fun k => v (ix2 p k)) := by
  refine (Ideal.multiReduction_maximumf_single (absf v) _ h hφ hacc (ix1 p)).trans ?_
  unfold amax
  refine congrArg (fun f => (Finset.univ : Finset (Fin b)).fold max (Ideal.ofBits .f32 0xFF800000#32) f) (funext fun k => ?_)
  show absf v (h.lift (ix1 p) k) = eabs (v (ix2 p k))
  rw [lift_row h p k]
  rfl

/-- The scale column: 127 over the row maximum kept at least eps, as the kernel computes it on the column shape. -/
private abbrev scaleCol {a b : ℕ} (v : FVec Ideal ⟨2, ![a, b]⟩ .f32) (hR : (⟨2, ![a, b]⟩ : Shape).Reduces [1] ⟨1, ![a]⟩)
    (hφ : FKind.Formats .f32) (hacc : (0xFF800000#32 : BitVec FTy.f32.bits) = FKind.maximumf.neutral .f32 hφ)
    (hC : (⟨1, ![a]⟩ : Shape).ShapeCasts ⟨2, ![a, 1]⟩) : FVec Ideal ⟨2, ![a, 1]⟩ .f32 :=
  divf (broadcast ⟨2, ![a, 1]⟩ (Scalar.ofBits (F := Ideal) .f32 0x42FE0000#32))
    (maximumf (broadcast ⟨2, ![a, 1]⟩ (Scalar.ofBits (F := Ideal) .f32 0x3727C5AC#32))
      (shapeCast ⟨2, ![a, 1]⟩ (multiReduction (F := Ideal) .maximumf [1] ⟨1, ![a]⟩ (absf v) 0xFF800000#32 hR hφ hacc) hC))

/-- The scale column at row p is the row's scale. -/
private theorem scaleCol_apply {a b : ℕ} (v : FVec Ideal ⟨2, ![a, b]⟩ .f32) (hR : (⟨2, ![a, b]⟩ : Shape).Reduces [1] ⟨1, ![a]⟩)
    (hφ : FKind.Formats .f32) (hacc : (0xFF800000#32 : BitVec FTy.f32.bits) = FKind.maximumf.neutral .f32 hφ)
    (hC : (⟨1, ![a]⟩ : Shape).ShapeCasts ⟨2, ![a, 1]⟩) (p : Fin a) (u : Fin 1) :
    scaleCol v hR hφ hacc hC (ix2 p u) = qscale (fun k => v (ix2 p k)) := by
  show Ideal.div (Ideal.ofBits .f32 0x42FE0000#32) (max (Ideal.ofBits .f32 0x3727C5AC#32)
    (shapeCast ⟨2, ![a, 1]⟩ (multiReduction (F := Ideal) .maximumf [1] ⟨1, ![a]⟩ (absf v) 0xFF800000#32 hR hφ hacc) hC (ix2 p u))) = _
  rw [shapeCast_a_a1_apply, rowmax_apply]
  rfl

/-- The quantized block at (p, q): the entry times the row's scale, rounded to even, clamped, over the scale. -/
private theorem quant_apply {a b : ℕ} (v : FVec Ideal ⟨2, ![a, b]⟩ .f32) (hR : (⟨2, ![a, b]⟩ : Shape).Reduces [1] ⟨1, ![a]⟩)
    (hφ : FKind.Formats .f32) (hacc : (0xFF800000#32 : BitVec FTy.f32.bits) = FKind.maximumf.neutral .f32 hφ)
    (hC : (⟨1, ![a]⟩ : Shape).ShapeCasts ⟨2, ![a, 1]⟩) (hB : (⟨2, ![a, 1]⟩ : Shape).Broadcasts ⟨2, ![a, b]⟩) (p : Fin a) (q : Fin b) :
    divf (minimumf (broadcast ⟨2, ![a, b]⟩ (Scalar.ofBits (F := Ideal) .f32 0x42FE0000#32))
        (maximumf (broadcast ⟨2, ![a, b]⟩ (Scalar.ofBits (F := Ideal) .f32 0xC3000000#32))
          (roundeven (mulf v (broadcastTo ⟨2, ![a, b]⟩ (scaleCol v hR hφ hacc hC) hB)))))
      (broadcastTo ⟨2, ![a, b]⟩ (scaleCol v hR hφ hacc hC) hB) (ix2 p q)
      = qrow (fun k => v (ix2 p k)) q := by
  have hs : broadcastTo ⟨2, ![a, b]⟩ (scaleCol v hR hφ hacc hC) hB (ix2 p q) = qscale (fun k => v (ix2 p k)) :=
    (broadcastTo_a1_ab_apply _ hB p q).trans (scaleCol_apply v hR hφ hacc hC p 0)
  show Ideal.div (min (Ideal.ofBits .f32 0x42FE0000#32) (max (Ideal.ofBits .f32 0xC3000000#32)
      (Ideal.liftRound Ideal.roundHalfEven (v (ix2 p q) * broadcastTo ⟨2, ![a, b]⟩ (scaleCol v hR hφ hacc hC) hB (ix2 p q)))))
    (broadcastTo ⟨2, ![a, b]⟩ (scaleCol v hR hφ hacc hC) hB (ix2 p q)) = _
  rw [hs]
  rfl

/-- The first kernel's quantizing payload at (p, q): row p of the block, quantized, at q. -/
theorem k0_pay1_apply (x0 : Vec Ideal S1024x2048 .f32) (p : Fin 1024) (q : Fin 2048) :
    k0_pay1 (F := Ideal) x0 (ix2 p q) = qrow (fun d => x0 (ix2 p d)) q := by
  unfold k0_pay1
  refine (congrFun (shapeCast_self _ _) _).trans ?_
  rw [shapeCast_self x0]
  exact quant_apply x0 reduces_S1024x2048_S1024 (.inl rfl) rfl shapeCasts_S1024_S1024x1 broadcasts_S1024x1_S1024x2048 p q

/-- The left operand's index at output (i, q): row axis from the output's row. -/
private theorem lhs_k0_0 (i : S1024x512.Idx) (q : dot_S1024x2048_S2048x512_S1024x512_1_0_0_1_n_n.contr.Idx) :
    (dot_S1024x2048_S2048x512_S1024x512_1_0_0_1_n_n.lhsIdx i q 0).val = (i 0).val := by
  unfold DotDims.lhsIdx
  rw [dif_neg (show ¬(0 : Fin S1024x2048.rank) ∈ dot_S1024x2048_S2048x512_S1024x512_1_0_0_1_n_n.lhsBatch by decide), dif_pos (show (0 : Fin S1024x2048.rank) ∈ dot_S1024x2048_S2048x512_S1024x512_1_0_0_1_n_n.lhsNonContracting by decide)]
  rfl
/-- The left operand's column axis is the contraction coordinate. -/
private theorem lhs_k0_1 (i : S1024x512.Idx) (q : dot_S1024x2048_S2048x512_S1024x512_1_0_0_1_n_n.contr.Idx) :
    (dot_S1024x2048_S2048x512_S1024x512_1_0_0_1_n_n.lhsIdx i q 1).val = (q ⟨0, by decide⟩).val :=
  dot_S1024x2048_S2048x512_S1024x512_1_0_0_1_n_n.lhsIdx_val_of_single rfl i q
/-- The right operand's row axis is the contraction coordinate. -/
private theorem rhs_k0_0 (i : S1024x512.Idx) (q : dot_S1024x2048_S2048x512_S1024x512_1_0_0_1_n_n.contr.Idx) :
    (dot_S1024x2048_S2048x512_S1024x512_1_0_0_1_n_n.rhsIdx i q 0).val = (q ⟨0, by decide⟩).val :=
  dot_S1024x2048_S2048x512_S1024x512_1_0_0_1_n_n.rhsIdx_val_of_single rfl i q
/-- The right operand's column axis from the output's column. -/
private theorem rhs_k0_1 (i : S1024x512.Idx) (q : dot_S1024x2048_S2048x512_S1024x512_1_0_0_1_n_n.contr.Idx) :
    (dot_S1024x2048_S2048x512_S1024x512_1_0_0_1_n_n.rhsIdx i q 1).val = (i 1).val := by
  unfold DotDims.rhsIdx
  rw [dif_neg (show ¬(1 : Fin S2048x512.rank) ∈ dot_S1024x2048_S2048x512_S1024x512_1_0_0_1_n_n.rhsBatch by decide), dif_pos (show (1 : Fin S2048x512.rank) ∈ dot_S1024x2048_S2048x512_S1024x512_1_0_0_1_n_n.rhsNonContracting by decide)]
  rfl

/-- The matrix product into the zero accumulator, read at (p, q): the sum over the shared axis of the products. -/
private theorem matmul_k0_apply (y0 : FVec Ideal S1024x2048 .bf16) (y1 : FVec Ideal S2048x512 .bf16) (p : Fin 1024) (q : Fin 512) :
    matmul (F := Ideal) dot_S1024x2048_S2048x512_S1024x512_1_0_0_1_n_n none y0 y1 (constant (F := Ideal) S1024x512 .f32 0x00000000#32) (ix2 p q)
      = ∑ k : Fin 2048, y0 (ix2 p k) * y1 (ix2 k q) := by
  simp only [matmul]
  rw [Ideal.matmul_constant_zero_apply, ← Equiv.sum_comp (contrEquiv1 dot_S1024x2048_S2048x512_S1024x512_1_0_0_1_n_n 2048 rfl rfl).symm]
  refine Finset.sum_congr rfl fun k _ => ?_
  have hk := contrEquiv1_symm_val dot_S1024x2048_S2048x512_S1024x512_1_0_0_1_n_n 2048 rfl rfl k
  have el : dot_S1024x2048_S2048x512_S1024x512_1_0_0_1_n_n.lhsIdx (ix2 p q) ((contrEquiv1 dot_S1024x2048_S2048x512_S1024x512_1_0_0_1_n_n 2048 rfl rfl).symm k) = ix2 p k := funext fun a => Fin.ext (by
    match a with
    | ⟨0, _⟩ => exact lhs_k0_0 _ _
    | ⟨1, _⟩ => exact (lhs_k0_1 _ _).trans hk)
  have er : dot_S1024x2048_S2048x512_S1024x512_1_0_0_1_n_n.rhsIdx (ix2 p q) ((contrEquiv1 dot_S1024x2048_S2048x512_S1024x512_1_0_0_1_n_n 2048 rfl rfl).symm k) = ix2 k q := funext fun a => Fin.ext (by
    match a with
    | ⟨0, _⟩ => exact (rhs_k0_0 _ _).trans hk
    | ⟨1, _⟩ => exact rhs_k0_1 _ _)
  rw [el, er]

/-- The first operand times a transposed weight block, into the zero accumulator, read at (p, q): row p against row q. -/
private theorem matmulT_k0_apply (y0 : FVec Ideal S1024x2048 .bf16) (w : FVec Ideal S512x2048 .bf16)
    (h1 : S512x2048.ShapeCasts S512x2048) (h2 : S512x2048.Transposes [1, 0] S2048x512) (p : Fin 1024) (q : Fin 512) :
    matmul (F := Ideal) dot_S1024x2048_S2048x512_S1024x512_1_0_0_1_n_n none y0 (transpose S2048x512 [1, 0] (shapeCast S512x2048 w h1) h2)
        (constant (F := Ideal) S1024x512 .f32 0x00000000#32) (ix2 p q)
      = ∑ d : Fin 2048, y0 (ix2 p d) * w (ix2 q d) :=
  (matmul_k0_apply y0 _ p q).trans (Finset.sum_congr rfl fun k _ => by rw [transpose_ix2_apply, shapeCast_self])

/-- The first kernel's multiplying payload at (p, q): the gate of the two dot products of row p of the first operand with row q of each weight block. -/
theorem k0_pay2_apply (s : Vec Ideal S1024x2048 .bf16) (w1 w3 : Vec Ideal S512x2048 .bf16) (p : Fin 1024) (q : Fin 512) :
    k0_pay2 (F := Ideal) s w1 w3 (ix2 p q)
      = gate (∑ d : Fin 2048, s (ix2 p d) * w1 (ix2 q d)) (∑ d : Fin 2048, s (ix2 p d) * w3 (ix2 q d)) := by
  have e1 := matmulT_k0_apply s w1 shapeCasts_S512x2048_S512x2048 transposes_S512x2048_p1_0_S2048x512 p q
  have e2 := matmulT_k0_apply s w3 shapeCasts_S512x2048_S512x2048 transposes_S512x2048_p1_0_S2048x512 p q
  rw [← e1, ← e2]
  rfl

/-- The second kernel's quantizing payload at (p, q). -/
theorem k1_pay1_apply (a0 : Vec Ideal S512x5632 .bf16) (p : Fin 512) (q : Fin 5632) :
    k1_pay1 (F := Ideal) a0 (ix2 p q) = qrow (fun k => a0 (ix2 p k)) q := by
  unfold k1_pay1
  refine (congrFun (shapeCast_self _ _) _).trans ?_
  rw [shapeCast_self a0]
  exact quant_apply (extf .f32 a0 bitsLt_bf16_f32) reduces_S512x5632_S512 (.inl rfl) rfl shapeCasts_S512_S512x1 broadcasts_S512x1_S512x5632 p q

/-- The left operand's index at output (i, q): row axis from the output's row. -/
private theorem lhs_k1_0 (i : S512x512.Idx) (q : dot_S512x5632_S5632x512_S512x512_1_0_0_1_n_n.contr.Idx) :
    (dot_S512x5632_S5632x512_S512x512_1_0_0_1_n_n.lhsIdx i q 0).val = (i 0).val := by
  unfold DotDims.lhsIdx
  rw [dif_neg (show ¬(0 : Fin S512x5632.rank) ∈ dot_S512x5632_S5632x512_S512x512_1_0_0_1_n_n.lhsBatch by decide), dif_pos (show (0 : Fin S512x5632.rank) ∈ dot_S512x5632_S5632x512_S512x512_1_0_0_1_n_n.lhsNonContracting by decide)]
  rfl
/-- The left operand's column axis is the contraction coordinate. -/
private theorem lhs_k1_1 (i : S512x512.Idx) (q : dot_S512x5632_S5632x512_S512x512_1_0_0_1_n_n.contr.Idx) :
    (dot_S512x5632_S5632x512_S512x512_1_0_0_1_n_n.lhsIdx i q 1).val = (q ⟨0, by decide⟩).val :=
  dot_S512x5632_S5632x512_S512x512_1_0_0_1_n_n.lhsIdx_val_of_single rfl i q
/-- The right operand's row axis is the contraction coordinate. -/
private theorem rhs_k1_0 (i : S512x512.Idx) (q : dot_S512x5632_S5632x512_S512x512_1_0_0_1_n_n.contr.Idx) :
    (dot_S512x5632_S5632x512_S512x512_1_0_0_1_n_n.rhsIdx i q 0).val = (q ⟨0, by decide⟩).val :=
  dot_S512x5632_S5632x512_S512x512_1_0_0_1_n_n.rhsIdx_val_of_single rfl i q
/-- The right operand's column axis from the output's column. -/
private theorem rhs_k1_1 (i : S512x512.Idx) (q : dot_S512x5632_S5632x512_S512x512_1_0_0_1_n_n.contr.Idx) :
    (dot_S512x5632_S5632x512_S512x512_1_0_0_1_n_n.rhsIdx i q 1).val = (i 1).val := by
  unfold DotDims.rhsIdx
  rw [dif_neg (show ¬(1 : Fin S5632x512.rank) ∈ dot_S512x5632_S5632x512_S512x512_1_0_0_1_n_n.rhsBatch by decide), dif_pos (show (1 : Fin S5632x512.rank) ∈ dot_S512x5632_S5632x512_S512x512_1_0_0_1_n_n.rhsNonContracting by decide)]
  rfl

/-- The matrix product into the zero accumulator, read at (p, q): the sum over the shared axis of the products. -/
private theorem matmul_k1_apply (y0 : FVec Ideal S512x5632 .bf16) (y1 : FVec Ideal S5632x512 .bf16) (p : Fin 512) (q : Fin 512) :
    matmul (F := Ideal) dot_S512x5632_S5632x512_S512x512_1_0_0_1_n_n none y0 y1 (constant (F := Ideal) S512x512 .f32 0x00000000#32) (ix2 p q)
      = ∑ k : Fin 5632, y0 (ix2 p k) * y1 (ix2 k q) := by
  simp only [matmul]
  rw [Ideal.matmul_constant_zero_apply, ← Equiv.sum_comp (contrEquiv1 dot_S512x5632_S5632x512_S512x512_1_0_0_1_n_n 5632 rfl rfl).symm]
  refine Finset.sum_congr rfl fun k _ => ?_
  have hk := contrEquiv1_symm_val dot_S512x5632_S5632x512_S512x512_1_0_0_1_n_n 5632 rfl rfl k
  have el : dot_S512x5632_S5632x512_S512x512_1_0_0_1_n_n.lhsIdx (ix2 p q) ((contrEquiv1 dot_S512x5632_S5632x512_S512x512_1_0_0_1_n_n 5632 rfl rfl).symm k) = ix2 p k := funext fun a => Fin.ext (by
    match a with
    | ⟨0, _⟩ => exact lhs_k1_0 _ _
    | ⟨1, _⟩ => exact (lhs_k1_1 _ _).trans hk)
  have er : dot_S512x5632_S5632x512_S512x512_1_0_0_1_n_n.rhsIdx (ix2 p q) ((contrEquiv1 dot_S512x5632_S5632x512_S512x512_1_0_0_1_n_n 5632 rfl rfl).symm k) = ix2 k q := funext fun a => Fin.ext (by
    match a with
    | ⟨0, _⟩ => exact (rhs_k1_0 _ _).trans hk
    | ⟨1, _⟩ => exact rhs_k1_1 _ _)
  rw [el, er]

/-- The second kernel's multiplying payload at (p, q): the dot product of row p of the first operand with row q of the weight block. -/
theorem k1_pay2_apply (s w2 : Vec Ideal S512x5632 .bf16) (p : Fin 512) (q : Fin 512) :
    k1_pay2 (F := Ideal) s w2 (ix2 p q) = ∑ k : Fin 5632, s (ix2 p k) * w2 (ix2 q k) := by
  unfold k1_pay2
  refine (matmul_k1_apply s _ p q).trans ?_
  refine Finset.sum_congr rfl fun k _ => ?_
  rw [transpose_ix2_apply, shapeCast_self]

end Cert.KernelIdeal.Val

end
-- ==== Proof.KI.Value0.lean ====
/- From blocks to the array, first pallas_call, at the ideal values: the output array after the region is the array of
   hidden units of the spec, as one function of the three arrays the region reads. Point t = (i, j) writes back the block of
   rows 1024 i .. 1024 i + 1023 and columns 512 j .. 512 j + 511; what it wrote there is the gated product of the quantized
   rows of x with rows 512 j .. of the two weight arrays; the 88 blocks tile the array. -/
import proofs.«149337_j33191507264221_1_alg».proof.Proof.KI.Region0
import proofs.«149337_j33191507264221_1_alg».proof.Proof.KI.PayIdx
import Idealize.ShloMosaic.Lib.Pipeline.Value
import Idealize.ShloMosaic.Lib.ValueIdx
import Idealize.ShloMosaic.Lib.ValueLayout
import Idealize.ShloMosaic.PureOps.Ideal.Laws

set_option maxRecDepth 16384

open scoped BigOperators

noncomputable section

namespace Cert.KernelIdeal.Val

open Cert.KernelIdeal Cert.KernelIdeal.Gen Cert.KernelIdeal.Hand Cert.Spec
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-- The block indices of the four windows at point t, decided over the grid: the x window is at row tile t / 11, the two
    weight windows at row tile t % 11, each at column tile 0; the output window at (t / 11, t % 11). -/
theorem idx_facts0 : ∀ t : Fin cfg0.N,
    win0_0.index t (0 : Fin 2) = t.val / 11 ∧ win0_0.index t (1 : Fin 2) = 0
    ∧ win0_1.index t (0 : Fin 2) = t.val % 11 ∧ win0_1.index t (1 : Fin 2) = 0
    ∧ win0_2.index t (0 : Fin 2) = t.val % 11 ∧ win0_2.index t (1 : Fin 2) = 0
    ∧ win0_3.index t (0 : Fin 2) = t.val / 11 ∧ win0_3.index t (1 : Fin 2) = t.val % 11 :=
  (by decide +kernel : ∀ t : Fin grid0.N, _)

/-- The x block of point t at (p, d): row (t / 11) * 1024 + p of x. -/
theorem xblk0_apply (c : Dev nD) (t : Fin cfg0.N) (p : Fin 1024) (d : Fin 2048) (r : Fin 8192)
    (hr : r.val = (t.val / 11) * 1024 + p.val) :
    xblk0 (F := Ideal) V c t (ix2 p d) = (V c main_v0 : S8192x2048.Idx → Elt Ideal .f32) (ix2 r d) := by
  obtain ⟨e0, e1, -⟩ := idx_facts0 t
  show V c main_v0 (((cfg0.win 0).blk t).view.emb (ix2 p d)) = V c main_v0 (ix2 r d)
  congr 1
  funext a
  apply Fin.ext
  match a with
  | ⟨0, _⟩ => show win0_0.index t (0 : Fin 2) * 1024 + 1 * p.val = r.val; omega
  | ⟨1, _⟩ => show win0_0.index t (1 : Fin 2) * 2048 + 1 * d.val = d.val; omega

/-- The first weight block of point t at (q, d): row (t % 11) * 512 + q of the first weight array. -/
theorem w1blk0_apply (c : Dev nD) (t : Fin cfg0.N) (q : Fin 512) (d : Fin 2048) (h : Fin 5632)
    (hh : h.val = (t.val % 11) * 512 + q.val) :
    w1blk0 (F := Ideal) V c t (ix2 q d) = (V c main_v12 : S5632x2048.Idx → Elt Ideal .bf16) (ix2 h d) := by
  obtain ⟨-, -, e2, e3, -⟩ := idx_facts0 t
  show V c main_v12 (((cfg0.win 1).blk t).view.emb (ix2 q d)) = V c main_v12 (ix2 h d)
  congr 1
  funext a
  apply Fin.ext
  match a with
  | ⟨0, _⟩ => show win0_1.index t (0 : Fin 2) * 512 + 1 * q.val = h.val; omega
  | ⟨1, _⟩ => show win0_1.index t (1 : Fin 2) * 2048 + 1 * d.val = d.val; omega

/-- The second weight block of point t at (q, d): row (t % 11) * 512 + q of the second weight array. -/
theorem w3blk0_apply (c : Dev nD) (t : Fin cfg0.N) (q : Fin 512) (d : Fin 2048) (h : Fin 5632)
    (hh : h.val = (t.val % 11) * 512 + q.val) :
    w3blk0 (F := Ideal) V c t (ix2 q d) = (V c main_v24 : S5632x2048.Idx → Elt Ideal .bf16) (ix2 h d) := by
  obtain ⟨-, -, -, -, e4, e5, -⟩ := idx_facts0 t
  show V c main_v24 (((cfg0.win 2).blk t).view.emb (ix2 q d)) = V c main_v24 (ix2 h d)
  congr 1
  funext a
  apply Fin.ext
  match a with
  | ⟨0, _⟩ => show win0_2.index t (0 : Fin 2) * 512 + 1 * q.val = h.val; omega
  | ⟨1, _⟩ => show win0_2.index t (1 : Fin 2) * 2048 + 1 * d.val = d.val; omega

/-- What point t leaves in the output buffer at (p, q) is the hidden unit of row (t / 11) * 1024 + p and column (t % 11) * 512 + q. -/
theorem out0_apply (c : Dev nD) (t : Fin cfg0.N) (p : Fin 1024) (q : Fin 512) (r : Fin 8192) (h : Fin 5632)
    (hr : r.val = (t.val / 11) * 1024 + p.val) (hh : h.val = (t.val % 11) * 512 + q.val) :
    out0 (F := Ideal) V c t (ix2 p q) = hid (V c main_v0) (V c main_v12) (V c main_v24) r h := by
  unfold out0 scr0
  refine (k0_pay2_apply (k0_pay1 (xblk0 V c t)) (w1blk0 V c t) (w3blk0 V c t) p q).trans ?_
  unfold hid
  have hs : ∀ d : Fin 2048, k0_pay1 (F := Ideal) (xblk0 V c t) (ix2 p d) = qrow (fun d' => (V c main_v0 : S8192x2048.Idx → Elt Ideal .f32) (ix2 r d')) d := fun d =>
    (k0_pay1_apply (xblk0 V c t) p d).trans (congrArg (fun f => qrow f d) (funext fun d' => xblk0_apply V c t p d' r hr))
  refine congrArg₂ gate (Finset.sum_congr rfl fun d _ => ?_) (Finset.sum_congr rfl fun d _ => ?_)
  · rw [hs d, w1blk0_apply V c t q d h hh]
  · rw [hs d, w3blk0_apply V c t q d h hh]

/-- What point t writes back is its block of the array of hidden units. -/
theorem flushed0_eq (c : Dev nD) (t : Fin cfg0.N) :
    (dat0 (F := Ideal) V c).flushed 3 t
      = ((cfg0.win 3).blk t).view.read (Elt Ideal) (G0 (V c main_v0) (V c main_v12) (V c main_v24)) := by
  show (cfg0.win 3).cut (grid0.coords t) ((dat0 V c).after 3 t) = _
  rw [after0_3]
  obtain ⟨-, -, -, -, -, -, e6, e7⟩ := idx_facts0 t
  have ht : t.val < 88 := lt_of_lt_of_eq t.isLt N_0
  funext y
  obtain ⟨p, q, rfl⟩ : ∃ (p : Fin 1024) (q : Fin 512), y = ix2 p q := ⟨y 0, y 1, eq_ix2 y⟩
  have hp : p.val < 1024 := p.isLt
  have hq : q.val < 512 := q.isLt
  show out0 V c t (ix2 p q)
    = hid (V c main_v0) (V c main_v12) (V c main_v24) ((((cfg0.win 3).blk t).view.emb (ix2 p q)) 0) ((((cfg0.win 3).blk t).view.emb (ix2 p q)) 1)
  refine out0_apply V c t p q _ _ ?_ ?_
  · show win0_3.index t (0 : Fin 2) * 1024 + 1 * p.val = _; omega
  · show win0_3.index t (1 : Fin 2) * 512 + 1 * q.val = _; omega

/-- An index of the array is in point t's block iff each coordinate is in the block's range on its axis. -/
theorem mem_blk0 (t : Fin cfg0.N) (i : S8192x5632.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v37).slice (win0_3.rect t)).set ↔ _
  rw [View.set_slice_whole, Rect.mem_set_unit]
  exact Iff.rfl

/-- The 88 blocks tile the array: entry (r, h) is in the block of point (r / 1024) * 11 + h / 512. -/
theorem cover0 (i : S8192x5632.Idx) :
    ∃ t : Fin cfg0.N, (cfg0.win 3).flush t = true ∧ i ∈ ((cfg0.win 3).blk t).view.set := by
  have hi0 : (i 0).val < 8192 := (i 0).isLt
  have hi1 : (i 1).val < 5632 := (i 1).isLt
  have hN : cfg0.N = 88 := N_0
  let t : Fin cfg0.N := ⟨(i 0).val / 1024 * 11 + (i 1).val / 512, by rw [hN]; omega⟩
  have htv : t.val = (i 0).val / 1024 * 11 + (i 1).val / 512 := rfl
  obtain ⟨-, -, -, -, -, -, e6, e7⟩ := idx_facts0 t
  refine ⟨t, flush0_3 t, ?_⟩
  rw [mem_blk0]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- The first region's output array after its last point, as one function of the arrays it reads. -/
theorem arrAt0 (c : Dev nD) :
    (dat0 (F := Ideal) V c).arrAt 3 cfg0.N = G0 (V c main_v0) (V c main_v12) (V c main_v24) :=
  (dat0 V c).arrAt_eq_of_cover 3 _ (fun t _ => flushed0_eq V c t) cover0

end Cert.KernelIdeal.Val

end
-- ==== Proof.KI.Value1.lean ====
/- From blocks to the array, second pallas_call, at the ideal values: the output array after the region is the output of
   the spec, as one function of the two arrays the region reads. Point t = (i, j) writes back the block of rows
   512 i .. 512 i + 511 and columns 512 j .. 512 j + 511: the dot products of the quantized rows of the hidden array with rows
   512 j .. of the third weight array; the 64 blocks tile the array. -/
import proofs.«149337_j33191507264221_1_alg».proof.Proof.KI.Region1
import proofs.«149337_j33191507264221_1_alg».proof.Proof.KI.PayIdx
import Idealize.ShloMosaic.Lib.Pipeline.Value
import Idealize.ShloMosaic.Lib.ValueIdx
import Idealize.ShloMosaic.Lib.ValueLayout
import Idealize.ShloMosaic.PureOps.Ideal.Laws

set_option maxRecDepth 16384

open scoped BigOperators

noncomputable section

namespace Cert.KernelIdeal.Val

open Cert.KernelIdeal Cert.KernelIdeal.Gen Cert.KernelIdeal.Hand Cert.Spec
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-- The printed index maps over the grid: point t reads row tile t / 4 of the hidden array and row tile t % 4 of the
    weight array, and writes back tile (t / 4, t % 4) of the output. -/
theorem tile1_idx : ∀ t : Fin cfg1.N,
    win1_0.index t (0 : Fin 2) = t.val / 4 ∧ win1_0.index t (1 : Fin 2) = 0
    ∧ win1_1.index t (0 : Fin 2) = t.val % 4 ∧ win1_1.index t (1 : Fin 2) = 0
    ∧ win1_2.index t (0 : Fin 2) = t.val / 4 ∧ win1_2.index t (1 : Fin 2) = t.val % 4 :=
  (by decide +kernel : ∀ t : Fin grid1.N, _)

/-- The two arrays the region reads, at their literal types. -/
abbrev hidA (c : Dev nD) : (⟨2, ![8192, 5632]⟩ : Shape).Idx → EReal := V c main_v37
abbrev wgtA (c : Dev nD) : (⟨2, ![2048, 5632]⟩ : Shape).Idx → EReal := V c main_v36

/-- Row p of the activation block at point t is row (t / 4) * 512 + p of the hidden array. -/
theorem ablk1_at (c : Dev nD) (t : Fin cfg1.N) (p : Fin 512) (k : Fin 5632) (r : Fin 8192)
    (hr : r.val = t.val / 4 * 512 + p.val) :
    ablk1 V c t (ix2 p k) = hidA V c (ix2 r k) := by
  obtain ⟨e0, e1, -⟩ := tile1_idx t
  show iblk1 V c 0 t (ix2 p k) = _
  unfold iblk1
  rw [View.read_apply]
  show V c main_v37 _ = V c main_v37 _
  congr 1
  funext a; apply Fin.ext
  match a with
  | ⟨0, _⟩ => show win1_0.index t (0 : Fin 2) * 512 + 1 * p.val = r.val; rw [e0, hr]; omega
  | ⟨1, _⟩ => show win1_0.index t (1 : Fin 2) * 5632 + 1 * k.val = k.val; rw [e1]; omega

/-- Row q of the weight block at point t is row (t % 4) * 512 + q of the weight array. -/
theorem w2blk1_at (c : Dev nD) (t : Fin cfg1.N) (q : Fin 512) (k : Fin 5632) (e : Fin 2048)
    (he : e.val = t.val % 4 * 512 + q.val) :
    w2blk1 V c t (ix2 q k) = wgtA V c (ix2 e k) := by
  obtain ⟨-, -, e2, e3, -⟩ := tile1_idx t
  show iblk1 V c 1 t (ix2 q k) = _
  unfold iblk1
  rw [View.read_apply]
  show V c main_v36 _ = V c main_v36 _
  congr 1
  funext a; apply Fin.ext
  match a with
  | ⟨0, _⟩ => show win1_1.index t (0 : Fin 2) * 512 + 1 * q.val = e.val; rw [e2, he]; omega
  | ⟨1, _⟩ => show win1_1.index t (1 : Fin 2) * 5632 + 1 * k.val = k.val; rw [e3]; omega

/-- Entry (p, q) of what point t leaves in the output's buffer is the spec's entry at row (t / 4) * 512 + p and
    column (t % 4) * 512 + q. -/
theorem out1_at (c : Dev nD) (t : Fin cfg1.N) (p q : Fin 512) (r : Fin 8192) (e : Fin 2048)
    (hr : r.val = t.val / 4 * 512 + p.val) (he : e.val = t.val % 4 * 512 + q.val) :
    out1 V c t (ix2 p q) = G1 (hidA V c) (wgtA V c) (ix2 r e) := by
  unfold out1 scr1
  refine (k1_pay2_apply (k1_pay1 (ablk1 V c t)) (w2blk1 V c t) p q).trans ?_
  rw [G1_ix2]; unfold outv
  refine Finset.sum_congr rfl fun k _ => ?_
  rw [k1_pay1_apply (ablk1 V c t) p k, w2blk1_at V c t q k e he]
  exact congrArg (fun f => qrow f k * wgtA V c (ix2 e k)) (funext fun k' => ablk1_at V c t p k' r hr)

/-- What point t writes back is its block of the spec's output. -/
theorem flushed1_eq (c : Dev nD) (t : Fin cfg1.N) :
    (dat1 (F := Ideal) V c).flushed 2 t
      = ((cfg1.win 2).blk t).view.read (Elt Ideal) (G1 (V c main_v37) (V c main_v36)) := by
  show (cfg1.win 2).cut (grid1.coords t) ((dat1 V c).after 2 t) = _
  rw [after1_2]
  obtain ⟨-, -, -, -, e4, e5⟩ := tile1_idx t
  have hN : t.val < 64 := lt_of_lt_of_eq t.isLt (show cfg1.N = 64 from N_1)
  funext y
  obtain ⟨p, q, rfl⟩ : ∃ (p q : Fin 512), y = ix2 p q := ⟨y 0, y 1, eq_ix2 y⟩
  have hp : p.val < 512 := p.isLt
  have hq : q.val < 512 := q.isLt
  show out1 V c t ((cfg1.win 2).xinj (grid1.coords t) (ix2 p q)) = G1 (hidA V c) (wgtA V c) (((cfg1.win 2).blk t).view.emb (ix2 p q))
  have h1 : (cfg1.win 2).xinj (grid1.coords t) (ix2 p q) = ix2 p q :=
    funext fun a => by match a with | ⟨0, _⟩ => rfl | ⟨1, _⟩ => rfl
  have h2 : ((cfg1.win 2).blk t).view.emb (ix2 p q)
      = ix2 (⟨t.val / 4 * 512 + p.val, by omega⟩ : Fin 8192) (⟨t.val % 4 * 512 + q.val, by omega⟩ : Fin 2048) :=
    funext fun a => Fin.ext (by
      match a with
      | ⟨0, _⟩ => show win1_2.index t (0 : Fin 2) * 512 + 1 * p.val = t.val / 4 * 512 + p.val; rw [e4]; omega
      | ⟨1, _⟩ => show win1_2.index t (1 : Fin 2) * 512 + 1 * q.val = t.val % 4 * 512 + q.val; rw [e5]; omega)
  rw [h1, h2]
  exact out1_at V c t p q _ _ rfl rfl

/-- An index of the output array is in point t's block iff each coordinate is in the block's range on its axis. -/
theorem mem_tile1 (t : Fin cfg1.N) (i : S8192x2048.Idx) :
    i ∈ ((cfg1.win 2).blk t).view.set ↔ ∀ a : Fin 2, win1_2.index t a * S512x512.size a ≤ (i a).val
      ∧ (i a).val < win1_2.index t a * S512x512.size a + S512x512.size a := by
  show i ∈ ((View.whole main_v38).slice (win1_2.rect t)).set ↔ _
  rw [View.set_slice_whole, Rect.mem_set_unit]
  exact Iff.rfl

/-- The 64 blocks tile the output array: entry (r, e) is in the block of point (r / 512) * 4 + e / 512. -/
theorem cover1 (i : S8192x2048.Idx) :
    ∃ t : Fin cfg1.N, (cfg1.win 2).flush t = true ∧ i ∈ ((cfg1.win 2).blk t).view.set := by
  have h0 : (i 0).val < 8192 := (i 0).isLt
  have h1 : (i 1).val < 2048 := (i 1).isLt
  have hN : cfg1.N = 64 := N_1
  obtain ⟨t, ht⟩ : ∃ t : Fin cfg1.N, t.val = (i 0).val / 512 * 4 + (i 1).val / 512 :=
    ⟨⟨(i 0).val / 512 * 4 + (i 1).val / 512, by omega⟩, rfl⟩
  obtain ⟨-, -, -, -, e4, e5⟩ := tile1_idx t
  refine ⟨t, flush1_2 t, ?_⟩
  rw [mem_tile1]
  intro a
  match a with
  | ⟨0, _⟩ =>
    show win1_2.index t (0 : Fin 2) * 512 ≤ (i 0).val ∧ (i 0).val < win1_2.index t (0 : Fin 2) * 512 + 512
    rw [e4, ht]; omega
  | ⟨1, _⟩ =>
    show win1_2.index t (1 : Fin 2) * 512 ≤ (i 1).val ∧ (i 1).val < win1_2.index t (1 : Fin 2) * 512 + 512
    rw [e5, ht]; omega

/-- The second region's output array after its last point, as one function of the arrays it reads. -/
theorem arrAt1 (c : Dev nD) :
    (dat1 (F := Ideal) V c).arrAt 2 cfg1.N = G1 (V c main_v37) (V c main_v36) :=
  (dat1 (F := Ideal) V c).arrAt_eq_of_cover 2 _ (fun t _ => flushed1_eq V c t) cover1

end Cert.KernelIdeal.Val

end
-- ==== Proof.Spec3.lean ====
/-
  The whole function both programs compute, for a [4, 2048, 2048] array x and three weight arrays already quantized:
  the rows of x taken flat (row r is (r / 2048, r % 2048)), the hidden array G0 of those rows, and the output G1 of it,
  read back at (b, s, e) as row 2048 b + s.
-/
import proofs.«149337_j33191507264221_1_alg».proof.Proof.Spec

open scoped BigOperators

noncomputable section

namespace Cert.Spec

open Idealize.ShloMosaic Idealize.ShloMosaic.ValueIdx

/-- The rows of a [4, 2048, 2048] array, flat. -/
def flat (x : (⟨3, ![4, 2048, 2048]⟩ : Shape).Idx → EReal) : (⟨2, ![8192, 2048]⟩ : Shape).Idx → EReal :=
  fun j => x (ix3 (⟨(j 0).val / 2048, Nat.div_lt_of_lt_mul (show (j 0).val < 2048 * 4 from (j 0).isLt)⟩ : Fin 4)
    (⟨(j 0).val % 2048, Nat.mod_lt _ (by decide)⟩ : Fin 2048) (j 1))

theorem flat_ix2 (x : (⟨3, ![4, 2048, 2048]⟩ : Shape).Idx → EReal) (b : Fin 4) (s : Fin 2048) (d : Fin 2048) :
    flat x (ix2 (⟨b.val * 2048 + s.val, by have := b.isLt; have := s.isLt; omega⟩ : Fin 8192) d) = x (ix3 b s d) := by
  unfold flat
  congr 1
  funext a
  match a with
  | ⟨0, _⟩ => exact Fin.ext (by show (b.val * 2048 + s.val) / 2048 = b.val; have := s.isLt; omega)
  | ⟨1, _⟩ => exact Fin.ext (by show (b.val * 2048 + s.val) % 2048 = s.val; have := s.isLt; omega)
  | ⟨2, _⟩ => rfl

/-- The whole function: the output of the hidden array of the flat rows, at row 2048 b + s. -/
def Gfull (x : (⟨3, ![4, 2048, 2048]⟩ : Shape).Idx → EReal) (q1 q3 : (⟨2, ![5632, 2048]⟩ : Shape).Idx → EReal)
    (q2 : (⟨2, ![2048, 5632]⟩ : Shape).Idx → EReal) : (⟨3, ![4, 2048, 2048]⟩ : Shape).Idx → EReal :=
  fun i => outv (G0 (flat x) q1 q3) q2
    (⟨(i 0).val * 2048 + (i 1).val, by
        have h0 : (i 0).val < 4 := (i 0).isLt
        have h1 : (i 1).val < 2048 := (i 1).isLt
        omega⟩ : Fin 8192) (i 2)

theorem Gfull_ix3 (x : (⟨3, ![4, 2048, 2048]⟩ : Shape).Idx → EReal) (q1 q3 : (⟨2, ![5632, 2048]⟩ : Shape).Idx → EReal)
    (q2 : (⟨2, ![2048, 5632]⟩ : Shape).Idx → EReal) (b : Fin 4) (s : Fin 2048) (e : Fin 2048) :
    Gfull x q1 q3 q2 (ix3 b s e)
      = outv (G0 (flat x) q1 q3) q2 (⟨b.val * 2048 + s.val, by have := b.isLt; have := s.isLt; omega⟩ : Fin 8192) e := rfl

end Cert.Spec

end
-- ==== Proof.KI.HostVals.lean ====
/- What the kernel program's host operations compute, at the ideal values. Before the first pallas_call: the rows of x taken
   flat (a reshape), and the three quantized weight arrays — the same chain of operations the reference applies to each weight
   argument (mean of absolute values, its reciprocal kept above eps, scale, round, clamp to [-1, 1], scale back), the final
   change of format the identity here. After the second pallas_call: the result is its output array read back as [4, 2048, 2048]. -/
import proofs.«149337_j33191507264221_1_alg».proof.Proof.Gen.KernelIdeal.Regions
import proofs.«149337_j33191507264221_1_alg».proof.Proof.RefRead
import proofs.«149337_j33191507264221_1_alg».proof.Proof.Spec3
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Val

open Cert.KernelIdeal Cert.KernelIdeal.Gen Cert.Spec
open Idealize.ShloMosaic Idealize.ShloMosaic.TcCoe Idealize.ShloMosaic.ValueIdx
open Idealize.SL Idealize.SL.Sem

variable (m : (ℓ : Loc nD τ sig) → Buf (Elt Ideal) ℓ)

/-! ## The two reshapes read at an index -/

/-- A [8192, 2048] array read back as [4, 2048, 2048]: entry (b, s, e) is row 2048 b + s, column e. -/
theorem unflat_read {α : Type} (x : (⟨2, ![8192, 2048]⟩ : Shape).Idx → α)
    (h : (⟨2, ![8192, 2048]⟩ : Shape).ShapeCasts ⟨3, ![4, 2048, 2048]⟩) (b : Fin 4) (s : Fin 2048) (e : Fin 2048) :
    shapeCast (⟨3, ![4, 2048, 2048]⟩ : Shape) x h (ix3 b s e)
      = x (ix2 (⟨b.val * 2048 + s.val, by have := b.isLt; have := s.isLt; omega⟩ : Fin 8192) e) := by
  refine shapeCast_apply x h (ix3 b s e) _ ?_
  rw [Shape.rowMajor_val_two, Shape.rowMajor_val_three]
  rfl

/-- A [4, 2048, 2048] array read as [8192, 2048]: row r is (r / 2048, r % 2048). -/
theorem flat_read (x : (⟨3, ![4, 2048, 2048]⟩ : Shape).Idx → EReal)
    (h : (⟨3, ![4, 2048, 2048]⟩ : Shape).ShapeCasts ⟨2, ![8192, 2048]⟩) :
    shapeCast (⟨2, ![8192, 2048]⟩ : Shape) x h = flat x := by
  funext j
  unfold flat
  refine shapeCast_apply x h j _ ?_
  rw [Shape.rowMajor_val_two, Shape.rowMajor_val_three]
  show ((j 0).val / 2048 * 2048 + (j 0).val % 2048) * 2048 + (j 1).val = (j 0).val * 2048 + (j 1).val
  have := Nat.div_add_mod' (j 0).val 2048
  omega

/-- The first region's x operand: the rows of x, flat. -/
theorem v0_eq (c : Dev nD) :
    Gen.V19 m c main_v0 = flat (m ((c.tc : Thread nD τ).loc main_arg0)) := by
  refine (V19_of m c main_v0 (by decide)).trans ?_
  refine (V18_of m c main_v0 (by decide)).trans ?_
  refine (V17_of m c main_v0 (by decide)).trans ?_
  refine (V16_of m c main_v0 (by decide)).trans ?_
  refine (V15_of m c main_v0 (by decide)).trans ?_
  refine (V14_of m c main_v0 (by decide)).trans ?_
  refine (V13_of m c main_v0 (by decide)).trans ?_
  refine (V12_of m c main_v0 (by decide)).trans ?_
  refine (V11_of m c main_v0 (by decide)).trans ?_
  refine (V10_of m c main_v0 (by decide)).trans ?_
  refine (V9_of m c main_v0 (by decide)).trans ?_
  refine (V8_of m c main_v0 (by decide)).trans ?_
  refine (V7_of m c main_v0 (by decide)).trans ?_
  refine (V6_of m c main_v0 (by decide)).trans ?_
  refine (V5_of m c main_v0 (by decide)).trans ?_
  refine (V4_of m c main_v0 (by decide)).trans ?_
  refine (V3_of m c main_v0 (by decide)).trans ?_
  refine (V2_of m c main_v0 (by decide)).trans ?_
  show StableHlo.after hostOps0 (Gen.V0 m c) (Proc.devRef .tc main_v0) = _
  after_results
  exact flat_read (Gen.V0 m c (Proc.devRef .tc main_arg0)) shapeCasts_S4x2048x2048_S8192x2048

/-! ## The three quantized weights

Each weight's chain of host operations is the reference's, operation for operation; it is followed stretch by stretch at any
float instance, the change of format kept as the last operation, and only then read at the ideal values, where that change is
the identity. -/

/-! ### The weight w1: each stretch of host operations, from any contents `U` holding the earlier stages -/

section
variable {F : FTy → Type} [FloatOps F] (U : Valuation τ sig (Elt F))

/-- The mean of absolute values. -/
theorem a_mean (x : (⟨S5632x2048, .f32⟩ : BufTy).Contents (Elt F)) (hw : U (Proc.devRef .tc main_arg1) = x) :
    StableHlo.after hostOps0 U (Proc.devRef .tc main_v3) = Cert.ReferenceIdeal.ReadP.val_main_v14 (F := F) x := by
  after_results
  rw [hw]
  rfl
/-- The constant eps. -/
theorem a_eps : StableHlo.after hostOps0 U (Proc.devRef .tc main_cst_1) = Cert.ReferenceIdeal.ReadP.val_main_cst_6 (F := F) := by
  after_results
  rfl
/-- The mean kept above eps. -/
theorem a_clip (x : (⟨S5632x2048, .f32⟩ : BufTy).Contents (Elt F)) (h1 : U (Proc.devRef .tc main_v3) = Cert.ReferenceIdeal.ReadP.val_main_v14 (F := F) x) (h2 : U (Proc.devRef .tc main_cst_1) = Cert.ReferenceIdeal.ReadP.val_main_cst_6 (F := F)) :
    StableHlo.after hostOps0_1 U (Proc.devRef .tc main_v4) = Cert.ReferenceIdeal.ReadP.val_main_v15 (F := F) x := by
  after_results
  simp only [StableHlo.TRef.ofBuf, StableHlo.TRef.toBuf, cast_eq]
  rw [h1, h2]
  rfl
/-- Its reciprocal: the scale. -/
theorem a_inv (x : (⟨S5632x2048, .f32⟩ : BufTy).Contents (Elt F)) (h1 : U (Proc.devRef .tc main_v4) = Cert.ReferenceIdeal.ReadP.val_main_v15 (F := F) x) :
    StableHlo.after hostOps0_2 U (Proc.devRef .tc main_v5) = Cert.ReferenceIdeal.ReadP.val_main_v16 (F := F) x := by
  after_results
  rw [h1]
  rfl
/-- The weights times the scale. -/
theorem a_scaled (x : (⟨S5632x2048, .f32⟩ : BufTy).Contents (Elt F)) (h1 : U (Proc.devRef .tc main_v4) = Cert.ReferenceIdeal.ReadP.val_main_v15 (F := F) x) (hw : U (Proc.devRef .tc main_arg1) = x) :
    StableHlo.after hostOps0_2 U (Proc.devRef .tc main_v7) = Cert.ReferenceIdeal.ReadP.val_main_v18 (F := F) x := by
  after_results
  rw [h1, hw]
  rfl
/-- Rounded to the nearest integer, ties to even. -/
theorem a_round (x : (⟨S5632x2048, .f32⟩ : BufTy).Contents (Elt F)) (h1 : U (Proc.devRef .tc main_v7) = Cert.ReferenceIdeal.ReadP.val_main_v18 (F := F) x) :
    StableHlo.after hostOps0_3 U (Proc.devRef .tc main_v8) = Cert.ReferenceIdeal.ReadP.val_main_v19 (F := F) x := by
  after_results
  simp only [StableHlo.TRef.ofBuf, StableHlo.TRef.toBuf, cast_eq]
  rw [h1]
  rfl
/-- The constants -1 and 1. -/
theorem a_m1 : StableHlo.after hostOps0_4 U (Proc.devRef .tc main_cst_3) = Cert.ReferenceIdeal.ReadP.val_main_cst_8 (F := F) := by
  after_results
  rfl
theorem a_p1 : StableHlo.after hostOps0_4 U (Proc.devRef .tc main_cst_4) = Cert.ReferenceIdeal.ReadP.val_main_cst_9 (F := F) := by
  after_results
  rfl
/-- Clamped to [-1, 1]. -/
theorem a_clamp (x : (⟨S5632x2048, .f32⟩ : BufTy).Contents (Elt F)) (h1 : U (Proc.devRef .tc main_v8) = Cert.ReferenceIdeal.ReadP.val_main_v19 (F := F) x) (h2 : U (Proc.devRef .tc main_cst_3) = Cert.ReferenceIdeal.ReadP.val_main_cst_8 (F := F)) (h3 : U (Proc.devRef .tc main_cst_4) = Cert.ReferenceIdeal.ReadP.val_main_cst_9 (F := F)) :
    StableHlo.after hostOps0_5 U (Proc.devRef .tc main_v9) = Cert.ReferenceIdeal.ReadP.val_main_v20 (F := F) x := by
  after_results
  simp only [StableHlo.TRef.ofBuf, StableHlo.TRef.toBuf, cast_eq]
  rw [h1, h2, h3]
  rfl
/-- Divided by the scale, then the change of format. -/
theorem a_out (x : (⟨S5632x2048, .f32⟩ : BufTy).Contents (Elt F)) (h1 : U (Proc.devRef .tc main_v9) = Cert.ReferenceIdeal.ReadP.val_main_v20 (F := F) x) (h2 : U (Proc.devRef .tc main_v5) = Cert.ReferenceIdeal.ReadP.val_main_v16 (F := F) x) :
    StableHlo.after hostOps0_6 U (Proc.devRef .tc main_v12)
      = ((truncf .bf16 · bitsLt_bf16_f32) : (⟨S5632x2048, .f32⟩ : BufTy).Contents (Elt F) → (⟨S5632x2048, .bf16⟩ : BufTy).Contents (Elt F)) (Cert.ReferenceIdeal.ReadP.val_main_v22 (F := F) x) := by
  after_results
  rw [h1, h2]
  rfl

end

/-! ### The weight w1: the stretches chained from the launch contents -/

section
variable {F : FTy → Type} [FloatOps F] (mF : (ℓ : Loc nD τ sig) → Buf (Elt F) ℓ) (c : Dev nD)

theorem a_at_clip : Gen.V2 mF c main_v4 = Cert.ReferenceIdeal.ReadP.val_main_v15 (F := F) (mF ((c.tc : Thread nD τ).loc main_arg1)) :=
  a_clip (Gen.V1 mF c) _ (a_mean (Gen.V0 mF c) _ (rfl)) (a_eps (Gen.V0 mF c))
theorem a_at_inv : Gen.V3 mF c main_v5 = Cert.ReferenceIdeal.ReadP.val_main_v16 (F := F) (mF ((c.tc : Thread nD τ).loc main_arg1)) :=
  a_inv (Gen.V2 mF c) _ (a_at_clip mF c)
theorem a_at_scaled : Gen.V3 mF c main_v7 = Cert.ReferenceIdeal.ReadP.val_main_v18 (F := F) (mF ((c.tc : Thread nD τ).loc main_arg1)) :=
  a_scaled (Gen.V2 mF c) _ (a_at_clip mF c) ((V2_of mF c main_arg1 (by decide)).trans ((V1_of mF c main_arg1 (by decide))))
theorem a_at_round : Gen.V4 mF c main_v8 = Cert.ReferenceIdeal.ReadP.val_main_v19 (F := F) (mF ((c.tc : Thread nD τ).loc main_arg1)) :=
  a_round (Gen.V3 mF c) _ (a_at_scaled mF c)
theorem a_at_clamp : Gen.V6 mF c main_v9 = Cert.ReferenceIdeal.ReadP.val_main_v20 (F := F) (mF ((c.tc : Thread nD τ).loc main_arg1)) :=
  a_clamp (Gen.V5 mF c) _ ((V5_of mF c main_v8 (by decide)).trans (a_at_round mF c)) (a_m1 (Gen.V4 mF c)) (a_p1 (Gen.V4 mF c))
theorem a_at_out : Gen.V7 mF c main_v12
    = ((truncf .bf16 · bitsLt_bf16_f32) : (⟨S5632x2048, .f32⟩ : BufTy).Contents (Elt F) → (⟨S5632x2048, .bf16⟩ : BufTy).Contents (Elt F)) (Cert.ReferenceIdeal.ReadP.val_main_v22 (F := F) (mF ((c.tc : Thread nD τ).loc main_arg1))) :=
  a_out (Gen.V6 mF c) _ (a_at_clamp mF c) ((V6_of mF c main_v5 (by decide)).trans ((V5_of mF c main_v5 (by decide)).trans ((V4_of mF c main_v5 (by decide)).trans (a_at_inv mF c))))

end

/-! ### The weight w3: each stretch of host operations, from any contents `U` holding the earlier stages -/

section
variable {F : FTy → Type} [FloatOps F] (U : Valuation τ sig (Elt F))

/-- The mean of absolute values. -/
theorem b_mean (x : (⟨S5632x2048, .f32⟩ : BufTy).Contents (Elt F)) (hw : U (Proc.devRef .tc main_arg3) = x) :
    StableHlo.after hostOps0_6 U (Proc.devRef .tc main_v15) = Cert.ReferenceIdeal.ReadP.val_main_v39 (F := F) x := by
  after_results
  rw [hw]
  rfl
/-- The constant eps. -/
theorem b_eps : StableHlo.after hostOps0_6 U (Proc.devRef .tc main_cst_7) = Cert.ReferenceIdeal.ReadP.val_main_cst_17 (F := F) := by
  after_results
  rfl
/-- The mean kept above eps. -/
theorem b_clip (x : (⟨S5632x2048, .f32⟩ : BufTy).Contents (Elt F)) (h1 : U (Proc.devRef .tc main_v15) = Cert.ReferenceIdeal.ReadP.val_main_v39 (F := F) x) (h2 : U (Proc.devRef .tc main_cst_7) = Cert.ReferenceIdeal.ReadP.val_main_cst_17 (F := F)) :
    StableHlo.after hostOps0_7 U (Proc.devRef .tc main_v16) = Cert.ReferenceIdeal.ReadP.val_main_v40 (F := F) x := by
  after_results
  simp only [StableHlo.TRef.ofBuf, StableHlo.TRef.toBuf, cast_eq]
  rw [h1, h2]
  rfl
/-- Its reciprocal: the scale. -/
theorem b_inv (x : (⟨S5632x2048, .f32⟩ : BufTy).Contents (Elt F)) (h1 : U (Proc.devRef .tc main_v16) = Cert.ReferenceIdeal.ReadP.val_main_v40 (F := F) x) :
    StableHlo.after hostOps0_8 U (Proc.devRef .tc main_v17) = Cert.ReferenceIdeal.ReadP.val_main_v41 (F := F) x := by
  after_results
  rw [h1]
  rfl
/-- The weights times the scale. -/
theorem b_scaled (x : (⟨S5632x2048, .f32⟩ : BufTy).Contents (Elt F)) (h1 : U (Proc.devRef .tc main_v16) = Cert.ReferenceIdeal.ReadP.val_main_v40 (F := F) x) (hw : U (Proc.devRef .tc main_arg3) = x) :
    StableHlo.after hostOps0_8 U (Proc.devRef .tc main_v19) = Cert.ReferenceIdeal.ReadP.val_main_v43 (F := F) x := by
  after_results
  rw [h1, hw]
  rfl
/-- Rounded to the nearest integer, ties to even. -/
theorem b_round (x : (⟨S5632x2048, .f32⟩ : BufTy).Contents (Elt F)) (h1 : U (Proc.devRef .tc main_v19) = Cert.ReferenceIdeal.ReadP.val_main_v43 (F := F) x) :
    StableHlo.after hostOps0_9 U (Proc.devRef .tc main_v20) = Cert.ReferenceIdeal.ReadP.val_main_v44 (F := F) x := by
  after_results
  simp only [StableHlo.TRef.ofBuf, StableHlo.TRef.toBuf, cast_eq]
  rw [h1]
  rfl
/-- The constants -1 and 1. -/
theorem b_m1 : StableHlo.after hostOps0_10 U (Proc.devRef .tc main_cst_9) = Cert.ReferenceIdeal.ReadP.val_main_cst_19 (F := F) := by
  after_results
  rfl
theorem b_p1 : StableHlo.after hostOps0_10 U (Proc.devRef .tc main_cst_10) = Cert.ReferenceIdeal.ReadP.val_main_cst_20 (F := F) := by
  after_results
  rfl
/-- Clamped to [-1, 1]. -/
theorem b_clamp (x : (⟨S5632x2048, .f32⟩ : BufTy).Contents (Elt F)) (h1 : U (Proc.devRef .tc main_v20) = Cert.ReferenceIdeal.ReadP.val_main_v44 (F := F) x) (h2 : U (Proc.devRef .tc main_cst_9) = Cert.ReferenceIdeal.ReadP.val_main_cst_19 (F := F)) (h3 : U (Proc.devRef .tc main_cst_10) = Cert.ReferenceIdeal.ReadP.val_main_cst_20 (F := F)) :
    StableHlo.after hostOps0_11 U (Proc.devRef .tc main_v21) = Cert.ReferenceIdeal.ReadP.val_main_v45 (F := F) x := by
  after_results
  simp only [StableHlo.TRef.ofBuf, StableHlo.TRef.toBuf, cast_eq]
  rw [h1, h2, h3]
  rfl
/-- Divided by the scale, then the change of format. -/
theorem b_out (x : (⟨S5632x2048, .f32⟩ : BufTy).Contents (Elt F)) (h1 : U (Proc.devRef .tc main_v21) = Cert.ReferenceIdeal.ReadP.val_main_v45 (F := F) x) (h2 : U (Proc.devRef .tc main_v17) = Cert.ReferenceIdeal.ReadP.val_main_v41 (F := F) x) :
    StableHlo.after hostOps0_12 U (Proc.devRef .tc main_v24)
      = ((truncf .bf16 · bitsLt_bf16_f32) : (⟨S5632x2048, .f32⟩ : BufTy).Contents (Elt F) → (⟨S5632x2048, .bf16⟩ : BufTy).Contents (Elt F)) (Cert.ReferenceIdeal.ReadP.val_main_v47 (F := F) x) := by
  after_results
  rw [h1, h2]
  rfl

end

/-! ### The weight w3: the stretches chained from the launch contents -/

section
variable {F : FTy → Type} [FloatOps F] (mF : (ℓ : Loc nD τ sig) → Buf (Elt F) ℓ) (c : Dev nD)

theorem b_at_clip : Gen.V8 mF c main_v16 = Cert.ReferenceIdeal.ReadP.val_main_v40 (F := F) (mF ((c.tc : Thread nD τ).loc main_arg3)) :=
  b_clip (Gen.V7 mF c) _ (b_mean (Gen.V6 mF c) _ ((V6_of mF c main_arg3 (by decide)).trans ((V5_of mF c main_arg3 (by decide)).trans ((V4_of mF c main_arg3 (by decide)).trans ((V3_of mF c main_arg3 (by decide)).trans ((V2_of mF c main_arg3 (by decide)).trans ((V1_of mF c main_arg3 (by decide))))))))) (b_eps (Gen.V6 mF c))
theorem b_at_inv : Gen.V9 mF c main_v17 = Cert.ReferenceIdeal.ReadP.val_main_v41 (F := F) (mF ((c.tc : Thread nD τ).loc main_arg3)) :=
  b_inv (Gen.V8 mF c) _ (b_at_clip mF c)
theorem b_at_scaled : Gen.V9 mF c main_v19 = Cert.ReferenceIdeal.ReadP.val_main_v43 (F := F) (mF ((c.tc : Thread nD τ).loc main_arg3)) :=
  b_scaled (Gen.V8 mF c) _ (b_at_clip mF c) ((V8_of mF c main_arg3 (by decide)).trans ((V7_of mF c main_arg3 (by decide)).trans ((V6_of mF c main_arg3 (by decide)).trans ((V5_of mF c main_arg3 (by decide)).trans ((V4_of mF c main_arg3 (by decide)).trans ((V3_of mF c main_arg3 (by decide)).trans ((V2_of mF c main_arg3 (by decide)).trans ((V1_of mF c main_arg3 (by decide))))))))))
theorem b_at_round : Gen.V10 mF c main_v20 = Cert.ReferenceIdeal.ReadP.val_main_v44 (F := F) (mF ((c.tc : Thread nD τ).loc main_arg3)) :=
  b_round (Gen.V9 mF c) _ (b_at_scaled mF c)
theorem b_at_clamp : Gen.V12 mF c main_v21 = Cert.ReferenceIdeal.ReadP.val_main_v45 (F := F) (mF ((c.tc : Thread nD τ).loc main_arg3)) :=
  b_clamp (Gen.V11 mF c) _ ((V11_of mF c main_v20 (by decide)).trans (b_at_round mF c)) (b_m1 (Gen.V10 mF c)) (b_p1 (Gen.V10 mF c))
theorem b_at_out : Gen.V13 mF c main_v24
    = ((truncf .bf16 · bitsLt_bf16_f32) : (⟨S5632x2048, .f32⟩ : BufTy).Contents (Elt F) → (⟨S5632x2048, .bf16⟩ : BufTy).Contents (Elt F)) (Cert.ReferenceIdeal.ReadP.val_main_v47 (F := F) (mF ((c.tc : Thread nD τ).loc main_arg3))) :=
  b_out (Gen.V12 mF c) _ (b_at_clamp mF c) ((V12_of mF c main_v17 (by decide)).trans ((V11_of mF c main_v17 (by decide)).trans ((V10_of mF c main_v17 (by decide)).trans (b_at_inv mF c))))

end

/-! ### The weight w2: each stretch of host operations, from any contents `U` holding the earlier stages -/

section
variable {F : FTy → Type} [FloatOps F] (U : Valuation τ sig (Elt F))

/-- The mean of absolute values. -/
theorem c_mean (x : (⟨S2048x5632, .f32⟩ : BufTy).Contents (Elt F)) (hw : U (Proc.devRef .tc main_arg2) = x) :
    StableHlo.after hostOps0_12 U (Proc.devRef .tc main_v27) = Cert.ReferenceIdeal.ReadP.val_main_v64 (F := F) x := by
  after_results
  rw [hw]
  rfl
/-- The constant eps. -/
theorem c_eps : StableHlo.after hostOps0_12 U (Proc.devRef .tc main_cst_13) = Cert.ReferenceIdeal.ReadP.val_main_cst_28 (F := F) := by
  after_results
  rfl
/-- The mean kept above eps. -/
theorem c_clip (x : (⟨S2048x5632, .f32⟩ : BufTy).Contents (Elt F)) (h1 : U (Proc.devRef .tc main_v27) = Cert.ReferenceIdeal.ReadP.val_main_v64 (F := F) x) (h2 : U (Proc.devRef .tc main_cst_13) = Cert.ReferenceIdeal.ReadP.val_main_cst_28 (F := F)) :
    StableHlo.after hostOps0_13 U (Proc.devRef .tc main_v28) = Cert.ReferenceIdeal.ReadP.val_main_v65 (F := F) x := by
  after_results
  simp only [StableHlo.TRef.ofBuf, StableHlo.TRef.toBuf, cast_eq]
  rw [h1, h2]
  rfl
/-- Its reciprocal: the scale. -/
theorem c_inv (x : (⟨S2048x5632, .f32⟩ : BufTy).Contents (Elt F)) (h1 : U (Proc.devRef .tc main_v28) = Cert.ReferenceIdeal.ReadP.val_main_v65 (F := F) x) :
    StableHlo.after hostOps0_14 U (Proc.devRef .tc main_v29) = Cert.ReferenceIdeal.ReadP.val_main_v66 (F := F) x := by
  after_results
  rw [h1]
  rfl
/-- The weights times the scale. -/
theorem c_scaled (x : (⟨S2048x5632, .f32⟩ : BufTy).Contents (Elt F)) (h1 : U (Proc.devRef .tc main_v28) = Cert.ReferenceIdeal.ReadP.val_main_v65 (F := F) x) (hw : U (Proc.devRef .tc main_arg2) = x) :
    StableHlo.after hostOps0_14 U (Proc.devRef .tc main_v31) = Cert.ReferenceIdeal.ReadP.val_main_v68 (F := F) x := by
  after_results
  rw [h1, hw]
  rfl
/-- Rounded to the nearest integer, ties to even. -/
theorem c_round (x : (⟨S2048x5632, .f32⟩ : BufTy).Contents (Elt F)) (h1 : U (Proc.devRef .tc main_v31) = Cert.ReferenceIdeal.ReadP.val_main_v68 (F := F) x) :
    StableHlo.after hostOps0_15 U (Proc.devRef .tc main_v32) = Cert.ReferenceIdeal.ReadP.val_main_v69 (F := F) x := by
  after_results
  simp only [StableHlo.TRef.ofBuf, StableHlo.TRef.toBuf, cast_eq]
  rw [h1]
  rfl
/-- The constants -1 and 1. -/
theorem c_m1 : StableHlo.after hostOps0_16 U (Proc.devRef .tc main_cst_15) = Cert.ReferenceIdeal.ReadP.val_main_cst_30 (F := F) := by
  after_results
  rfl
theorem c_p1 : StableHlo.after hostOps0_16 U (Proc.devRef .tc main_cst_16) = Cert.ReferenceIdeal.ReadP.val_main_cst_31 (F := F) := by
  after_results
  rfl
/-- Clamped to [-1, 1]. -/
theorem c_clamp (x : (⟨S2048x5632, .f32⟩ : BufTy).Contents (Elt F)) (h1 : U (Proc.devRef .tc main_v32) = Cert.ReferenceIdeal.ReadP.val_main_v69 (F := F) x) (h2 : U (Proc.devRef .tc main_cst_15) = Cert.ReferenceIdeal.ReadP.val_main_cst_30 (F := F)) (h3 : U (Proc.devRef .tc main_cst_16) = Cert.ReferenceIdeal.ReadP.val_main_cst_31 (F := F)) :
    StableHlo.after hostOps0_17 U (Proc.devRef .tc main_v33) = Cert.ReferenceIdeal.ReadP.val_main_v70 (F := F) x := by
  after_results
  simp only [StableHlo.TRef.ofBuf, StableHlo.TRef.toBuf, cast_eq]
  rw [h1, h2, h3]
  rfl
/-- Divided by the scale, then the change of format. -/
theorem c_out (x : (⟨S2048x5632, .f32⟩ : BufTy).Contents (Elt F)) (h1 : U (Proc.devRef .tc main_v33) = Cert.ReferenceIdeal.ReadP.val_main_v70 (F := F) x) (h2 : U (Proc.devRef .tc main_v29) = Cert.ReferenceIdeal.ReadP.val_main_v66 (F := F) x) :
    StableHlo.after hostOps0_18 U (Proc.devRef .tc main_v36)
      = ((truncf .bf16 · bitsLt_bf16_f32) : (⟨S2048x5632, .f32⟩ : BufTy).Contents (Elt F) → (⟨S2048x5632, .bf16⟩ : BufTy).Contents (Elt F)) (Cert.ReferenceIdeal.ReadP.val_main_v72 (F := F) x) := by
  after_results
  rw [h1, h2]
  rfl

end

/-! ### The weight w2: the stretches chained from the launch contents -/

section
variable {F : FTy → Type} [FloatOps F] (mF : (ℓ : Loc nD τ sig) → Buf (Elt F) ℓ) (c : Dev nD)

theorem c_at_clip : Gen.V14 mF c main_v28 = Cert.ReferenceIdeal.ReadP.val_main_v65 (F := F) (mF ((c.tc : Thread nD τ).loc main_arg2)) :=
  c_clip (Gen.V13 mF c) _ (c_mean (Gen.V12 mF c) _ ((V12_of mF c main_arg2 (by decide)).trans ((V11_of mF c main_arg2 (by decide)).trans ((V10_of mF c main_arg2 (by decide)).trans ((V9_of mF c main_arg2 (by decide)).trans ((V8_of mF c main_arg2 (by decide)).trans ((V7_of mF c main_arg2 (by decide)).trans ((V6_of mF c main_arg2 (by decide)).trans ((V5_of mF c main_arg2 (by decide)).trans ((V4_of mF c main_arg2 (by decide)).trans ((V3_of mF c main_arg2 (by decide)).trans ((V2_of mF c main_arg2 (by decide)).trans ((V1_of mF c main_arg2 (by decide))))))))))))))) (c_eps (Gen.V12 mF c))
theorem c_at_inv : Gen.V15 mF c main_v29 = Cert.ReferenceIdeal.ReadP.val_main_v66 (F := F) (mF ((c.tc : Thread nD τ).loc main_arg2)) :=
  c_inv (Gen.V14 mF c) _ (c_at_clip mF c)
theorem c_at_scaled : Gen.V15 mF c main_v31 = Cert.ReferenceIdeal.ReadP.val_main_v68 (F := F) (mF ((c.tc : Thread nD τ).loc main_arg2)) :=
  c_scaled (Gen.V14 mF c) _ (c_at_clip mF c) ((V14_of mF c main_arg2 (by decide)).trans ((V13_of mF c main_arg2 (by decide)).trans ((V12_of mF c main_arg2 (by decide)).trans ((V11_of mF c main_arg2 (by decide)).trans ((V10_of mF c main_arg2 (by decide)).trans ((V9_of mF c main_arg2 (by decide)).trans ((V8_of mF c main_arg2 (by decide)).trans ((V7_of mF c main_arg2 (by decide)).trans ((V6_of mF c main_arg2 (by decide)).trans ((V5_of mF c main_arg2 (by decide)).trans ((V4_of mF c main_arg2 (by decide)).trans ((V3_of mF c main_arg2 (by decide)).trans ((V2_of mF c main_arg2 (by decide)).trans ((V1_of mF c main_arg2 (by decide))))))))))))))))
theorem c_at_round : Gen.V16 mF c main_v32 = Cert.ReferenceIdeal.ReadP.val_main_v69 (F := F) (mF ((c.tc : Thread nD τ).loc main_arg2)) :=
  c_round (Gen.V15 mF c) _ (c_at_scaled mF c)
theorem c_at_clamp : Gen.V18 mF c main_v33 = Cert.ReferenceIdeal.ReadP.val_main_v70 (F := F) (mF ((c.tc : Thread nD τ).loc main_arg2)) :=
  c_clamp (Gen.V17 mF c) _ ((V17_of mF c main_v32 (by decide)).trans (c_at_round mF c)) (c_m1 (Gen.V16 mF c)) (c_p1 (Gen.V16 mF c))
theorem c_at_out : Gen.V19 mF c main_v36
    = ((truncf .bf16 · bitsLt_bf16_f32) : (⟨S2048x5632, .f32⟩ : BufTy).Contents (Elt F) → (⟨S2048x5632, .bf16⟩ : BufTy).Contents (Elt F)) (Cert.ReferenceIdeal.ReadP.val_main_v72 (F := F) (mF ((c.tc : Thread nD τ).loc main_arg2))) :=
  c_out (Gen.V18 mF c) _ (c_at_clamp mF c) ((V18_of mF c main_v29 (by decide)).trans ((V17_of mF c main_v29 (by decide)).trans ((V16_of mF c main_v29 (by decide)).trans (c_at_inv mF c))))

end

/-- The first region's two weight operands and the second region's weight operand: the reference's quantized weight stages. -/
theorem v12_eq (c : Dev nD) :
    Gen.V19 m c main_v12 = Cert.ReferenceIdeal.ReadP.val_main_v22 (F := Ideal) (m ((c.tc : Thread nD τ).loc main_arg1)) := by
  refine (V19_of m c main_v12 (by decide)).trans ?_
  refine (V18_of m c main_v12 (by decide)).trans ?_
  refine (V17_of m c main_v12 (by decide)).trans ?_
  refine (V16_of m c main_v12 (by decide)).trans ?_
  refine (V15_of m c main_v12 (by decide)).trans ?_
  refine (V14_of m c main_v12 (by decide)).trans ?_
  refine (V13_of m c main_v12 (by decide)).trans ?_
  refine (V12_of m c main_v12 (by decide)).trans ?_
  refine (V11_of m c main_v12 (by decide)).trans ?_
  refine (V10_of m c main_v12 (by decide)).trans ?_
  refine (V9_of m c main_v12 (by decide)).trans ?_
  refine (V8_of m c main_v12 (by decide)).trans ?_
  refine (a_at_out m c).trans ?_
  generalize Cert.ReferenceIdeal.ReadP.val_main_v22 (F := Ideal) (m ((c.tc : Thread nD τ).loc main_arg1)) = y
  funext i
  rfl

theorem v24_eq (c : Dev nD) :
    Gen.V19 m c main_v24 = Cert.ReferenceIdeal.ReadP.val_main_v47 (F := Ideal) (m ((c.tc : Thread nD τ).loc main_arg3)) := by
  refine (V19_of m c main_v24 (by decide)).trans ?_
  refine (V18_of m c main_v24 (by decide)).trans ?_
  refine (V17_of m c main_v24 (by decide)).trans ?_
  refine (V16_of m c main_v24 (by decide)).trans ?_
  refine (V15_of m c main_v24 (by decide)).trans ?_
  refine (V14_of m c main_v24 (by decide)).trans ?_
  refine (b_at_out m c).trans ?_
  generalize Cert.ReferenceIdeal.ReadP.val_main_v47 (F := Ideal) (m ((c.tc : Thread nD τ).loc main_arg3)) = y
  funext i
  rfl

theorem v36_eq (c : Dev nD) :
    Gen.V19 m c main_v36 = Cert.ReferenceIdeal.ReadP.val_main_v72 (F := Ideal) (m ((c.tc : Thread nD τ).loc main_arg2)) := by
  refine (c_at_out m c).trans ?_
  generalize Cert.ReferenceIdeal.ReadP.val_main_v72 (F := Ideal) (m ((c.tc : Thread nD τ).loc main_arg2)) = y
  funext i
  rfl

/-- @main's result: the second region's output array read back at (b, s, e) as row 2048 b + s. -/
theorem v39_apply (outs : Gen.Outs (F := Ideal)) (c : Dev nD) (b : Fin 4) (s : Fin 2048) (e : Fin 2048) :
    Gen.V22 m outs c main_v39 (ix3 b s e)
      = Gen.V21 m outs c main_v38 (ix2 (⟨b.val * 2048 + s.val, by have := b.isLt; have := s.isLt; omega⟩ : Fin 8192) e) := by
  show StableHlo.after hostOps2 (Gen.V21 m outs c) (Proc.devRef .tc main_v39) (ix3 b s e) = _
  after_results
  exact unflat_read (Gen.V21 m outs c (Proc.devRef .tc main_v38)) shapeCasts_S8192x2048_S4x2048x2048 b s e

end Cert.KernelIdeal.Val

end
-- ==== Proof.K.Body0.lean ====
/- The first kernel's body as a triple, one statement per control case. At a grid point whose second
   coordinate is 0 the body quantizes the row block of x it was handed, keeps the result in its scratch buffer, and
   computes the gated product block from that scratch and the two weight blocks; at any other point it reads the scratch
   the point before left and computes the gated product from it, leaving the scratch as found. -/
import proofs.«149337_j33191507264221_1_alg».proof.Proof.Gen.Kernel.Launch
import proofs.«149337_j33191507264221_1_alg».proof.Proof.Gen.Kernel.Skeleton
import proofs.«149337_j33191507264221_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 rectangle, as the constant function. -/
private theorem hz2 : (![0, 0] : Fin 2 → ℕ) = fun _ => 0 := funext fun a => by fin_cases a <;> rfl

/-- A load through the whole-shape rectangle at zero offsets reads the buffer's contents. -/
private theorem readAt_whole_unit {κ : Kind} {sp : Space} {S : Shape} {e : EltTy} (v : View sig κ sp S e) (f : v.ty.Contents (Elt F))
    {off : Fin S.rank → ℕ} (h : off = fun _ => 0) (inb : ∀ a, off a + S.size a ≤ S.size a) :
    View.readAt (Elt F) v (Rect.unit off S.size inb).toLoadRect f = View.read (Elt F) v f :=
  (View.readAt_eq_ld v f _).trans (View.ld_unit_zero h inb _)

/-- One store through the whole-shape rectangle at zero offsets, over any contents, reads back as its payload. -/
private theorem read_writes_whole_unit {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e) :
    View.read (Elt F) v (v.writes (Elt F) f [⟨Rect.unit off S.size inb, w⟩]) = w :=
  (View.read_writes_eq_canon v f _ (fun y => ⟨_, List.mem_singleton_self _, View.mem_set_unit_zero h inb y⟩)).trans
    (View.canon_unit_zero h inb w)

/-- The body's branch condition, a chain of word compares on the second grid coordinate, holds exactly when that
    coordinate is 0. -/
theorem cond0_iff (i : grid0.Coords) :
    (Scalar.cmpi .ne (Scalar.extui (Scalar.cmpi .eq (BitVec.ofNat 32 (i 1).val) 0#32)) 0#32 = 1#1) ↔ (i 1).val = 0 := by
  have h : ∀ j : Fin 11, (Scalar.cmpi .ne (Scalar.extui (Scalar.cmpi .eq (BitVec.ofNat 32 j.val) 0#32)) 0#32 = 1#1) ↔ j.val = 0 := by
    decide
  exact h (i 1)

/-- Second coordinate 0: the scratch is overwritten by the quantized block, the output by the gated product of it. -/
theorem sound_kernel0_first (c : Dev nD) (E : Set ℕ) (i : grid0.Coords) (hi : (i 1).val = 0)
    (arg2 : Memref sig .tc .vmem S1024x2048 .f32) (harg2 : arg2.IsWhole) (arg3 : Memref sig .tc .vmem S512x2048 .bf16) (harg3 : arg3.IsWhole)
    (arg4 : Memref sig .tc .vmem S512x2048 .bf16) (harg4 : arg4.IsWhole) (arg5 : Memref sig .tc .vmem S1024x512 .bf16) (harg5 : arg5.IsWhole)
    (arg6 : Memref sig .tc .vmem S1024x2048 .bf16) (harg6 : arg6.IsWhole)
    (x0 : Vec F S1024x2048 .f32) (w1 : Vec F S512x2048 .bf16) (w3 : Vec F S512x2048 .bf16) (K : PUnit → sProp 𝕄) :
    iprop(owns (c : Thread nD τ) arg2 fullShare x0 ∗ owns (c : Thread nD τ) arg3 fullShare w1 ∗ owns (c : Thread nD τ) arg4 fullShare w3
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare w1 ∗ owns (c : Thread nD τ) arg4 fullShare w3
            ∗ owns (c : Thread nD τ) arg5 fullShare (k0_pay2 (k0_pay1 x0) w1 w3) ∗ owns (c : Thread nD τ) arg6 fullShare (k0_pay1 x0)) -∗ K ⟨⟩))
      ⊢ wp frame (wpE (defs₀ (F := F)) Variants.none c none) E (cc0__kernel_a i arg2 harg2 arg3 harg3 arg4 harg4 arg5 harg5 arg6 harg6) K := by
  have hc : Scalar.cmpi .ne (Scalar.extui (Scalar.cmpi .eq (BitVec.ofNat 32 (i 1).val) 0#32)) 0#32 = 1#1 :=
    (cond0_iff i).mpr hi
  simp only [cc0__kernel_a_eq_skeleton]; unfold cc0__kernel_a_skel
  unfold owns
  iintro ⟨⟨%f2, %hf2, H2⟩, ⟨%f3, %hf3, H3⟩, ⟨%f4, %hf4, H4⟩, ⟨%d5, %f5, -, H5⟩, ⟨%d6, %f6, -, H6⟩, Hk⟩
  subst hf2; subst hf3; subst hf4
  sl_exec (disch := exact hc)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    rw [read_writes_whole_unit _ _ hz2, View.readCov_unit_zero _ hz2, readAt_whole_unit _ _ hz2, readAt_whole_unit _ _ hz2,
      readAt_whole_unit _ _ hz2]
  iexists _; isplitr
  swap; · iexact H6
  ipureintro
  sl_unfold_run_names
  rw [read_writes_whole_unit _ _ hz2, readAt_whole_unit _ _ hz2]

/-- Second coordinate not 0: the scratch is read and kept, the output is the gated product of it; the x block is not touched. -/
theorem sound_kernel0_rest (c : Dev nD) (E : Set ℕ) (i : grid0.Coords) (hi : (i 1).val ≠ 0)
    (arg2 : Memref sig .tc .vmem S1024x2048 .f32) (harg2 : arg2.IsWhole) (arg3 : Memref sig .tc .vmem S512x2048 .bf16) (harg3 : arg3.IsWhole)
    (arg4 : Memref sig .tc .vmem S512x2048 .bf16) (harg4 : arg4.IsWhole) (arg5 : Memref sig .tc .vmem S1024x512 .bf16) (harg5 : arg5.IsWhole)
    (arg6 : Memref sig .tc .vmem S1024x2048 .bf16) (harg6 : arg6.IsWhole)
    (w1 : Vec F S512x2048 .bf16) (w3 : Vec F S512x2048 .bf16) (s : Vec F S1024x2048 .bf16) (K : PUnit → sProp 𝕄) :
    iprop(owns (c : Thread nD τ) arg3 fullShare w1 ∗ owns (c : Thread nD τ) arg4 fullShare w3
        ∗ (∃ d, owns (c : Thread nD τ) arg5 fullShare d) ∗ owns (c : Thread nD τ) arg6 fullShare s
        ∗ (iprop(owns (c : Thread nD τ) arg3 fullShare w1 ∗ owns (c : Thread nD τ) arg4 fullShare w3
            ∗ owns (c : Thread nD τ) arg5 fullShare (k0_pay2 s w1 w3) ∗ owns (c : Thread nD τ) arg6 fullShare s) -∗ K ⟨⟩))
      ⊢ wp frame (wpE (defs₀ (F := F)) Variants.none c none) E (cc0__kernel_a i arg2 harg2 arg3 harg3 arg4 harg4 arg5 harg5 arg6 harg6) K := by
  have hc : ¬ (Scalar.cmpi .ne (Scalar.extui (Scalar.cmpi .eq (BitVec.ofNat 32 (i 1).val) 0#32)) 0#32 = 1#1) :=
    fun h => hi ((cond0_iff i).mp h)
  simp only [cc0__kernel_a_eq_skeleton]; unfold cc0__kernel_a_skel
  unfold owns
  iintro ⟨⟨%f3, %hf3, H3⟩, ⟨%f4, %hf4, H4⟩, ⟨%d5, %f5, -, H5⟩, ⟨%f6, %hf6, H6⟩, Hk⟩
  subst hf3; subst hf4; subst hf6
  sl_exec (disch := exact hc)
  sl_step
  iapply Hk
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [read_writes_whole_unit _ _ hz2, readAt_whole_unit _ _ hz2, readAt_whole_unit _ _ hz2, readAt_whole_unit _ _ hz2]
  iexists f6; isplitr; · ipureintro; rfl
  iexact H6

end Cert.Kernel.Hand

end
-- ==== Proof.K.Region0.lean ====
/- The first pallas_call as a pipeline region, at any contents V of the core's buffers when the region is entered:
   each window's block at a grid point, what the body leaves in its scratch buffer and in its output buffer at each point,
   the region's invariant, the pipeline's proof data and the body obligation.
   The grid is 8 row tiles by 11 column tiles, column fastest: point t is (t / 11, t % 11). The x window's block depends on the
   row tile only, so the scratch buffer, written at column 0 and kept at the other columns, holds after EVERY point the
   quantized x block of that same point. -/
import proofs.«149337_j33191507264221_1_alg».proof.Proof.Gen.Kernel.Launch
import proofs.«149337_j33191507264221_1_alg».proof.Proof.Gen.Kernel.Skeleton
import proofs.«149337_j33191507264221_1_alg».proof.Proof.Gen.Kernel.Points
import proofs.«149337_j33191507264221_1_alg».proof.Proof.K.Body0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x block, and the two weight blocks, at point t, at their literal types. -/
abbrev xblk0 (c : Dev nD) (t : Fin cfg0.N) : Vec F S1024x2048 .f32 := iblk0 V c 0 t
abbrev w1blk0 (c : Dev nD) (t : Fin cfg0.N) : Vec F S512x2048 .bf16 := iblk0 V c 1 t
abbrev w3blk0 (c : Dev nD) (t : Fin cfg0.N) : Vec F S512x2048 .bf16 := iblk0 V c 2 t

/-- What the scratch buffer holds after point t: the quantized x block of t. -/
def scr0 (c : Dev nD) (t : Fin cfg0.N) : Vec F S1024x2048 .bf16 := k0_pay1 (xblk0 V c t)

/-- What the output window's buffer holds after point t: the gated product of the quantized x block with the two weight blocks. -/
def out0 (c : Dev nD) (t : Fin cfg0.N) : Vec F S1024x512 .bf16 := k0_pay2 (scr0 V c t) (w1blk0 V c t) (w3blk0 V c t)

/-- Proof data that name the entry contents only: the library states "two points with one block index read one
    block" over proof data, and reads nothing of them but the arrays. -/
private def datA0 (c : Dev nD) : Dat τ (Elt F) Unit ℕ (UR sig nD τ) ℕ cfg0 c where
  A w := V c (Pipeline.arrRef spec0 w)
  after _ _ := fun _ => Classical.arbitrary _
  Φ _ := iprop(emp)
  q _ := fullShare
  owed _ := 0

/-- Every window of this call is uncut, so a fetch fills the whole staging buffer with the block. -/
private theorem fetchedA0 (c : Dev nD) (t : Fin cfg0.N) (d) : (datA0 V c).fetched 0 t d = iblk0 V c 0 t := by
  unfold Dat.fetched Dat.blockOf iblk0; rfl

/-- At a point that is not a row tile's first, the x block is the one of the point before. -/
theorem xblk0_prev (c : Dev nD) (t : Fin cfg0.N) (h : t.val % 11 ≠ 0) :
    xblk0 V c t = xblk0 V c ⟨t.val - 1, Nat.lt_of_le_of_lt (Nat.sub_le _ _) t.isLt⟩ := by
  -- the x window is not fetched at t, so its block index is the one of the point before
  have hf : (cfg0.win 0).fetch t = false := by
    cases hft : (cfg0.win 0).fetch t with
    | false => rfl
    | true => exact absurd ((fetch0_0 t).mp hft) h
  obtain ⟨-, hix⟩ := (cfg0.win 0).index_eq_of_fetch rfl t hf
  have e := (datA0 V c).fetched_congr 0 hix rfl (xblk0 V c t)
  rw [fetchedA0, fetchedA0] at e
  exact e

/-- The second grid coordinate of point t is t % 11. -/
theorem coord0_1 (t : Fin cfg0.N) : ((grid0.coords t) 1).val = t.val % 11 :=
  (by decide +kernel : ∀ t : Fin grid0.N, ((grid0.coords t) 1).val = t.val % 11) t

/-- The core's scoped buffers that are neither staging buffers of this call nor its scratch, each whole at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The region's invariant before position n: before the first point every scoped buffer that is no staging buffer at
    anything and the generator register at some state; afterwards the scratch at what the point before left in it. -/
def Phi0 (c : Dev nD) : (n : ℕ) → n ≤ cfg0.N → sProp 𝕄
  | 0, _ => Pipeline.ΦA spec0 c
  | n + 1, hn => iprop(owns (c : Thread nD τ) (Memref.whole cc0_scratch0) fullShare (scr0 V c ⟨n, Nat.lt_of_succ_le hn⟩) ∗ rest0 (F := F) c ∗ (∃ r, prngReg c r))

/-- The proof data of the first pipeline on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 V c t
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0 V c t := by dsimp only [dat0]

/-- The windows are uncut: a fetch fills the whole staging buffer with the block read off the entry contents. -/
private theorem fetched0_0 (c : Dev nD) (t : Fin cfg0.N) (d) : (dat0 V c).fetched 0 t d = iblk0 V c 0 t := by
  unfold Dat.fetched Dat.blockOf iblk0; rw [A_eq0]; rfl
private theorem fetched0_1 (c : Dev nD) (t : Fin cfg0.N) (d) : (dat0 V c).fetched 1 t d = iblk0 V c 1 t := by
  unfold Dat.fetched Dat.blockOf iblk0; rw [A_eq0]; rfl
private theorem fetched0_2 (c : Dev nD) (t : Fin cfg0.N) (d) : (dat0 V c).fetched 2 t d = iblk0 V c 2 t := by
  unfold Dat.fetched Dat.blockOf iblk0; rw [A_eq0]; rfl

/-- The block the library reads for a window is the one named here. -/
private theorem blockOf0 (c : Dev nD) (w : Fin cfg0.W) (t : Fin cfg0.N) : (dat0 V c).blockOf w t = iblk0 V c w t := by
  unfold Dat.blockOf iblk0; rw [A_eq0]

/-- Each input window's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0, blockOf0]) t d).trans (fetched0_0 V c t d)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1, blockOf0]) t d).trans (fetched0_1 V c t d)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2, blockOf0]) t d).trans (fetched0_2 V c t d)

/-! ## The invariant, position by position -/

/-- Before the first point the invariant is what the launch hands over. -/
theorem Phi0_zero (c : Dev nD) (n : ℕ) (h : n ≤ cfg0.N) (hz : n = 0) : Phi0 V c n h = Pipeline.ΦA spec0 c := by
  subst hz; rfl

/-- After point n: the scratch at the quantized x block of point n. -/
theorem Phi0_succ (c : Dev nD) (n : ℕ) (hn : n < cfg0.N) :
    Phi0 V c (n + 1) hn = iprop(owns (c : Thread nD τ) (Memref.whole cc0_scratch0) fullShare (scr0 V c ⟨n, hn⟩) ∗ rest0 (F := F) c ∗ (∃ r, prngReg c r)) := rfl

/-- Before a point that is not the first: the scratch at what the point before left. -/
theorem Phi0_pos (c : Dev nD) (n : ℕ) (h : n ≤ cfg0.N) (hz : n ≠ 0) :
    Phi0 V c n h = iprop(owns (c : Thread nD τ) (Memref.whole cc0_scratch0) fullShare (scr0 V c ⟨n - 1, by omega⟩) ∗ rest0 (F := F) c ∗ (∃ r, prngReg c r)) := by
  cases n with
  | zero => exact absurd rfl hz
  | succ n => rfl

/-- The invariant at a point's start, restated at the point's number. -/
theorem Phi0_castSucc (c : Dev nD) (t : Fin cfg0.N) : (dat0 V c).Φ t.castSucc = Phi0 V c t.val (Nat.le_of_lt t.isLt) := rfl

/-- The launch's invariant opened: this call's scratch at some contents, the other scoped buffers, the generator register. -/
theorem PhiA_eq0 (c : Dev nD) :
    (Pipeline.ΦA spec0 c : sProp 𝕄)
      = iprop(((∃ d, owns (c : Thread nD τ) (Memref.whole cc0_scratch0) fullShare d) ∗ rest0 (F := F) c) ∗ (∃ r, prngReg c r)) := by
  unfold Pipeline.ΦA rest0; rw [scopedRest0_eq]; simp only [owns_whole]; try rfl

/-- At a point that is not a row tile's first the scratch contents named for the point before are this point's. -/
theorem scr0_prev (c : Dev nD) (t : Fin cfg0.N) (h : t.val % 11 ≠ 0) (hlt : t.val - 1 < cfg0.N) :
    scr0 V c ⟨t.val - 1, hlt⟩ = scr0 V c t := by
  unfold scr0; rw [xblk0_prev V c t h]

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns: no window is idle at any point, so each buffer is left at the named contents. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 1600000 in
/-- The body at any point. At a row tile's first point (second coordinate 0) the x block is quantized into the scratch,
    whatever the scratch held (anything at the very first point, the previous row tile's block afterwards); at the other
    points the scratch holds the quantized block of the point before, which is this point's since the x block has not
    moved, and is kept. In both cases the output is the gated product of the scratch with the two weight blocks. The
    other scoped buffers, the generator register and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl,
    after0_0, after0_1, after0_2, after0_3,
    show (dat0 V c).Φ t.succ = Phi0 V c (t.val + 1) t.isLt from rfl, Phi0_succ, Phi0_castSucc]
  unfold out0
  by_cases h : t.val % 11 = 0
  · have hi : ((grid0.coords t) 1).val = 0 := (coord0_1 t).trans h
    by_cases hz : t.val = 0
    · rw [Phi0_zero V c _ _ hz, PhiA_eq0]
      unfold scr0
      iintro ⟨⟨⟨HS, Hr⟩, Hg⟩, Ho, ⟨%d0, H0⟩, ⟨%d1, H1⟩, ⟨%d2, H2⟩, ⟨%d3, H3⟩⟩
      iapply (sound_kernel0_first c Set.univ (grid0.coords t) hi _ _ _ _ _ _ _ _ _ _ (xblk0 V c t) (w1blk0 V c t) (w3blk0 V c t) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3
    · rw [Phi0_pos V c _ _ hz]
      unfold scr0
      iintro ⟨⟨HS, Hr, Hg⟩, Ho, ⟨%d0, H0⟩, ⟨%d1, H1⟩, ⟨%d2, H2⟩, ⟨%d3, H3⟩⟩
      iapply (sound_kernel0_first c Set.univ (grid0.coords t) hi _ _ _ _ _ _ _ _ _ _ (xblk0 V c t) (w1blk0 V c t) (w3blk0 V c t) _)
      isplitl [H0]; · iexact H0
      isplitl [H1]; · iexact H1
      isplitl [H2]; · iexact H2
      isplitl [H3]; · iexists _; iexact H3
      isplitl [HS]; · iexists _; iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3
  · have hi : ((grid0.coords t) 1).val ≠ 0 := fun e => h ((coord0_1 t).symm.trans e)
    have hz : t.val ≠ 0 := fun e => h (by rw [e])
    rw [Phi0_pos V c _ _ hz, scr0_prev V c t h]
    iintro ⟨⟨HS, Hr, Hg⟩, Ho, ⟨%d0, H0⟩, ⟨%d1, H1⟩, ⟨%d2, H2⟩, ⟨%d3, H3⟩⟩
    iapply (sound_kernel0_rest c Set.univ (grid0.coords t) hi _ _ _ _ _ _ _ _ _ _ (w1blk0 V c t) (w3blk0 V c t) (scr0 V c t) _)
    isplitl [H1]; · iexact H1
    isplitl [H2]; · iexact H2
    isplitl [H3]; · iexists _; iexact H3
    isplitl [HS]; · iexact HS
    iintro ⟨H1, H2, H3, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]

/-- After the last point the invariant gives the scoped buffers back at some contents, the scratch's named contents forgotten. -/
theorem hout0 (c : Dev nD) : (dat0 V c).Φ (Fin.last cfg0.N) ⊢ Pipeline.ΦA spec0 c := by
  have hN : cfg0.N ≠ 0 := by rw [show cfg0.N = 88 from N_0]; decide
  rw [show (dat0 V c).Φ (Fin.last cfg0.N) = Phi0 V c cfg0.N (Nat.le_refl _) from rfl, Phi0_pos V c _ _ hN, PhiA_eq0]
  iintro ⟨HS, Hr, Hg⟩
  isplitl [HS Hr]
  · isplitl [HS]; · iexists _; iexact HS
    iexact Hr
  iexact Hg

end Region0

end Cert.Kernel.Hand

end
-- ==== Proof.K.Body1.lean ====
/- The second kernel's body as a triple, one statement per control case. At a grid point whose second
   coordinate is 0 the body quantizes the row block of the activation it was handed, keeps the result in its scratch
   buffer, and multiplies it with the weight block; at any other point it multiplies the scratch the point before left. -/
import proofs.«149337_j33191507264221_1_alg».proof.Proof.Gen.Kernel.Launch
import proofs.«149337_j33191507264221_1_alg».proof.Proof.Gen.Kernel.Skeleton
import proofs.«149337_j33191507264221_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 rectangle, as the constant function. -/
private theorem hz2 : (![0, 0] : Fin 2 → ℕ) = fun _ => 0 := funext fun a => by fin_cases a <;> rfl

/-- A load through the whole-shape rectangle at zero offsets reads the buffer's contents. -/
private theorem readAt_whole_unit {κ : Kind} {sp : Space} {S : Shape} {e : EltTy} (v : View sig κ sp S e) (f : v.ty.Contents (Elt F))
    {off : Fin S.rank → ℕ} (h : off = fun _ => 0) (inb : ∀ a, off a + S.size a ≤ S.size a) :
    View.readAt (Elt F) v (Rect.unit off S.size inb).toLoadRect f = View.read (Elt F) v f :=
  (View.readAt_eq_ld v f _).trans (View.ld_unit_zero h inb _)

/-- One store through the whole-shape rectangle at zero offsets, over any contents, reads back as its payload. -/
private theorem read_writes_whole_unit {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e) :
    View.read (Elt F) v (v.writes (Elt F) f [⟨Rect.unit off S.size inb, w⟩]) = w :=
  (View.read_writes_eq_canon v f _ (fun y => ⟨_, List.mem_singleton_self _, View.mem_set_unit_zero h inb y⟩)).trans
    (View.canon_unit_zero h inb w)

/-- The body's branch condition, a chain of word compares on the second grid coordinate, holds exactly when that
    coordinate is 0. -/
theorem cond1_iff (i : grid1.Coords) :
    (Scalar.cmpi .ne (Scalar.extui (Scalar.cmpi .eq (BitVec.ofNat 32 (i 1).val) 0#32)) 0#32 = 1#1) ↔ (i 1).val = 0 := by
  have h : ∀ j : Fin 4, (Scalar.cmpi .ne (Scalar.extui (Scalar.cmpi .eq (BitVec.ofNat 32 j.val) 0#32)) 0#32 = 1#1) ↔ j.val = 0 := by
    decide
  exact h (i 1)

/-- Second coordinate 0: the scratch is overwritten by the quantized block, the output by its product with the weight block. -/
theorem sound_kernel1_first (c : Dev nD) (E : Set ℕ) (i : grid1.Coords) (hi : (i 1).val = 0)
    (arg2 : Memref sig .tc .vmem S512x5632 .bf16) (harg2 : arg2.IsWhole) (arg3 : Memref sig .tc .vmem S512x5632 .bf16) (harg3 : arg3.IsWhole)
    (arg4 : Memref sig .tc .vmem S512x512 .f32) (harg4 : arg4.IsWhole) (arg5 : Memref sig .tc .vmem S512x5632 .bf16) (harg5 : arg5.IsWhole)
    (a0 : Vec F S512x5632 .bf16) (w2 : Vec F S512x5632 .bf16) (K : PUnit → sProp 𝕄) :
    iprop(owns (c : Thread nD τ) arg2 fullShare a0 ∗ owns (c : Thread nD τ) arg3 fullShare w2
        ∗ (∃ d, owns (c : Thread nD τ) arg4 fullShare d) ∗ (∃ d, owns (c : Thread nD τ) arg5 fullShare d)
        ∗ (iprop(owns (c : Thread nD τ) arg2 fullShare a0 ∗ owns (c : Thread nD τ) arg3 fullShare w2
            ∗ owns (c : Thread nD τ) arg4 fullShare (k1_pay2 (k1_pay1 a0) w2) ∗ owns (c : Thread nD τ) arg5 fullShare (k1_pay1 a0)) -∗ K ⟨⟩))
      ⊢ wp frame (wpE (defs₀ (F := F)) Variants.none c none) E (cc1__kernel_b i arg2 harg2 arg3 harg3 arg4 harg4 arg5 harg5) K := by
  have hc : Scalar.cmpi .ne (Scalar.extui (Scalar.cmpi .eq (BitVec.ofNat 32 (i 1).val) 0#32)) 0#32 = 1#1 :=
    (cond1_iff i).mpr hi
  simp only [cc1__kernel_b_eq_skeleton]; unfold cc1__kernel_b_skel
  unfold owns
  iintro ⟨⟨%f2, %hf2, H2⟩, ⟨%f3, %hf3, H3⟩, ⟨%d4, %f4, -, H4⟩, ⟨%d5, %f5, -, H5⟩, Hk⟩
  subst hf2; subst hf3
  sl_exec (disch := exact hc)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [read_writes_whole_unit _ _ hz2, View.readCov_unit_zero _ hz2, readAt_whole_unit _ _ hz2, readAt_whole_unit _ _ hz2]
  iexists _; isplitr
  swap; · iexact H5
  ipureintro
  sl_unfold_run_names
  rw [read_writes_whole_unit _ _ hz2, readAt_whole_unit _ _ hz2]

/-- Second coordinate not 0: the scratch is read and kept, the output is its product with the weight block; the activation block is not touched. -/
theorem sound_kernel1_rest (c : Dev nD) (E : Set ℕ) (i : grid1.Coords) (hi : (i 1).val ≠ 0)
    (arg2 : Memref sig .tc .vmem S512x5632 .bf16) (harg2 : arg2.IsWhole) (arg3 : Memref sig .tc .vmem S512x5632 .bf16) (harg3 : arg3.IsWhole)
    (arg4 : Memref sig .tc .vmem S512x512 .f32) (harg4 : arg4.IsWhole) (arg5 : Memref sig .tc .vmem S512x5632 .bf16) (harg5 : arg5.IsWhole)
    (w2 : Vec F S512x5632 .bf16) (s : Vec F S512x5632 .bf16) (K : PUnit → sProp 𝕄) :
    iprop(owns (c : Thread nD τ) arg3 fullShare w2
        ∗ (∃ d, owns (c : Thread nD τ) arg4 fullShare d) ∗ owns (c : Thread nD τ) arg5 fullShare s
        ∗ (iprop(owns (c : Thread nD τ) arg3 fullShare w2
            ∗ owns (c : Thread nD τ) arg4 fullShare (k1_pay2 s w2) ∗ owns (c : Thread nD τ) arg5 fullShare s) -∗ K ⟨⟩))
      ⊢ wp frame (wpE (defs₀ (F := F)) Variants.none c none) E (cc1__kernel_b i arg2 harg2 arg3 harg3 arg4 harg4 arg5 harg5) K := by
  have hc : ¬ (Scalar.cmpi .ne (Scalar.extui (Scalar.cmpi .eq (BitVec.ofNat 32 (i 1).val) 0#32)) 0#32 = 1#1) :=
    fun h => hi ((cond1_iff i).mp h)
  simp only [cc1__kernel_b_eq_skeleton]; unfold cc1__kernel_b_skel
  unfold owns
  iintro ⟨⟨%f3, %hf3, H3⟩, ⟨%d4, %f4, -, H4⟩, ⟨%f5, %hf5, H5⟩, Hk⟩
  subst hf3; subst hf5
  sl_exec (disch := exact hc)
  sl_step
  iapply Hk
  isplitl [H3]
  · iexists f3; isplitr; · ipureintro; rfl
    iexact H3
  isplitl [H4]
  · iexists _; isplitr
    swap; · iexact H4
    ipureintro
    rw [read_writes_whole_unit _ _ hz2, readAt_whole_unit _ _ hz2, readAt_whole_unit _ _ hz2]
  iexists f5; isplitr; · ipureintro; rfl
  iexact H5

end Cert.Kernel.Hand

end
-- ==== Proof.K.Region1.lean ====
/- The second pallas_call as a pipeline region, at any contents V of the core's buffers when the region is entered:
   each window's block at a grid point, what the body leaves in its scratch buffer and in its output buffer at each point,
   the region's invariant, the pipeline's proof data and the body obligation.
   The grid is 16 row tiles by 4 column tiles, column fastest: point t is (t / 4, t % 4). The activation window's block depends
   on the row tile only, so the scratch buffer, written at column 0 and kept at the other columns, holds after EVERY point the
   quantized activation block of that same point. -/
import proofs.«149337_j33191507264221_1_alg».proof.Proof.Gen.Kernel.Launch
import proofs.«149337_j33191507264221_1_alg».proof.Proof.Gen.Kernel.Skeleton
import proofs.«149337_j33191507264221_1_alg».proof.Proof.Gen.Kernel.Points
import proofs.«149337_j33191507264221_1_alg».proof.Proof.K.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activation block and the weight block at point t, at their literal types. -/
abbrev ablk1 (c : Dev nD) (t : Fin cfg1.N) : Vec F S512x5632 .bf16 := iblk1 V c 0 t
abbrev w2blk1 (c : Dev nD) (t : Fin cfg1.N) : Vec F S512x5632 .bf16 := iblk1 V c 1 t

/-- What the scratch buffer holds after point t: the quantized activation block of t. -/
def scr1 (c : Dev nD) (t : Fin cfg1.N) : Vec F S512x5632 .bf16 := k1_pay1 (ablk1 V c t)

/-- What the output window's buffer holds after point t: the product of the quantized activation block with the weight block. -/
def out1 (c : Dev nD) (t : Fin cfg1.N) : Vec F S512x512 .f32 := k1_pay2 (scr1 V c t) (w2blk1 V c t)

/-- The second grid coordinate of point t is t % 4. -/
theorem coord1_1 (t : Fin cfg1.N) : ((grid1.coords t) 1).val = t.val % 4 :=
  (by decide +kernel : ∀ t : Fin grid1.N, ((grid1.coords t) 1).val = t.val % 4) t

/-- The core's scoped buffers that are neither staging buffers of this call nor its scratch, each whole at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- The region's invariant before position n: before the first point every scoped buffer that is no staging buffer at
    anything and the generator register at some state; afterwards the scratch at what the point before left in it. -/
def Phi1 (c : Dev nD) : (n : ℕ) → n ≤ cfg1.N → sProp 𝕄
  | 0, _ => Pipeline.ΦA spec1 c
  | n + 1, hn => iprop(owns (c : Thread nD τ) (Memref.whole cc1_scratch0) fullShare (scr1 V c ⟨n, Nat.lt_of_succ_le hn⟩) ∗ rest1 (F := F) c ∗ (∃ r, prngReg c r))

/-- The proof data of the second pipeline on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 V c t
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 V c t := by dsimp only [dat1]

/-- What a fetch of an input window puts in its staging buffer is the window's block, whatever the buffer held. -/
theorem fetched1_0 (c : Dev nD) (t : Fin cfg1.N) (d) : (dat1 V c).fetched 0 t d = iblk1 V c 0 t := by
  unfold Dat.fetched Dat.blockOf iblk1; rw [A_eq1]; try rfl
theorem fetched1_1 (c : Dev nD) (t : Fin cfg1.N) (d) : (dat1 V c).fetched 1 t d = iblk1 V c 1 t := by
  unfold Dat.fetched Dat.blockOf iblk1; rw [A_eq1]; try rfl

/-- At a point that is not a row tile's first, the activation block is the one of the point before. -/
theorem ablk1_prev (c : Dev nD) (t : Fin cfg1.N) (h : t.val % 4 ≠ 0) :
    ablk1 V c t = ablk1 V c ⟨t.val - 1, Nat.lt_of_le_of_lt (Nat.sub_le _ _) t.isLt⟩ := by
  have hf : (cfg1.win 0).fetch t = false := by
    rw [← Bool.not_eq_true]; exact fun hft => h ((fetch1_0 t).mp hft)
  obtain ⟨_, hix⟩ := (cfg1.win 0).index_eq_of_fetch rfl t hf
  exact ((fetched1_0 V c t (ablk1 V c t)).symm.trans ((dat1 V c).fetched_congr 0 hix rfl (ablk1 V c t))).trans
    (fetched1_0 V c _ (ablk1 V c t))

/-- Each input window's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans (fetched1_0 V c t d)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans (fetched1_1 V c t d)

/-- The invariant's cases. -/
theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(owns (c : Thread nD τ) (Memref.whole cc1_scratch0) fullShare (scr1 V c ⟨n, hn⟩) ∗ rest1 (F := F) c ∗ (∃ r, prngReg c r)) := rfl

theorem Phi1_pos (c : Dev nD) (n : ℕ) (h : n ≤ cfg1.N) (hz : n ≠ 0) :
    Phi1 V c n h = iprop(owns (c : Thread nD τ) (Memref.whole cc1_scratch0) fullShare (scr1 V c ⟨n - 1, by omega⟩) ∗ rest1 (F := F) c ∗ (∃ r, prngReg c r)) := by
  cases n with
  | zero => exact absurd rfl hz
  | succ n => rfl

theorem Phi1_castSucc (c : Dev nD) (t : Fin cfg1.N) :
    (dat1 V c).Φ t.castSucc = Phi1 V c t.val (Nat.le_of_lt t.isLt) := by
  dsimp only [dat1]; simp only [Fin.coe_castSucc]

/-- The class invariant with this call's scratch split off as a memref owned at some contents. -/
theorem PhiA1_eq (c : Dev nD) :
    (Pipeline.ΦA spec1 c : sProp 𝕄)
      = iprop((∃ d, owns (c : Thread nD τ) (Memref.whole cc1_scratch0) fullShare d) ∗ rest1 (F := F) c ∗ (∃ r, prngReg c r)) := by
  have h₁ : (Pipeline.ΦA spec1 c : sProp 𝕄)
      ⊢ iprop((∃ d, owns (c : Thread nD τ) (Memref.whole cc1_scratch0) fullShare d) ∗ rest1 (F := F) c ∗ (∃ r, prngReg c r)) := by
    unfold Pipeline.ΦA rest1; rw [scopedRest1_eq]; simp only [owns_whole]
    iintro ⟨⟨H0, H1, H2, H3, H4, H5, H6, H7, H8, HS⟩, Hg⟩
    isplitl [HS]; · iexact HS
    isplitr [Hg]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    iexact Hg
  have h₂ : iprop((∃ d, owns (c : Thread nD τ) (Memref.whole cc1_scratch0) fullShare d) ∗ rest1 (F := F) c ∗ (∃ r, prngReg c r))
      ⊢ (Pipeline.ΦA spec1 c : sProp 𝕄) := by
    unfold Pipeline.ΦA rest1; rw [scopedRest1_eq]; simp only [owns_whole]
    iintro ⟨HS, ⟨H0, H1, H2, H3, H4, H5, H6, H7, H8⟩, Hg⟩
    isplitr [Hg]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact HS
    iexact Hg
  exact BI.equiv_iff.mp ⟨h₁, h₂⟩

/-- The scratch's contents after a point that is not a row tile's first are those after the point before. -/
theorem scr1_prev (c : Dev nD) (t : Fin cfg1.N) (h : t.val % 4 ≠ 0) :
    scr1 V c ⟨t.val - 1, Nat.lt_of_le_of_lt (Nat.sub_le _ _) t.isLt⟩ = scr1 V c t := by
  unfold scr1; rw [ablk1_prev V c t h]

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 1600000 in
/-- The body at any point. At a row tile's first point the body quantizes the activation block into the scratch, which the
    invariant hands it at anything (before the first point of the grid) or at the contents of the tile before (forgotten); at
    the other points the invariant hands it the scratch at what the point before left, which is this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ]
  rw [after1_0, after1_1, after1_2]
  by_cases h : t.val % 4 = 0
  · have hi : ((grid1.coords t) 1).val = 0 := (coord1_1 t).trans h
    by_cases hz : t.val = 0
    · rw [Phi1_castSucc V c t, Phi1_zero V c _ _ hz, PhiA1_eq]
      iintro ⟨⟨HS, Hr, Hg⟩, Ho, ⟨%d0, H0⟩, ⟨%d1, H1⟩, ⟨%d2, H2⟩⟩
      iapply (sound_kernel1_first c Set.univ (grid1.coords t) hi _ _ _ _ _ _ _ _ (ablk1 V c t) (w2blk1 V c t) _)
      isplitl [H0]; · iexact H0
      isplitl [H1]; · iexact H1
      isplitl [H2]; · iexists _; iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexact H2
    · rw [Phi1_castSucc V c t, Phi1_pos V c _ _ hz]
      iintro ⟨⟨HS, Hr, Hg⟩, Ho, ⟨%d0, H0⟩, ⟨%d1, H1⟩, ⟨%d2, H2⟩⟩
      iapply (sound_kernel1_first c Set.univ (grid1.coords t) hi _ _ _ _ _ _ _ _ (ablk1 V c t) (w2blk1 V c t) _)
      isplitl [H0]; · iexact H0
      isplitl [H1]; · iexact H1
      isplitl [H2]; · iexists _; iexact H2
      isplitl [HS]; · iexists _; iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexact H2
  · have hi : ((grid1.coords t) 1).val ≠ 0 := fun e => h ((coord1_1 t).symm.trans e)
    have hz : t.val ≠ 0 := fun e => h (by rw [e])
    rw [Phi1_castSucc V c t, Phi1_pos V c _ _ hz, scr1_prev V c t h]
    iintro ⟨⟨HS, Hr, Hg⟩, Ho, ⟨%d0, H0⟩, ⟨%d1, H1⟩, ⟨%d2, H2⟩⟩
    iapply (sound_kernel1_rest c Set.univ (grid1.coords t) hi (win1_0.stage (cfg1.slots t 0)) _ _ _ _ _ _ _ (w2blk1 V c t) (scr1 V c t) _)
    isplitl [H1]; · iexact H1
    isplitl [H2]; · iexists _; iexact H2
    isplitl [HS]; · iexact HS
    iintro ⟨H1, H2, HS⟩
    isplitl [HS Hr Hg]
    · isplitl [HS]; · iexact HS
      isplitl [Hr]; · iexact Hr
      iexact Hg
    isplitl [Ho]; · iexact Ho
    isplitl [H0]; · iexact H0
    isplitl [H1]; · iexact H1
    iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After the last point the invariant gives the scoped buffers back at some contents, the scratch's named contents forgotten. -/
theorem hout1 (c : Dev nD) : (dat1 V c).Φ (Fin.last cfg1.N) ⊢ Pipeline.ΦA spec1 c := by
  have hne : (Fin.last cfg1.N).val ≠ 0 := by rw [Fin.val_last]; have : cfg1.N = 64 := N_1; omega
  rw [show (dat1 V c).Φ (Fin.last cfg1.N) = Phi1 V c (Fin.last cfg1.N).val (Nat.le_of_lt_succ (Fin.last cfg1.N).isLt) from rfl,
    Phi1_pos V c _ _ hne, PhiA1_eq]
  iintro ⟨HS, Hr, Hg⟩
  isplitl [HS]; · iexists _; iexact HS
  isplitl [Hr]; · iexact Hr
  iexact Hg

end Region1

end Cert.Kernel.Hand

end
-- ==== Proof.K.Regs.lean ====
/- The two pallas_calls as regions of @main between its stretches of host operations: the buffers' contents at each region's
   entry and exit, every pipeline's proof data, and each region's record — entered from every unscoped buffer held at the
   contents before it, left with its output array at what its write-backs folded, the generator register riding along, nothing owed. -/
import proofs.«149337_j33191507264221_1_alg».proof.Proof.Gen.Kernel.Launch
import proofs.«149337_j33191507264221_1_alg».proof.Proof.Gen.Kernel.Skeleton
import proofs.«149337_j33191507264221_1_alg».proof.Proof.Gen.Kernel.Points
import proofs.«149337_j33191507264221_1_alg».proof.Proof.K.Region0
import proofs.«149337_j33191507264221_1_alg».proof.Proof.K.Region1
import proofs.«149337_j33191507264221_1_alg».proof.Proof.K.RunCond
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the two regions' entries and exits -/

/-- The core's buffers when region 0 is entered: the launch contents through the host operations before it. -/
abbrev E0 : (c : Dev nD) → (b : Ref sig .tc) → Buf (Elt F) ((c : Thread nD τ).loc b) := fun c b => Gen.V19 m c b

/-- What region 0 leaves in its output array: its write-backs folded over the array as entered. -/
def X0 (c : Dev nD) : Buf (Elt F) ((c : Thread nD τ).loc main_v37) := (dat0 (E0 m) c).arrAt 3 cfg0.N

/-- The core's buffers when region 1 is entered: region 0's output array at what it left, the others as region 0 found them. -/
abbrev W20 (c : Dev nD) : Valuation τ sig (Elt F) := Function.update (Gen.V19 m c) main_v37 (X0 m c)
abbrev E1 : (c : Dev nD) → (b : Ref sig .tc) → Buf (Elt F) ((c : Thread nD τ).loc b) := fun c b => W20 m c b

/-- What region 1 leaves in its output array. -/
def X1 (c : Dev nD) : Buf (Elt F) ((c : Thread nD τ).loc main_v38) := (dat1 (E1 m) c).arrAt 2 cfg1.N

/-- The core's buffers after region 1. -/
abbrev W21 (c : Dev nD) : Valuation τ sig (Elt F) := Function.update (W20 m c) main_v38 (X1 m c)

/-- The contents the regions leave, as the family the generated valuations are written over. -/
def outs : Gen.Outs (F := F) := fun _ r c => W21 m c r

theorem outs_20 (c : Dev nD) : outs m 20 main_v37 c = X0 m c := by
  have h : (Proc.devRef .tc main_v37 : DevRef τ sig) ≠ Proc.devRef .tc main_v38 := StableHlo.devRef_ne_of_ne (by decide)
  show Function.update (Function.update (Gen.V19 m c) main_v37 (X0 m c)) main_v38 (X1 m c) main_v37 = X0 m c
  rw [Function.update_of_ne h, Function.update_self]

theorem outs_21 (c : Dev nD) : outs m 21 main_v38 c = X1 m c := by
  show Function.update (W20 m c) main_v38 (X1 m c) main_v38 = X1 m c
  rw [Function.update_self]

theorem V20_eq (c : Dev nD) : Gen.V20 m (outs m) c = W20 m c := by
  show Function.update (Gen.V19 m c) main_v37 (outs m 20 main_v37 c) = Function.update (Gen.V19 m c) main_v37 (X0 m c)
  rw [outs_20]

theorem V21_eq (c : Dev nD) : Gen.V21 m (outs m) c = W21 m c := by
  show Function.update (Gen.V20 m (outs m) c) main_v38 (outs m 21 main_v38 c) = Function.update (W20 m c) main_v38 (X1 m c)
  rw [V20_eq, outs_21]

/-! ## The proof data family and the thread state -/

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => dat0 (E0 m) c
  | ⟨1, _⟩ => fun c => dat1 (E1 m) c

abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev Rr (c : Dev nD) : sProp 𝕄 := iprop((∃ r, prngReg c r) ∗ ∃ W, owes (c : Thread nD τ) (0 : CellTallies nD τ sig Unit) W)

/-- At region 0's exit each of its arrays holds what the pipeline leaves, and every other buffer what it held at entry. -/
theorem hF0 (c : Dev nD) (w : Fin cfg0.W) : (dat0 (E0 m) c).arrAt w cfg0.N = Gen.V20 m (outs m) c (Pipeline.arrRef spec0 w) := by
  match w with
  | ⟨0, _⟩ => exact ((dat0 (E0 m) c).arrAt_in _ rfl _).trans ((A_eq0 (E0 m) c _).trans (Gen.V20_of m (outs m) c main_v0 (by decide)).symm)
  | ⟨1, _⟩ => exact ((dat0 (E0 m) c).arrAt_in _ rfl _).trans ((A_eq0 (E0 m) c _).trans (Gen.V20_of m (outs m) c main_v12 (by decide)).symm)
  | ⟨2, _⟩ => exact ((dat0 (E0 m) c).arrAt_in _ rfl _).trans ((A_eq0 (E0 m) c _).trans (Gen.V20_of m (outs m) c main_v24 (by decide)).symm)
  | ⟨3, _⟩ =>
    rw [V20_eq]
    show X0 m c = Function.update (Gen.V19 m c) main_v37 (X0 m c) main_v37
    rw [Function.update_self]
theorem hrest0 (c : Dev nD) : ∀ b : Ref sig .tc, b ∉ Finset.univ.image (Pipeline.arrRef spec0) → Gen.V20 m (outs m) c b = Gen.V19 m c b := by
  intro b hb
  refine Gen.V20_of m (outs m) c b fun hmem => hb ?_
  rw [List.mem_singleton] at hmem
  subst hmem
  exact Finset.mem_image.mpr ⟨3, Finset.mem_univ _, rfl⟩
/-- The same for region 1. -/
theorem hF1 (c : Dev nD) (w : Fin cfg1.W) : (dat1 (E1 m) c).arrAt w cfg1.N = Gen.V21 m (outs m) c (Pipeline.arrRef spec1 w) := by
  match w with
  | ⟨0, _⟩ =>
    exact ((dat1 (E1 m) c).arrAt_in _ rfl _).trans ((A_eq1 (E1 m) c _).trans
      ((Gen.V21_of m (outs m) c main_v37 (by decide)).trans (congrFun (V20_eq m c) _)).symm)
  | ⟨1, _⟩ =>
    exact ((dat1 (E1 m) c).arrAt_in _ rfl _).trans ((A_eq1 (E1 m) c _).trans
      ((Gen.V21_of m (outs m) c main_v36 (by decide)).trans (congrFun (V20_eq m c) _)).symm)
  | ⟨2, _⟩ =>
    rw [V21_eq]
    show X1 m c = Function.update (W20 m c) main_v38 (X1 m c) main_v38
    rw [Function.update_self]
theorem hrest1 (c : Dev nD) : ∀ b : Ref sig .tc, b ∉ Finset.univ.image (Pipeline.arrRef spec1) → Gen.V21 m (outs m) c b = Gen.V20 m (outs m) c b := by
  intro b hb
  refine Gen.V21_of m (outs m) c b fun hmem => hb ?_
  rw [List.mem_singleton] at hmem
  subst hmem
  exact Finset.mem_image.mpr ⟨2, Finset.mem_univ _, rfl⟩
/-- Region 1's proof data takes its arrays from the valuation the generated thread state names. -/
theorem A1_eq (c : Dev nD) (w : Fin cfg1.W) : (pdats m 1 c).A w = Gen.V20 m (outs m) c (Pipeline.arrRef spec1 w) := by
  show (dat1 (E1 m) c).A w = _
  exact (A_eq1 (E1 m) c w).trans (congrFun (V20_eq m c) _).symm

/-! ## What both regions share -/

/-- A pipeline with no prefetched table holds nothing for its tables. -/
private theorem prefHeld_of_none (pre : Pipeline.Prefetch sig) (hK : pre.K = 0) (c : Dev nD) (q : Fin pre.K → PosShare TreeShare)
    (T : pre.Contents (Elt F)) :
    (Pipeline.prefHeld (Ix := Unit) (Name := ℕ) (U := UR sig nD τ) (Lvl := ℕ) pre c q T : sProp 𝕄) = BI.emp := by
  haveI : IsEmpty (Fin pre.K) := by rw [hK]; infer_instance
  unfold Pipeline.prefHeld
  rw [Finset.univ_eq_empty, BI.bigSep_empty]

/-- A core that owes nothing meets the proof data's tally at a point where the data owes nothing and bounds no pair. -/
private theorem owesAt_of_owes_zero {cfg : Cfg sig Λ₀} {c : Dev nD} (dat : Dat τ (Elt F) Unit ℕ (UR sig nD τ) ℕ cfg c)
    (t : Fin (cfg.N + 1)) (hO : dat.owed t = 0) (hrec : dat.recorded t = Set.univ) :
    (iprop(∃ W, owes (c : Thread nD τ) (0 : CellTallies nD τ sig Unit) W) : sProp 𝕄) ⊢ dat.owesAt () t := by
  show _ ⊢ iprop(∃ W, ⌜↑W ⊆ dat.bound () t⌝ ∗ owes (c : Thread nD τ) (dat.owed t) W)
  rw [hO]
  iintro ⟨%W, HO⟩
  iexists W
  isplitr
  · ipureintro
    intro x _
    exact Or.inl (hrec ▸ Set.mem_univ x)
  iexact HO

/-- And back, the bound forgotten. -/
private theorem owes_zero_of_owesAt {cfg : Cfg sig Λ₀} {c : Dev nD} (dat : Dat τ (Elt F) Unit ℕ (UR sig nD τ) ℕ cfg c)
    (t : Fin (cfg.N + 1)) (hO : dat.owed t = 0) :
    dat.owesAt () t ⊢ (iprop(∃ W, owes (c : Thread nD τ) (0 : CellTallies nD τ sig Unit) W) : sProp 𝕄) := by
  show iprop(∃ W, ⌜↑W ⊆ dat.bound () t⌝ ∗ owes (c : Thread nD τ) (dat.owed t) W) ⊢ _
  rw [hO]
  iintro ⟨%W, -, HO⟩
  iexists W
  iexact HO

/-! ## The regions as segments -/

set_option backward.isDefEq.respectTransparency.types false in
/-- REGION 0: entered from every unscoped buffer at the contents before it, left with its output array at what it wrote. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (Gen.V19 m c) ∗ Rr c)
  post c := iprop(StableHlo.held (c : Thread nD τ) (Pipeline.ucRefs τ sig) (Gen.V20 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    have hsplit := Pipeline.arrays_of_unscopedBufs (p := 0) (pcfgs (F := F)) Gen.adm (pdats m) launch0.win launch0.arr_whole c
      ((pdats m 0 c).share_full fun _ => rfl) (E0 m c) fun _ => rfl
    rw [Pipeline.unscopedBufs_held] at hsplit
    rw [prefHeld_of_none _ rfl]
    iintro ⟨⟨Hbufs, Hreg, Howes⟩, -⟩
    imodintro
    ihave Hs := hsplit $$ Hbufs
    icases Hs with ⟨Harr, Hrest⟩
    isplitl [Harr]; · iexact Harr
    isplitr; · iempintro
    isplitl [Howes]
    · iapply owesAt_of_owes_zero (pdats m 0 c) 0 rfl rfl
      iexact Howes
    isplitl [Hreg]; · iexact Hreg
    iexact Hrest
  hin c := by
    refine .trans ?_ (hin0 (E0 m) c)
    unfold Pipeline.ΦA
    iintro ⟨Hreg, -, Hsc⟩
    isplitl [Hsc]; · iexact Hsc
    iexact Hreg
  hout c := by
    rw [Pipeline.ownSems0_none]
    refine (hout0 (E0 m) c).trans ?_
    unfold Pipeline.ΦA
    iintro ⟨Hsc, Hreg⟩
    isplitl [Hreg]; · iexact Hreg
    isplitr; · iempintro
    iexact Hsc
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E0 m c) (fun b => Gen.V20 m (outs m) c b) ((pdats m 0 c).arrAt · cfg0.N) (hF0 m c) (hrest0 m c)
    rw [Pipeline.unscopedBufs_held] at hjoin
    iintro ⟨Harr, Howes, Hreg, Hrest⟩
    imodintro
    isplitl [Harr Hrest]
    · iapply hjoin
      isplitl [Harr]; · iexact Harr
      iexact Hrest
    isplitl [Hreg]; · iexact Hreg
    iapply owes_zero_of_owesAt (pdats m 0 c) _ rfl
    iexact Howes

set_option backward.isDefEq.respectTransparency.types false in
/-- REGION 1: entered from what region 0 left, left with its own output array at what it wrote. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (Gen.V20 m (outs m) c) ∗ Rr c)
  post c := iprop(StableHlo.held (c : Thread nD τ) (Pipeline.ucRefs τ sig) (Gen.V21 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    have hsplit := Pipeline.arrays_of_unscopedBufs (p := 1) (pcfgs (F := F)) Gen.adm (pdats m) launch1.win launch1.arr_whole c
      ((pdats m 1 c).share_full fun _ => rfl) (fun b => Gen.V20 m (outs m) c b) (A1_eq m c)
    rw [Pipeline.unscopedBufs_held] at hsplit
    have hE : E1 m c = fun b : Ref sig .tc => Gen.V20 m (outs m) c b := by rw [V20_eq]
    have hsplit' : (StableHlo.held (c : Thread nD τ) (Pipeline.ucRefs τ sig) (Gen.V20 m (outs m) c) : sProp 𝕄)
        ⊢ iprop(((pdats m 1 c).arrays fun w => (pdats m 1 c).arrAt w 0)
          ∗ Pipeline.unscopedRest (Ix := Unit) (Name := ℕ) (U := UR sig nD τ) (Lvl := ℕ) spec1 c (E1 m c)) := by
      rw [hE]; exact hsplit
    rw [prefHeld_of_none _ rfl]
    iintro ⟨⟨Hbufs, Hreg, Howes⟩, -⟩
    imodintro
    ihave Hs := hsplit' $$ Hbufs
    icases Hs with ⟨Harr, Hrest⟩
    isplitl [Harr]; · iexact Harr
    isplitr; · iempintro
    isplitl [Howes]
    · iapply owesAt_of_owes_zero (pdats m 1 c) 0 rfl rfl
      iexact Howes
    isplitl [Hreg]; · iexact Hreg
    iexact Hrest
  hin c := by
    refine .trans ?_ (hin1 (E1 m) c)
    unfold Pipeline.ΦA
    iintro ⟨Hreg, -, Hsc⟩
    isplitl [Hsc]; · iexact Hsc
    iexact Hreg
  hout c := by
    rw [Pipeline.ownSems0_none]
    refine (hout1 (E1 m) c).trans ?_
    unfold Pipeline.ΦA
    iintro ⟨Hsc, Hreg⟩
    isplitl [Hreg]; · iexact Hreg
    isplitr; · iempintro
    iexact Hsc
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E1 m c) (fun b => Gen.V21 m (outs m) c b) ((pdats m 1 c).arrAt · cfg1.N) (hF1 m c)
      (fun b hb => (hrest1 m c b hb).trans (congrFun (V20_eq m c) _))
    rw [Pipeline.unscopedBufs_held] at hjoin
    iintro ⟨Harr, Howes, Hreg, Hrest⟩
    imodintro
    isplitl [Harr Hrest]
    · iapply hjoin
      isplitl [Harr]; · iexact Harr
      iexact Hrest
    isplitl [Hreg]; · iexact Hreg
    iapply owes_zero_of_owesAt (pdats m 1 c) _ rfl
    iexact Howes

end Cert.Kernel.Hand

end
-- ==== Proof.K.Run.lean ====
/- The whole run of the kernel program: the launch over @main's segments with the two regions' records; every weakly fair
   execution terminates and every unscoped buffer ends at the last valuation — the four arguments as launched, @main's
   result the last host operation's reshape of what the second region left. -/
import proofs.«149337_j33191507264221_1_alg».proof.Proof.Gen.Kernel.Launch
import proofs.«149337_j33191507264221_1_alg».proof.Proof.Gen.Kernel.Skeleton
import proofs.«149337_j33191507264221_1_alg».proof.Proof.Gen.Kernel.Points
import proofs.«149337_j33191507264221_1_alg».proof.Proof.K.Regs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run -/

set_option backward.isDefEq.respectTransparency.types false in
/-- Every weakly fair execution of @main terminates, and every unscoped buffer ends at the last valuation. -/
theorem run_main : θ_run defs (onTc (τ := τ) (main (F := F))) ⟨m, fun _ => 0, ρ⟩ (fun r => ∀ c : Dev nD,
      ∀ b ∈ Pipeline.ucRefs τ sig, r.2.mem ((c : Thread nD τ).1, b) = Gen.V22 m (outs m) c b) :=
  Cert.Kernel.GenP.run_cond m (EP := emb₁) (ι := ()) (𝒱₀ := 𝒱₀) (L := L) (lv := lv) (hL := fun _ _ => rfl) (ρ := ρ)
    (outs := outs m) (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := by
      refine Pipeline.initEach L lv fun c => ?_
      iintro ⟨⟨-, HO, -, Hp, -⟩, -⟩
      imodintro
      isplitl [Hp]; · iexists _; iexact Hp
      iexists ∅; iexact HO)
    (hE2 := fun c => by
      iintro ⟨-, H⟩
      iexact H)
    (R0 := reg0 m) (hpre0 := fun c => .rfl) (hpost0 := fun c => .rfl)
    (R1 := reg1 m) (hpre1 := fun c => .rfl) (hpost1 := fun c => .rfl)

/-- An unscoped buffer of the TensorCore is among those the run names. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (Gen.V22_main_arg0 m (outs m) c),
     (h c _ (mem_uc main_arg1 (by decide))).trans (Gen.V22_main_arg1 m (outs m) c),
     (h c _ (mem_uc main_arg2 (by decide))).trans (Gen.V22_main_arg2 m (outs m) c),
     (h c _ (mem_uc main_arg3 (by decide))).trans (Gen.V22_main_arg3 m (outs m) c)⟩) (run_main m ρ)

/-- The run with @main's result named: the last host operation's reshape of what region 1 left. -/
theorem run_result : θ_run defs (onTc (τ := τ) (main (F := F))) ⟨m, fun _ => 0, ρ⟩ (fun r => ∀ c : Dev nD,
      r.2.mem ((c.tc : Thread nD τ).loc main_v39) = Gen.V22 m (outs m) c main_v39
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨h c _ (mem_uc main_v39 (by decide)),
     (h c _ (mem_uc main_arg0 (by decide))).trans (Gen.V22_main_arg0 m (outs m) c),
     (h c _ (mem_uc main_arg1 (by decide))).trans (Gen.V22_main_arg1 m (outs m) c),
     (h c _ (mem_uc main_arg2 (by decide))).trans (Gen.V22_main_arg2 m (outs m) c),
     (h c _ (mem_uc main_arg3 (by decide))).trans (Gen.V22_main_arg3 m (outs m) c)⟩) (run_main m ρ)

end Cert.Kernel.Hand

end
-- ==== Proof.RefStages.lean ====
/- The reference program's run with its result named by stages: the fold of @main's 154 host operations over the launch
   contents, read at the result buffer, is the last stage of the operation-by-operation reading — the quantized hidden array
   against the third quantized weight array — as a function of the four arguments; the arguments' buffers are not written. -/
import proofs.«149337_j33191507264221_1_alg».proof.Proof.RefRun
import proofs.«149337_j33191507264221_1_alg».proof.Proof.RefRead

set_option maxRecDepth 65536

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-! ## The operations, cut into nine consecutive stretches

Each stretch is the corresponding run of lines of the operation list, an operation of an inlined callee written with the plain
builder at the same references and the same function (the typed builder is the plain one up to the identity transport along
the reference's own type). -/

/-- Operations 1 to 24: x quantized row by row (absolute maximum of each row, the scale 127 over it kept above eps, scale, round, clamp to [-128, 127], scale back). -/
def opsC1 : List (HloOp τ sig (Elt F)) :=
  [ unary main_arg0 main_v0 (Host.absf : (⟨S4x2048x2048, .f32⟩ : BufTy).Contents (Elt F) → (⟨S4x2048x2048, .f32⟩ : BufTy).Contents (Elt F)),
    nullary main_cst (constant S_ .f32 0xFF800000#32),
    binary main_v0 main_cst main_v1 ((fun x v => Host.reduce FloatOps.maximumf x v reducesTo_S4x2048x2048_S4x2048_d2 h_S_) : (⟨S4x2048x2048, .f32⟩ : BufTy).Contents (Elt F) → (⟨S_, .f32⟩ : BufTy).Contents (Elt F) → (⟨S4x2048, .f32⟩ : BufTy).Contents (Elt F)),
    unary main_v1 main_v2 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_0 (constant S_ .f32 0x3727C5AC#32),
    unary main_cst_0 main_call0_v0 (id : (⟨S_, .f32⟩ : BufTy).Contents (Elt F) → (⟨S_, .f32⟩ : BufTy).Contents (Elt F)),
    unary main_call0_v0 main_call0_v1 ((broadcastInDim S4x2048x1 ![] bcast_S_S4x2048x1) : (⟨S_, .f32⟩ : BufTy).Contents (Elt F) → (⟨S4x2048x1, .f32⟩ : BufTy).Contents (Elt F)),
    binary main_call0_v1 main_v2 main_v3 (maximumf : (⟨S4x2048x1, .f32⟩ : BufTy).Contents (Elt F) → (⟨S4x2048x1, .f32⟩ : BufTy).Contents (Elt F) → (⟨S4x2048x1, .f32⟩ : BufTy).Contents (Elt F)),
    nullary main_cst_1 (constant S_ .f32 0x42FE0000#32),
    unary main_cst_1 main_v4 (broadcastInDim S4x2048x1 ![] bcast_S_S4x2048x1 : (⟨S_, .f32⟩ : BufTy).Contents (Elt F) → (⟨S4x2048x1, .f32⟩ : BufTy).Contents (Elt F)),
    binary main_v4 main_v3 main_v5 (Host.divf : (⟨S4x2048x1, .f32⟩ : BufTy).Contents (Elt F) → (⟨S4x2048x1, .f32⟩ : BufTy).Contents (Elt F) → (⟨S4x2048x1, .f32⟩ : BufTy).Contents (Elt F)),
    unary main_v5 main_v6 (broadcastInDim S4x2048x2048 ![0, 1, 2] bcast_S4x2048x1_S4x2048x2048_0_1_2 : (⟨S4x2048x1, .f32⟩ : BufTy).Contents (Elt F) → (⟨S4x2048x2048, .f32⟩ : BufTy).Contents (Elt F)),
    binary main_arg0 main_v6 main_v7 (mulf : (⟨S4x2048x2048, .f32⟩ : BufTy).Contents (Elt F) → (⟨S4x2048x2048, .f32⟩ : BufTy).Contents (Elt F) → (⟨S4x2048x2048, .f32⟩ : BufTy).Contents (Elt F)),
    unary main_v7 main_v8 (Host.roundeven : (⟨S4x2048x2048, .f32⟩ : BufTy).Contents (Elt F) → (⟨S4x2048x2048, .f32⟩ : BufTy).Contents (Elt F)),
    nullary main_cst_2 (constant S_ .f32 0xC3000000#32),
    nullary main_cst_3 (constant S_ .f32 0x42FE0000#32),
    unary main_cst_2 main_call2_v0 (id : (⟨S_, .f32⟩ : BufTy).Contents (Elt F) → (⟨S_, .f32⟩ : BufTy).Contents (Elt F)),
    unary main_call2_v0 main_call2_v1 ((broadcastInDim S4x2048x2048 ![] bcast_S_S4x2048x2048) : (⟨S_, .f32⟩ : BufTy).Contents (Elt F) → (⟨S4x2048x2048, .f32⟩ : BufTy).Contents (Elt F)),
    binary main_call2_v1 main_v8 main_call2_v2 (maximumf : (⟨S4x2048x2048, .f32⟩ : BufTy).Contents (Elt F) → (⟨S4x2048x2048, .f32⟩ : BufTy).Contents (Elt F) → (⟨S4x2048x2048, .f32⟩ : BufTy).Contents (Elt F)),
    unary main_cst_3 main_call2_v3 (id : (⟨S_, .f32⟩ : BufTy).Contents (Elt F) → (⟨S_, .f32⟩ : BufTy).Contents (Elt F)),
    unary main_call2_v3 main_call2_v4 ((broadcastInDim S4x2048x2048 ![] bcast_S_S4x2048x2048) : (⟨S_, .f32⟩ : BufTy).Contents (Elt F) → (⟨S4x2048x2048, .f32⟩ : BufTy).Contents (Elt F)),
    binary main_call2_v4 main_call2_v2 main_v9 (minimumf : (⟨S4x2048x2048, .f32⟩ : BufTy).Contents (Elt F) → (⟨S4x2048x2048, .f32⟩ : BufTy).Contents (Elt F) → (⟨S4x2048x2048, .f32⟩ : BufTy).Contents (Elt F)),
    unary main_v5 main_v10 (broadcastInDim S4x2048x2048 ![0, 1, 2] bcast_S4x2048x1_S4x2048x2048_0_1_2 : (⟨S4x2048x1, .f32⟩ : BufTy).Contents (Elt F) → (⟨S4x2048x2048, .f32⟩ : BufTy).Contents (Elt F)),
    binary main_v9 main_v10 main_v11 (Host.divf : (⟨S4x2048x2048, .f32⟩ : BufTy).Contents (Elt F) → (⟨S4x2048x2048, .f32⟩ : BufTy).Contents (Elt F) → (⟨S4x2048x2048, .f32⟩ : BufTy).Contents (Elt F)) ]

/-- Operations 25 to 47: the first weight array quantized (mean of absolute values kept above eps, its reciprocal the scale, scale, round, clamp to [-1, 1], scale back). -/
def opsC2 : List (HloOp τ sig (Elt F)) :=
  [ unary main_arg1 main_v12 (Host.absf : (⟨S5632x2048, .f32⟩ : BufTy).Contents (Elt F) → (⟨S5632x2048, .f32⟩ : BufTy).Contents (Elt F)),
    nullary main_cst_4 (constant S_ .f32 0x00000000#32),
    binary main_v12 main_cst_4 main_v13 ((fun x v => Host.reduceAdd x v reducesTo_S5632x2048_S_d0_1 h_S_) : (⟨S5632x2048, .f32⟩ : BufTy).Contents (Elt F) → (⟨S_, .f32⟩ : BufTy).Contents (Elt F) → (⟨S_, .f32⟩ : BufTy).Contents (Elt F)),
    nullary main_cst_5 (constant S_ .f32 0x4B300000#32),
    binary main_v13 main_cst_5 main_v14 (Host.divf : (⟨S_, .f32⟩ : BufTy).Contents (Elt F) → (⟨S_, .f32⟩ : BufTy).Contents (Elt F) → (⟨S_, .f32⟩ : BufTy).Contents (Elt F)),
    nullary main_cst_6 (constant S_ .f32 0x3727C5AC#32),
    unary main_cst_6 main_call3_v0 (id : (⟨S_, .f32⟩ : BufTy).Contents (Elt F) → (⟨S_, .f32⟩ : BufTy).Contents (Elt F)),
    binary main_call3_v0 main_v14 main_v15 (maximumf : (⟨S_, .f32⟩ : BufTy).Contents (Elt F) → (⟨S_, .f32⟩ : BufTy).Contents (Elt F) → (⟨S_, .f32⟩ : BufTy).Contents (Elt F)),
    nullary main_cst_7 (constant S_ .f32 0x3F800000#32),
    binary main_cst_7 main_v15 main_v16 (Host.divf : (⟨S_, .f32⟩ : BufTy).Contents (Elt F) → (⟨S_, .f32⟩ : BufTy).Contents (Elt F) → (⟨S_, .f32⟩ : BufTy).Contents (Elt F)),
    unary main_v16 main_v17 (broadcastInDim S5632x2048 ![] bcast_S_S5632x2048 : (⟨S_, .f32⟩ : BufTy).Contents (Elt F) → (⟨S5632x2048, .f32⟩ : BufTy).Contents (Elt F)),
    binary main_arg1 main_v17 main_v18 (mulf : (⟨S5632x2048, .f32⟩ : BufTy).Contents (Elt F) → (⟨S5632x2048, .f32⟩ : BufTy).Contents (Elt F) → (⟨S5632x2048, .f32⟩ : BufTy).Contents (Elt F)),
    unary main_v18 main_v19 (Host.roundeven : (⟨S5632x2048, .f32⟩ : BufTy).Contents (Elt F) → (⟨S5632x2048, .f32⟩ : BufTy).Contents (Elt F)),
    nullary main_cst_8 (constant S_ .f32 0xBF800000#32),
    nullary main_cst_9 (constant S_ .f32 0x3F800000#32),
    unary main_cst_8 main_call5_v0 (id : (⟨S_, .f32⟩ : BufTy).Contents (Elt F) → (⟨S_, .f32⟩ : BufTy).Contents (Elt F)),
    unary main_call5_v0 main_call5_v1 ((broadcastInDim S5632x2048 ![] bcast_S_S5632x2048) : (⟨S_, .f32⟩ : BufTy).Contents (Elt F) → (⟨S5632x2048, .f32⟩ : BufTy).Contents (Elt F)),
    binary main_call5_v1 main_v19 main_call5_v2 (maximumf : (⟨S5632x2048, .f32⟩ : BufTy).Contents (Elt F) → (⟨S5632x2048, .f32⟩ : BufTy).Contents (Elt F) → (⟨S5632x2048, .f32⟩ : BufTy).Contents (Elt F)),
    unary main_cst_9 main_call5_v3 (id : (⟨S_, .f32⟩ : BufTy).Contents (Elt F) → (⟨S_, .f32⟩ : BufTy).Contents (Elt F)),
    unary main_call5_v3 main_call5_v4 ((broadcastInDim S5632x2048 ![] bcast_S_S5632x2048) : (⟨S_, .f32⟩ : BufTy).Contents (Elt F) → (⟨S5632x2048, .f32⟩ : BufTy).Contents (Elt F)),
    binary main_call5_v4 main_call5_v2 main_v20 (minimumf : (⟨S5632x2048, .f32⟩ : BufTy).Contents (Elt F) → (⟨S5632x2048, .f32⟩ : BufTy).Contents (Elt F) → (⟨S5632x2048, .f32⟩ : BufTy).Contents (Elt F)),
    unary main_v16 main_v21 (broadcastInDim S5632x2048 ![] bcast_S_S5632x2048 : (⟨S_, .f32⟩ : BufTy).Contents (Elt F) → (⟨S5632x2048, .f32⟩ : BufTy).Contents (Elt F)),
    binary main_v20 main_v21 main_v22 (Host.divf : (⟨S5632x2048, .f32⟩ : BufTy).Contents (Elt F) → (⟨S5632x2048, .f32⟩ : BufTy).Contents (Elt F) → (⟨S5632x2048, .f32⟩ : BufTy).Contents (Elt F)) ]

/-- Operations 48 to 57: the first product of quantized arrays and its SiLU. -/
def opsC3 : List (HloOp τ sig (Elt F)) :=
  [ binary main_v11 main_v22 main_v23 ((fun l r => Host.dotGeneral dot_S4x2048x2048_S5632x2048_S4x2048x5632_2_1_01_0_n_n none l r) : (⟨S4x2048x2048, .f32⟩ : BufTy).Contents (Elt F) → (⟨S5632x2048, .f32⟩ : BufTy).Contents (Elt F) → (⟨S4x2048x5632, .f32⟩ : BufTy).Contents (Elt F)),
    unary main_v23 main_call6_v0 (Host.negf : (⟨S4x2048x5632, .f32⟩ : BufTy).Contents (Elt F) → (⟨S4x2048x5632, .f32⟩ : BufTy).Contents (Elt F)),
    unary main_call6_v0 main_call6_v1 (Host.exp : (⟨S4x2048x5632, .f32⟩ : BufTy).Contents (Elt F) → (⟨S4x2048x5632, .f32⟩ : BufTy).Contents (Elt F)),
    nullary main_call6_cst ((constant S_ .f32 0x3F800000#32) : (⟨S_, .f32⟩ : BufTy).Contents (Elt F)),
    unary main_call6_cst main_call6_v2 ((broadcastInDim S4x2048x5632 ![] bcast_S_S4x2048x5632) : (⟨S_, .f32⟩ : BufTy).Contents (Elt F) → (⟨S4x2048x5632, .f32⟩ : BufTy).Contents (Elt F)),
    binary main_call6_v2 main_call6_v1 main_call6_v3 (addf : (⟨S4x2048x5632, .f32⟩ : BufTy).Contents (Elt F) → (⟨S4x2048x5632, .f32⟩ : BufTy).Contents (Elt F) → (⟨S4x2048x5632, .f32⟩ : BufTy).Contents (Elt F)),
    nullary main_call6_cst_0 ((constant S_ .f32 0x3F800000#32) : (⟨S_, .f32⟩ : BufTy).Contents (Elt F)),
    unary main_call6_cst_0 main_call6_v4 ((broadcastInDim S4x2048x5632 ![] bcast_S_S4x2048x5632) : (⟨S_, .f32⟩ : BufTy).Contents (Elt F) → (⟨S4x2048x5632, .f32⟩ : BufTy).Contents (Elt F)),
    binary main_call6_v4 main_call6_v3 main_call6_v5 (Host.divf : (⟨S4x2048x5632, .f32⟩ : BufTy).Contents (Elt F) → (⟨S4x2048x5632, .f32⟩ : BufTy).Contents (Elt F) → (⟨S4x2048x5632, .f32⟩ : BufTy).Contents (Elt F)),
    binary main_v23 main_call6_v5 main_v24 (mulf : (⟨S4x2048x5632, .f32⟩ : BufTy).Contents (Elt F) → (⟨S4x2048x5632, .f32⟩ : BufTy).Contents (Elt F) → (⟨S4x2048x5632, .f32⟩ : BufTy).Contents (Elt F)) ]

/-- Operations 58 to 81: x quantized row by row once more. -/
def opsC4 : List (HloOp τ sig (Elt F)) :=
  [ unary main_arg0 main_v25 (Host.absf : (⟨S4x2048x2048, .f32⟩ : BufTy).Contents (Elt F) → (⟨S4x2048x2048, .f32⟩ : BufTy).Contents (Elt F)),
    nullary main_cst_10 (constant S_ .f32 0xFF800000#32),
    binary main_v25 main_cst_10 main_v26 ((fun x v => Host.reduce FloatOps.maximumf x v reducesTo_S4x2048x2048_S4x2048_d2 h_S_) : (⟨S4x2048x2048, .f32⟩ : BufTy).Contents (Elt F) → (⟨S_, .f32⟩ : BufTy).Contents (Elt F) → (⟨S4x2048, .f32⟩ : BufTy).Contents (Elt F)),
    unary main_v26 main_v27 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_11 (constant S_ .f32 0x3727C5AC#32),
    unary main_cst_11 main_call7_v0 (id : (⟨S_, .f32⟩ : BufTy).Contents (Elt F) → (⟨S_, .f32⟩ : BufTy).Contents (Elt F)),
    unary main_call7_v0 main_call7_v1 ((broadcastInDim S4x2048x1 ![] bcast_S_S4x2048x1) : (⟨S_, .f32⟩ : BufTy).Contents (Elt F) → (⟨S4x2048x1, .f32⟩ : BufTy).Contents (Elt F)),
    binary main_call7_v1 main_v27 main_v28 (maximumf : (⟨S4x2048x1, .f32⟩ : BufTy).Contents (Elt F) → (⟨S4x2048x1, .f32⟩ : BufTy).Contents (Elt F) → (⟨S4x2048x1, .f32⟩ : BufTy).Contents (Elt F)),
    nullary main_cst_12 (constant S_ .f32 0x42FE0000#32),
    unary main_cst_12 main_v29 (broadcastInDim S4x2048x1 ![] bcast_S_S4x2048x1 : (⟨S_, .f32⟩ : BufTy).Contents (Elt F) → (⟨S4x2048x1, .f32⟩ : BufTy).Contents (Elt F)),
    binary main_v29 main_v28 main_v30 (Host.divf : (⟨S4x2048x1, .f32⟩ : BufTy).Contents (Elt F) → (⟨S4x2048x1, .f32⟩ : BufTy).Contents (Elt F) → (⟨S4x2048x1, .f32⟩ : BufTy).Contents (Elt F)),
    unary main_v30 main_v31 (broadcastInDim S4x2048x2048 ![0, 1, 2] bcast_S4x2048x1_S4x2048x2048_0_1_2 : (⟨S4x2048x1, .f32⟩ : BufTy).Contents (Elt F) → (⟨S4x2048x2048, .f32⟩ : BufTy).Contents (Elt F)),
    binary main_arg0 main_v31 main_v32 (mulf : (⟨S4x2048x2048, .f32⟩ : BufTy).Contents (Elt F) → (⟨S4x2048x2048, .f32⟩ : BufTy).Contents (Elt F) → (⟨S4x2048x2048, .f32⟩ : BufTy).Contents (Elt F)),
    unary main_v32 main_v33 (Host.roundeven : (⟨S4x2048x2048, .f32⟩ : BufTy).Contents (Elt F) → (⟨S4x2048x2048, .f32⟩ : BufTy).Contents (Elt F)),
    nullary main_cst_13 (constant S_ .f32 0xC3000000#32),
    nullary main_cst_14 (constant S_ .f32 0x42FE0000#32),
    unary main_cst_13 main_call9_v0 (id : (⟨S_, .f32⟩ : BufTy).Contents (Elt F) → (⟨S_, .f32⟩ : BufTy).Contents (Elt F)),
    unary main_call9_v0 main_call9_v1 ((broadcastInDim S4x2048x2048 ![] bcast_S_S4x2048x2048) : (⟨S_, .f32⟩ : BufTy).Contents (Elt F) → (⟨S4x2048x2048, .f32⟩ : BufTy).Contents (Elt F)),
    binary main_call9_v1 main_v33 main_call9_v2 (maximumf : (⟨S4x2048x2048, .f32⟩ : BufTy).Contents (Elt F) → (⟨S4x2048x2048, .f32⟩ : BufTy).Contents (Elt F) → (⟨S4x2048x2048, .f32⟩ : BufTy).Contents (Elt F)),
    unary main_cst_14 main_call9_v3 (id : (⟨S_, .f32⟩ : BufTy).Contents (Elt F) → (⟨S_, .f32⟩ : BufTy).Contents (Elt F)),
    unary main_call9_v3 main_call9_v4 ((broadcastInDim S4x2048x2048 ![] bcast_S_S4x2048x2048) : (⟨S_, .f32⟩ : BufTy).Contents (Elt F) → (⟨S4x2048x2048, .f32⟩ : BufTy).Contents (Elt F)),
    binary main_call9_v4 main_call9_v2 main_v34 (minimumf : (⟨S4x2048x2048, .f32⟩ : BufTy).Contents (Elt F) → (⟨S4x2048x2048, .f32⟩ : BufTy).Contents (Elt F) → (⟨S4x2048x2048, .f32⟩ : BufTy).Contents (Elt F)),
    unary main_v30 main_v35 (broadcastInDim S4x2048x2048 ![0, 1, 2] bcast_S4x2048x1_S4x2048x2048_0_1_2 : (⟨S4x2048x1, .f32⟩ : BufTy).Contents (Elt F) → (⟨S4x2048x2048, .f32⟩ : BufTy).Contents (Elt F)),
    binary main_v34 main_v35 main_v36 (Host.divf : (⟨S4x2048x2048, .f32⟩ : BufTy).Contents (Elt F) → (⟨S4x2048x2048, .f32⟩ : BufTy).Contents (Elt F) → (⟨S4x2048x2048, .f32⟩ : BufTy).Contents (Elt F)) ]

/-- Operations 82 to 104: the third argument's weight array quantized. -/
def opsC5 : List (HloOp τ sig (Elt F)) :=
  [ unary main_arg3 main_v37 (Host.absf : (⟨S5632x2048, .f32⟩ : BufTy).Contents (Elt F) → (⟨S5632x2048, .f32⟩ : BufTy).Contents (Elt F)),
    nullary main_cst_15 (constant S_ .f32 0x00000000#32),
    binary main_v37 main_cst_15 main_v38 ((fun x v => Host.reduceAdd x v reducesTo_S5632x2048_S_d0_1 h_S_) : (⟨S5632x2048, .f32⟩ : BufTy).Contents (Elt F) → (⟨S_, .f32⟩ : BufTy).Contents (Elt F) → (⟨S_, .f32⟩ : BufTy).Contents (Elt F)),
    nullary main_cst_16 (constant S_ .f32 0x4B300000#32),
    binary main_v38 main_cst_16 main_v39 (Host.divf : (⟨S_, .f32⟩ : BufTy).Contents (Elt F) → (⟨S_, .f32⟩ : BufTy).Contents (Elt F) → (⟨S_, .f32⟩ : BufTy).Contents (Elt F)),
    nullary main_cst_17 (constant S_ .f32 0x3727C5AC#32),
    unary main_cst_17 main_call10_v0 (id : (⟨S_, .f32⟩ : BufTy).Contents (Elt F) → (⟨S_, .f32⟩ : BufTy).Contents (Elt F)),
    binary main_call10_v0 main_v39 main_v40 (maximumf : (⟨S_, .f32⟩ : BufTy).Contents (Elt F) → (⟨S_, .f32⟩ : BufTy).Contents (Elt F) → (⟨S_, .f32⟩ : BufTy).Contents (Elt F)),
    nullary main_cst_18 (constant S_ .f32 0x3F800000#32),
    binary main_cst_18 main_v40 main_v41 (Host.divf : (⟨S_, .f32⟩ : BufTy).Contents (Elt F) → (⟨S_, .f32⟩ : BufTy).Contents (Elt F) → (⟨S_, .f32⟩ : BufTy).Contents (Elt F)),
    unary main_v41 main_v42 (broadcastInDim S5632x2048 ![] bcast_S_S5632x2048 : (⟨S_, .f32⟩ : BufTy).Contents (Elt F) → (⟨S5632x2048, .f32⟩ : BufTy).Contents (Elt F)),
    binary main_arg3 main_v42 main_v43 (mulf : (⟨S5632x2048, .f32⟩ : BufTy).Contents (Elt F) → (⟨S5632x2048, .f32⟩ : BufTy).Contents (Elt F) → (⟨S5632x2048, .f32⟩ : BufTy).Contents (Elt F)),
    unary main_v43 main_v44 (Host.roundeven : (⟨S5632x2048, .f32⟩ : BufTy).Contents (Elt F) → (⟨S5632x2048, .f32⟩ : BufTy).Contents (Elt F)),
    nullary main_cst_19 (constant S_ .f32 0xBF800000#32),
    nullary main_cst_20 (constant S_ .f32 0x3F800000#32),
    unary main_cst_19 main_call12_v0 (id : (⟨S_, .f32⟩ : BufTy).Contents (Elt F) → (⟨S_, .f32⟩ : BufTy).Contents (Elt F)),
    unary main_call12_v0 main_call12_v1 ((broadcastInDim S5632x2048 ![] bcast_S_S5632x2048) : (⟨S_, .f32⟩ : BufTy).Contents (Elt F) → (⟨S5632x2048, .f32⟩ : BufTy).Contents (Elt F)),
    binary main_call12_v1 main_v44 main_call12_v2 (maximumf : (⟨S5632x2048, .f32⟩ : BufTy).Contents (Elt F) → (⟨S5632x2048, .f32⟩ : BufTy).Contents (Elt F) → (⟨S5632x2048, .f32⟩ : BufTy).Contents (Elt F)),
    unary main_cst_20 main_call12_v3 (id : (⟨S_, .f32⟩ : BufTy).Contents (Elt F) → (⟨S_, .f32⟩ : BufTy).Contents (Elt F)),
    unary main_call12_v3 main_call12_v4 ((broadcastInDim S5632x2048 ![] bcast_S_S5632x2048) : (⟨S_, .f32⟩ : BufTy).Contents (Elt F) → (⟨S5632x2048, .f32⟩ : BufTy).Contents (Elt F)),
    binary main_call12_v4 main_call12_v2 main_v45 (minimumf : (⟨S5632x2048, .f32⟩ : BufTy).Contents (Elt F) → (⟨S5632x2048, .f32⟩ : BufTy).Contents (Elt F) → (⟨S5632x2048, .f32⟩ : BufTy).Contents (Elt F)),
    unary main_v41 main_v46 (broadcastInDim S5632x2048 ![] bcast_S_S5632x2048 : (⟨S_, .f32⟩ : BufTy).Contents (Elt F) → (⟨S5632x2048, .f32⟩ : BufTy).Contents (Elt F)),
    binary main_v45 main_v46 main_v47 (Host.divf : (⟨S5632x2048, .f32⟩ : BufTy).Contents (Elt F) → (⟨S5632x2048, .f32⟩ : BufTy).Contents (Elt F) → (⟨S5632x2048, .f32⟩ : BufTy).Contents (Elt F)) ]

/-- Operations 105 and 106: the second product of quantized arrays, times the SiLU of the first: the hidden array. -/
def opsC6 : List (HloOp τ sig (Elt F)) :=
  [ binary main_v36 main_v47 main_v48 ((fun l r => Host.dotGeneral dot_S4x2048x2048_S5632x2048_S4x2048x5632_2_1_01_0_n_n none l r) : (⟨S4x2048x2048, .f32⟩ : BufTy).Contents (Elt F) → (⟨S5632x2048, .f32⟩ : BufTy).Contents (Elt F) → (⟨S4x2048x5632, .f32⟩ : BufTy).Contents (Elt F)),
    binary main_v24 main_v48 main_v49 (mulf : (⟨S4x2048x5632, .f32⟩ : BufTy).Contents (Elt F) → (⟨S4x2048x5632, .f32⟩ : BufTy).Contents (Elt F) → (⟨S4x2048x5632, .f32⟩ : BufTy).Contents (Elt F)) ]

/-- Operations 107 to 130: the hidden array quantized row by row. -/
def opsC7 : List (HloOp τ sig (Elt F)) :=
  [ unary main_v49 main_v50 (Host.absf : (⟨S4x2048x5632, .f32⟩ : BufTy).Contents (Elt F) → (⟨S4x2048x5632, .f32⟩ : BufTy).Contents (Elt F)),
    nullary main_cst_21 (constant S_ .f32 0xFF800000#32),
    binary main_v50 main_cst_21 main_v51 ((fun x v => Host.reduce FloatOps.maximumf x v reducesTo_S4x2048x5632_S4x2048_d2 h_S_) : (⟨S4x2048x5632, .f32⟩ : BufTy).Contents (Elt F) → (⟨S_, .f32⟩ : BufTy).Contents (Elt F) → (⟨S4x2048, .f32⟩ : BufTy).Contents (Elt F)),
    unary main_v51 main_v52 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_22 (constant S_ .f32 0x3727C5AC#32),
    unary main_cst_22 main_call13_v0 (id : (⟨S_, .f32⟩ : BufTy).Contents (Elt F) → (⟨S_, .f32⟩ : BufTy).Contents (Elt F)),
    unary main_call13_v0 main_call13_v1 ((broadcastInDim S4x2048x1 ![] bcast_S_S4x2048x1) : (⟨S_, .f32⟩ : BufTy).Contents (Elt F) → (⟨S4x2048x1, .f32⟩ : BufTy).Contents (Elt F)),
    binary main_call13_v1 main_v52 main_v53 (maximumf : (⟨S4x2048x1, .f32⟩ : BufTy).Contents (Elt F) → (⟨S4x2048x1, .f32⟩ : BufTy).Contents (Elt F) → (⟨S4x2048x1, .f32⟩ : BufTy).Contents (Elt F)),
    nullary main_cst_23 (constant S_ .f32 0x42FE0000#32),
    unary main_cst_23 main_v54 (broadcastInDim S4x2048x1 ![] bcast_S_S4x2048x1 : (⟨S_, .f32⟩ : BufTy).Contents (Elt F) → (⟨S4x2048x1, .f32⟩ : BufTy).Contents (Elt F)),
    binary main_v54 main_v53 main_v55 (Host.divf : (⟨S4x2048x1, .f32⟩ : BufTy).Contents (Elt F) → (⟨S4x2048x1, .f32⟩ : BufTy).Contents (Elt F) → (⟨S4x2048x1, .f32⟩ : BufTy).Contents (Elt F)),
    unary main_v55 main_v56 (broadcastInDim S4x2048x5632 ![0, 1, 2] bcast_S4x2048x1_S4x2048x5632_0_1_2 : (⟨S4x2048x1, .f32⟩ : BufTy).Contents (Elt F) → (⟨S4x2048x5632, .f32⟩ : BufTy).Contents (Elt F)),
    binary main_v49 main_v56 main_v57 (mulf : (⟨S4x2048x5632, .f32⟩ : BufTy).Contents (Elt F) → (⟨S4x2048x5632, .f32⟩ : BufTy).Contents (Elt F) → (⟨S4x2048x5632, .f32⟩ : BufTy).Contents (Elt F)),
    unary main_v57 main_v58 (Host.roundeven : (⟨S4x2048x5632, .f32⟩ : BufTy).Contents (Elt F) → (⟨S4x2048x5632, .f32⟩ : BufTy).Contents (Elt F)),
    nullary main_cst_24 (constant S_ .f32 0xC3000000#32),
    nullary main_cst_25 (constant S_ .f32 0x42FE0000#32),
    unary main_cst_24 main_call15_v0 (id : (⟨S_, .f32⟩ : BufTy).Contents (Elt F) → (⟨S_, .f32⟩ : BufTy).Contents (Elt F)),
    unary main_call15_v0 main_call15_v1 ((broadcastInDim S4x2048x5632 ![] bcast_S_S4x2048x5632) : (⟨S_, .f32⟩ : BufTy).Contents (Elt F) → (⟨S4x2048x5632, .f32⟩ : BufTy).Contents (Elt F)),
    binary main_call15_v1 main_v58 main_call15_v2 (maximumf : (⟨S4x2048x5632, .f32⟩ : BufTy).Contents (Elt F) → (⟨S4x2048x5632, .f32⟩ : BufTy).Contents (Elt F) → (⟨S4x2048x5632, .f32⟩ : BufTy).Contents (Elt F)),
    unary main_cst_25 main_call15_v3 (id : (⟨S_, .f32⟩ : BufTy).Contents (Elt F) → (⟨S_, .f32⟩ : BufTy).Contents (Elt F)),
    unary main_call15_v3 main_call15_v4 ((broadcastInDim S4x2048x5632 ![] bcast_S_S4x2048x5632) : (⟨S_, .f32⟩ : BufTy).Contents (Elt F) → (⟨S4x2048x5632, .f32⟩ : BufTy).Contents (Elt F)),
    binary main_call15_v4 main_call15_v2 main_v59 (minimumf : (⟨S4x2048x5632, .f32⟩ : BufTy).Contents (Elt F) → (⟨S4x2048x5632, .f32⟩ : BufTy).Contents (Elt F) → (⟨S4x2048x5632, .f32⟩ : BufTy).Contents (Elt F)),
    unary main_v55 main_v60 (broadcastInDim S4x2048x5632 ![0, 1, 2] bcast_S4x2048x1_S4x2048x5632_0_1_2 : (⟨S4x2048x1, .f32⟩ : BufTy).Contents (Elt F) → (⟨S4x2048x5632, .f32⟩ : BufTy).Contents (Elt F)),
    binary main_v59 main_v60 main_v61 (Host.divf : (⟨S4x2048x5632, .f32⟩ : BufTy).Contents (Elt F) → (⟨S4x2048x5632, .f32⟩ : BufTy).Contents (Elt F) → (⟨S4x2048x5632, .f32⟩ : BufTy).Contents (Elt F)) ]

/-- Operations 131 to 153: the remaining weight array quantized. -/
def opsC8 : List (HloOp τ sig (Elt F)) :=
  [ unary main_arg2 main_v62 (Host.absf : (⟨S2048x5632, .f32⟩ : BufTy).Contents (Elt F) → (⟨S2048x5632, .f32⟩ : BufTy).Contents (Elt F)),
    nullary main_cst_26 (constant S_ .f32 0x00000000#32),
    binary main_v62 main_cst_26 main_v63 ((fun x v => Host.reduceAdd x v reducesTo_S2048x5632_S_d0_1 h_S_) : (⟨S2048x5632, .f32⟩ : BufTy).Contents (Elt F) → (⟨S_, .f32⟩ : BufTy).Contents (Elt F) → (⟨S_, .f32⟩ : BufTy).Contents (Elt F)),
    nullary main_cst_27 (constant S_ .f32 0x4B300000#32),
    binary main_v63 main_cst_27 main_v64 (Host.divf : (⟨S_, .f32⟩ : BufTy).Contents (Elt F) → (⟨S_, .f32⟩ : BufTy).Contents (Elt F) → (⟨S_, .f32⟩ : BufTy).Contents (Elt F)),
    nullary main_cst_28 (constant S_ .f32 0x3727C5AC#32),
    unary main_cst_28 main_call16_v0 (id : (⟨S_, .f32⟩ : BufTy).Contents (Elt F) → (⟨S_, .f32⟩ : BufTy).Contents (Elt F)),
    binary main_call16_v0 main_v64 main_v65 (maximumf : (⟨S_, .f32⟩ : BufTy).Contents (Elt F) → (⟨S_, .f32⟩ : BufTy).Contents (Elt F) → (⟨S_, .f32⟩ : BufTy).Contents (Elt F)),
    nullary main_cst_29 (constant S_ .f32 0x3F800000#32),
    binary main_cst_29 main_v65 main_v66 (Host.divf : (⟨S_, .f32⟩ : BufTy).Contents (Elt F) → (⟨S_, .f32⟩ : BufTy).Contents (Elt F) → (⟨S_, .f32⟩ : BufTy).Contents (Elt F)),
    unary main_v66 main_v67 (broadcastInDim S2048x5632 ![] bcast_S_S2048x5632 : (⟨S_, .f32⟩ : BufTy).Contents (Elt F) → (⟨S2048x5632, .f32⟩ : BufTy).Contents (Elt F)),
    binary main_arg2 main_v67 main_v68 (mulf : (⟨S2048x5632, .f32⟩ : BufTy).Contents (Elt F) → (⟨S2048x5632, .f32⟩ : BufTy).Contents (Elt F) → (⟨S2048x5632, .f32⟩ : BufTy).Contents (Elt F)),
    unary main_v68 main_v69 (Host.roundeven : (⟨S2048x5632, .f32⟩ : BufTy).Contents (Elt F) → (⟨S2048x5632, .f32⟩ : BufTy).Contents (Elt F)),
    nullary main_cst_30 (constant S_ .f32 0xBF800000#32),
    nullary main_cst_31 (constant S_ .f32 0x3F800000#32),
    unary main_cst_30 main_call18_v0 (id : (⟨S_, .f32⟩ : BufTy).Contents (Elt F) → (⟨S_, .f32⟩ : BufTy).Contents (Elt F)),
    unary main_call18_v0 main_call18_v1 ((broadcastInDim S2048x5632 ![] bcast_S_S2048x5632) : (⟨S_, .f32⟩ : BufTy).Contents (Elt F) → (⟨S2048x5632, .f32⟩ : BufTy).Contents (Elt F)),
    binary main_call18_v1 main_v69 main_call18_v2 (maximumf : (⟨S2048x5632, .f32⟩ : BufTy).Contents (Elt F) → (⟨S2048x5632, .f32⟩ : BufTy).Contents (Elt F) → (⟨S2048x5632, .f32⟩ : BufTy).Contents (Elt F)),
    unary main_cst_31 main_call18_v3 (id : (⟨S_, .f32⟩ : BufTy).Contents (Elt F) → (⟨S_, .f32⟩ : BufTy).Contents (Elt F)),
    unary main_call18_v3 main_call18_v4 ((broadcastInDim S2048x5632 ![] bcast_S_S2048x5632) : (⟨S_, .f32⟩ : BufTy).Contents (Elt F) → (⟨S2048x5632, .f32⟩ : BufTy).Contents (Elt F)),
    binary main_call18_v4 main_call18_v2 main_v70 (minimumf : (⟨S2048x5632, .f32⟩ : BufTy).Contents (Elt F) → (⟨S2048x5632, .f32⟩ : BufTy).Contents (Elt F) → (⟨S2048x5632, .f32⟩ : BufTy).Contents (Elt F)),
    unary main_v66 main_v71 (broadcastInDim S2048x5632 ![] bcast_S_S2048x5632 : (⟨S_, .f32⟩ : BufTy).Contents (Elt F) → (⟨S2048x5632, .f32⟩ : BufTy).Contents (Elt F)),
    binary main_v70 main_v71 main_v72 (Host.divf : (⟨S2048x5632, .f32⟩ : BufTy).Contents (Elt F) → (⟨S2048x5632, .f32⟩ : BufTy).Contents (Elt F) → (⟨S2048x5632, .f32⟩ : BufTy).Contents (Elt F)) ]

/-- Operation 154: the product of the quantized hidden array with the last quantized weight array: the result. -/
def opsC9 : List (HloOp τ sig (Elt F)) :=
  [ binary main_v61 main_v72 main_v73 ((fun l r => Host.dotGeneral dot_S4x2048x5632_S2048x5632_S4x2048x2048_2_1_01_0_n_n none l r) : (⟨S4x2048x5632, .f32⟩ : BufTy).Contents (Elt F) → (⟨S2048x5632, .f32⟩ : BufTy).Contents (Elt F) → (⟨S4x2048x2048, .f32⟩ : BufTy).Contents (Elt F)) ]

set_option maxHeartbeats 8000000 in
/-- The operation list is the nine stretches in a row. -/
theorem ops_cut : Cert.ReferenceIdeal.ValueP.ops (F := F) = opsC1 ++ opsC2 ++ opsC3 ++ opsC4 ++ opsC5 ++ opsC6 ++ opsC7 ++ opsC8 ++ opsC9 := rfl

/-! ## Each stretch, from any contents -/

/-- The four argument buffers of a valuation hold the named contents. -/
def ArgsAt (U : Valuation τ sig (Elt F)) (x0 : (⟨S4x2048x2048, .f32⟩ : BufTy).Contents (Elt F)) (x1 : (⟨S5632x2048, .f32⟩ : BufTy).Contents (Elt F))
    (x2 : (⟨S2048x5632, .f32⟩ : BufTy).Contents (Elt F)) (x3 : (⟨S5632x2048, .f32⟩ : BufTy).Contents (Elt F)) : Prop :=
  U (Proc.devRef .tc main_arg0) = x0 ∧ U (Proc.devRef .tc main_arg1) = x1 ∧ U (Proc.devRef .tc main_arg2) = x2 ∧ U (Proc.devRef .tc main_arg3) = x3

section Steps

variable (U : Valuation τ sig (Elt F)) (x0 : (⟨S4x2048x2048, .f32⟩ : BufTy).Contents (Elt F)) (x1 : (⟨S5632x2048, .f32⟩ : BufTy).Contents (Elt F)) (x2 : (⟨S2048x5632, .f32⟩ : BufTy).Contents (Elt F)) (x3 : (⟨S5632x2048, .f32⟩ : BufTy).Contents (Elt F))

set_option maxHeartbeats 2000000 in
theorem step1 (h : ArgsAt U x0 x1 x2 x3) :
    ArgsAt (after opsC1 U) x0 x1 x2 x3
      ∧ after opsC1 U (Proc.devRef .tc main_v11) = ReadP.val_main_v11 (F := F) x0 := by
  obtain ⟨rfl, rfl, rfl, rfl⟩ := h
  unfold opsC1
  refine ⟨⟨?_, ?_, ?_, ?_⟩, ?_⟩
  · after_results
  · after_results
  · after_results
  · after_results
  · after_results
    rfl

set_option maxHeartbeats 2000000 in
theorem step2 (h : ArgsAt U x0 x1 x2 x3) (h11 : U (Proc.devRef .tc main_v11) = ReadP.val_main_v11 (F := F) x0) :
    ArgsAt (after opsC2 U) x0 x1 x2 x3
      ∧ after opsC2 U (Proc.devRef .tc main_v11) = ReadP.val_main_v11 (F := F) x0
      ∧ after opsC2 U (Proc.devRef .tc main_v22) = ReadP.val_main_v22 (F := F) x1 := by
  obtain ⟨rfl, rfl, rfl, rfl⟩ := h
  unfold opsC2
  refine ⟨⟨?_, ?_, ?_, ?_⟩, ?_, ?_⟩
  · after_results
  · after_results
  · after_results
  · after_results
  · refine Eq.trans ?_ h11
    after_results
  · after_results
    rfl

set_option maxHeartbeats 2000000 in
theorem step3 (h : ArgsAt U x0 x1 x2 x3) (h11 : U (Proc.devRef .tc main_v11) = ReadP.val_main_v11 (F := F) x0) (h22 : U (Proc.devRef .tc main_v22) = ReadP.val_main_v22 (F := F) x1) :
    ArgsAt (after opsC3 U) x0 x1 x2 x3
      ∧ after opsC3 U (Proc.devRef .tc main_v24) = ReadP.val_main_v24 (F := F) x0 x1 := by
  obtain ⟨rfl, rfl, rfl, rfl⟩ := h
  unfold opsC3
  refine ⟨⟨?_, ?_, ?_, ?_⟩, ?_⟩
  · after_results
  · after_results
  · after_results
  · after_results
  · after_results
    rw [h11, h22]
    rfl

set_option maxHeartbeats 2000000 in
theorem step4 (h : ArgsAt U x0 x1 x2 x3) (h24 : U (Proc.devRef .tc main_v24) = ReadP.val_main_v24 (F := F) x0 x1) :
    ArgsAt (after opsC4 U) x0 x1 x2 x3
      ∧ after opsC4 U (Proc.devRef .tc main_v24) = ReadP.val_main_v24 (F := F) x0 x1
      ∧ after opsC4 U (Proc.devRef .tc main_v36) = ReadP.val_main_v36 (F := F) x0 := by
  obtain ⟨rfl, rfl, rfl, rfl⟩ := h
  unfold opsC4
  refine ⟨⟨?_, ?_, ?_, ?_⟩, ?_, ?_⟩
  · after_results
  · after_results
  · after_results
  · after_results
  · refine Eq.trans ?_ h24
    after_results
  · after_results
    rfl

set_option maxHeartbeats 2000000 in
theorem step5 (h : ArgsAt U x0 x1 x2 x3) (h24 : U (Proc.devRef .tc main_v24) = ReadP.val_main_v24 (F := F) x0 x1) (h36 : U (Proc.devRef .tc main_v36) = ReadP.val_main_v36 (F := F) x0) :
    ArgsAt (after opsC5 U) x0 x1 x2 x3
      ∧ after opsC5 U (Proc.devRef .tc main_v24) = ReadP.val_main_v24 (F := F) x0 x1
      ∧ after opsC5 U (Proc.devRef .tc main_v36) = ReadP.val_main_v36 (F := F) x0
      ∧ after opsC5 U (Proc.devRef .tc main_v47) = ReadP.val_main_v47 (F := F) x3 := by
  obtain ⟨rfl, rfl, rfl, rfl⟩ := h
  unfold opsC5
  refine ⟨⟨?_, ?_, ?_, ?_⟩, ?_, ?_, ?_⟩
  · after_results
  · after_results
  · after_results
  · after_results
  · refine Eq.trans ?_ h24
    after_results
  · refine Eq.trans ?_ h36
    after_results
  · after_results
    rfl

set_option maxHeartbeats 2000000 in
theorem step6 (h : ArgsAt U x0 x1 x2 x3) (h24 : U (Proc.devRef .tc main_v24) = ReadP.val_main_v24 (F := F) x0 x1) (h36 : U (Proc.devRef .tc main_v36) = ReadP.val_main_v36 (F := F) x0) (h47 : U (Proc.devRef .tc main_v47) = ReadP.val_main_v47 (F := F) x3) :
    ArgsAt (after opsC6 U) x0 x1 x2 x3
      ∧ after opsC6 U (Proc.devRef .tc main_v49) = ReadP.val_main_v49 (F := F) x0 x1 x3 := by
  obtain ⟨rfl, rfl, rfl, rfl⟩ := h
  unfold opsC6
  refine ⟨⟨?_, ?_, ?_, ?_⟩, ?_⟩
  · after_results
  · after_results
  · after_results
  · after_results
  · after_results
    rw [h24, h36, h47]
    rfl

set_option maxHeartbeats 2000000 in
theorem step7 (h : ArgsAt U x0 x1 x2 x3) (h49 : U (Proc.devRef .tc main_v49) = ReadP.val_main_v49 (F := F) x0 x1 x3) :
    ArgsAt (after opsC7 U) x0 x1 x2 x3
      ∧ after opsC7 U (Proc.devRef .tc main_v61) = ReadP.val_main_v61 (F := F) x0 x1 x3 := by
  obtain ⟨rfl, rfl, rfl, rfl⟩ := h
  unfold opsC7
  refine ⟨⟨?_, ?_, ?_, ?_⟩, ?_⟩
  · after_results
  · after_results
  · after_results
  · after_results
  · after_results
    rw [h49]
    rfl

set_option maxHeartbeats 2000000 in
theorem step8 (h : ArgsAt U x0 x1 x2 x3) (h61 : U (Proc.devRef .tc main_v61) = ReadP.val_main_v61 (F := F) x0 x1 x3) :
    ArgsAt (after opsC8 U) x0 x1 x2 x3
      ∧ after opsC8 U (Proc.devRef .tc main_v61) = ReadP.val_main_v61 (F := F) x0 x1 x3
      ∧ after opsC8 U (Proc.devRef .tc main_v72) = ReadP.val_main_v72 (F := F) x2 := by
  obtain ⟨rfl, rfl, rfl, rfl⟩ := h
  unfold opsC8
  refine ⟨⟨?_, ?_, ?_, ?_⟩, ?_, ?_⟩
  · after_results
  · after_results
  · after_results
  · after_results
  · refine Eq.trans ?_ h61
    after_results
  · after_results
    rfl

set_option maxHeartbeats 2000000 in
theorem step9 (h : ArgsAt U x0 x1 x2 x3) (h61 : U (Proc.devRef .tc main_v61) = ReadP.val_main_v61 (F := F) x0 x1 x3) (h72 : U (Proc.devRef .tc main_v72) = ReadP.val_main_v72 (F := F) x2) :
    ArgsAt (after opsC9 U) x0 x1 x2 x3
      ∧ after opsC9 U (Proc.devRef .tc main_v73) = ReadP.val_main_v73 (F := F) x0 x1 x2 x3 := by
  obtain ⟨rfl, rfl, rfl, rfl⟩ := h
  unfold opsC9
  refine ⟨⟨?_, ?_, ?_, ?_⟩, ?_⟩
  · after_results
  · after_results
  · after_results
  · after_results
  · after_results
    rw [h61, h72]
    rfl

/-- All the operations, from any contents whose argument buffers hold x0 … x3: the arguments stay, the result buffer ends at the last stage. -/
theorem after_all (h : ArgsAt U x0 x1 x2 x3) :
    ArgsAt (after (Cert.ReferenceIdeal.ValueP.ops (F := F)) U) x0 x1 x2 x3
      ∧ after (Cert.ReferenceIdeal.ValueP.ops (F := F)) U (Proc.devRef .tc main_v73) = ReadP.val_main_v73 (F := F) x0 x1 x2 x3 := by
  rw [ops_cut]
  simp only [after_append]
  obtain ⟨a1, e11⟩ := step1 U x0 x1 x2 x3 h
  obtain ⟨a2, e11, e22⟩ := step2 _ x0 x1 x2 x3 a1 e11
  obtain ⟨a3, e24⟩ := step3 _ x0 x1 x2 x3 a2 e11 e22
  obtain ⟨a4, e24, e36⟩ := step4 _ x0 x1 x2 x3 a3 e24
  obtain ⟨a5, e24, e36, e47⟩ := step5 _ x0 x1 x2 x3 a4 e24 e36
  obtain ⟨a6, e49⟩ := step6 _ x0 x1 x2 x3 a5 e24 e36 e47
  obtain ⟨a7, e61⟩ := step7 _ x0 x1 x2 x3 a6 e49
  obtain ⟨a8, e61, e72⟩ := step8 _ x0 x1 x2 x3 a7 e61
  exact step9 _ x0 x1 x2 x3 a8 e61 e72

end Steps

/-- The launch contents hold the arguments at their launch values. -/
theorem argsAt_launch (m : (ℓ : Loc nD τ sig) → Buf (Elt F) ℓ) (d : Dev nD) :
    ArgsAt (launchContents m d) (m ((d.tc : Thread nD τ).loc main_arg0)) (m ((d.tc : Thread nD τ).loc main_arg1))
      (m ((d.tc : Thread nD τ).loc main_arg2)) (m ((d.tc : Thread nD τ).loc main_arg3)) := ⟨rfl, rfl, rfl, rfl⟩

/-- The result buffer after all the operations is the last stage, of the arguments' launch contents. -/
theorem after_result (m : (ℓ : Loc nD τ sig) → Buf (Elt F) ℓ) (d : Dev nD) :
    after (Cert.ReferenceIdeal.ValueP.ops (F := F)) (launchContents m d) (Proc.devRef .tc main_v73)
      = Cert.ReferenceIdeal.ReadP.val_main_v73 (F := F) (m ((d.tc : Thread nD τ).loc main_arg0)) (m ((d.tc : Thread nD τ).loc main_arg1))
          (m ((d.tc : Thread nD τ).loc main_arg2)) (m ((d.tc : Thread nD τ).loc main_arg3)) :=
  (after_all (launchContents m d) _ _ _ _ (argsAt_launch m d)).2

/-- No operation writes an argument's buffer. -/
theorem after_arg0 (m : (ℓ : Loc nD τ sig) → Buf (Elt F) ℓ) (d : Dev nD) :
    after (Cert.ReferenceIdeal.ValueP.ops (F := F)) (launchContents m d) (Proc.devRef .tc main_arg0) = m ((d.tc : Thread nD τ).loc main_arg0) :=
  (after_all (launchContents m d) _ _ _ _ (argsAt_launch m d)).1.1
theorem after_arg1 (m : (ℓ : Loc nD τ sig) → Buf (Elt F) ℓ) (d : Dev nD) :
    after (Cert.ReferenceIdeal.ValueP.ops (F := F)) (launchContents m d) (Proc.devRef .tc main_arg1) = m ((d.tc : Thread nD τ).loc main_arg1) :=
  (after_all (launchContents m d) _ _ _ _ (argsAt_launch m d)).1.2.1
theorem after_arg2 (m : (ℓ : Loc nD τ sig) → Buf (Elt F) ℓ) (d : Dev nD) :
    after (Cert.ReferenceIdeal.ValueP.ops (F := F)) (launchContents m d) (Proc.devRef .tc main_arg2) = m ((d.tc : Thread nD τ).loc main_arg2) :=
  (after_all (launchContents m d) _ _ _ _ (argsAt_launch m d)).1.2.2.1
theorem after_arg3 (m : (ℓ : Loc nD τ sig) → Buf (Elt F) ℓ) (d : Dev nD) :
    after (Cert.ReferenceIdeal.ValueP.ops (F := F)) (launchContents m d) (Proc.devRef .tc main_arg3) = m ((d.tc : Thread nD τ).loc main_arg3) :=
  (after_all (launchContents m d) _ _ _ _ (argsAt_launch m d)).1.2.2.2

/-- Every weakly fair execution of the reference terminates with its result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v73) = Cert.ReferenceIdeal.ReadP.val_main_v73 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v73).trans (after_result m c), (h c main_arg0).trans (after_arg0 m c),
      (h c main_arg1).trans (after_arg1 m c), (h c main_arg2).trans (after_arg2 m c), (h c main_arg3).trans (after_arg3 m c)⟩)
    (Cert.ReferenceIdeal.ValueP.run_after m ρ)

end Cert.ReferenceIdeal.Stages

end
-- ==== Proof.RefValue.lean ====
/- The reference's last stage read at an index, at the ideal values: at (b, s, e) it is the spec's whole function of x and of
   the three quantized weight arrays (the stages the reference computes from each weight argument). Each dot_general is a sum over
   the contracted axis, each row maximum a fold of max over the row, the two quantizations of x the same row quantization,
   the reference's spelling a * (1 / (1 + exp (-a))) of the gate's first factor a times the library's logistic of a.
   The quantization is first read over an abstract row, then at the program's arrays. -/
import proofs.«149337_j33191507264221_1_alg».proof.Proof.RefRead
import proofs.«149337_j33191507264221_1_alg».proof.Proof.Spec3
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

open scoped BigOperators

noncomputable section

namespace Cert.ReferenceIdeal.RefValue

open Cert.ReferenceIdeal Cert.ReferenceIdeal.Gen Cert.ReferenceIdeal.ReadP Cert.Spec
open Idealize.ShloMosaic Idealize.ShloMosaic.ValueIdx

/-- The reduced index (b, s) with coordinate k put back on the last axis is (b, s, k). -/
theorem lift_last {n : ℕ} (h : (⟨3, ![4, 2048, n]⟩ : Shape).Reduces [2] S4x2048) (b : Fin 4) (s : Fin 2048) (k : Fin n) :
    h.lift (ix2 b s) k = ix3 b s k := by
  funext c
  apply Fin.ext
  match c with
  | ⟨0, _⟩ => rfl
  | ⟨1, _⟩ => rfl
  | ⟨2, _⟩ => rfl

/-- The maximum over the last axis, from the initial array's element, read at (b, s): the fold of max over the row. -/
theorem rowmax {n : ℕ} (y : (⟨3, ![4, 2048, n]⟩ : Shape).Idx → EReal) (init : S_.Idx → EReal)
    (h' : (⟨3, ![4, 2048, n]⟩ : Shape).ReducesTo [2] S4x2048) (h : (⟨3, ![4, 2048, n]⟩ : Shape).Reduces [2] S4x2048)
    (b : Fin 4) (s : Fin 2048) :
    Host.reduce (FloatOps.maximumf (F := Ideal) (φ := .f32)) y init h' h_S_ (ix2 b s)
      = (Finset.univ : Finset (Fin n)).fold max (init (Shape.Idx.first h_S_)) (fun k => y (ix3 b s k)) := by
  rw [Host.reduce_eq_fold_single (FloatOps.maximumf (F := Ideal) (φ := .f32)) y init h' h h_S_]
  have hf : (y ∘ h.lift (ix2 b s)) = fun k : Fin n => y (ix3 b s k) := funext fun k => congrArg y (lift_last h b s k)
  exact congrArg (fun f => Finset.fold max (init (Shape.Idx.first h_S_)) f (Finset.univ : Finset (Fin n))) hf

theorem red_2048 : S4x2048x2048.Reduces [2] S4x2048 := by decide
theorem red_5632 : S4x2048x5632.Reduces [2] S4x2048 := by decide

/-! ## The quantization as the programs spell it, over an abstract row -/

/-- The row maximum of the absolute values of an abstract array, from −∞: the spec's amax of the row. -/
theorem rowmax_abs {n : ℕ} (g : (⟨3, ![4, 2048, n]⟩ : Shape).Idx → EReal) (init : S_.Idx → EReal)
    (hinit : init (Shape.Idx.first h_S_) = Ideal.ofBits .f32 0xFF800000#32)
    (h' : (⟨3, ![4, 2048, n]⟩ : Shape).ReducesTo [2] S4x2048) (h : (⟨3, ![4, 2048, n]⟩ : Shape).Reduces [2] S4x2048)
    (b : Fin 4) (s : Fin 2048) :
    Host.reduce (FloatOps.maximumf (F := Ideal) (φ := .f32)) (Host.absf (F := Ideal) (φ := .f32) g) init h' h_S_ (ix2 b s)
      = amax (fun k' => g (ix3 b s k')) := by
  rw [rowmax _ init h' h b s, hinit]
  rfl

/-- 127 over the row maximum kept at least eps, as spelled, is the spec's scale. -/
theorem qscale_of {n : ℕ} (v : Fin n → EReal) :
    FloatOps.hostDivf (F := Ideal) (φ := .f32) (FloatOps.ofBits .f32 0x42FE0000#32)
        (FloatOps.maximumf (FloatOps.ofBits .f32 0x3727C5AC#32) (amax v))
      = qscale v := rfl

/-- Scaled, rounded half to even, clamped, scaled back, as spelled, is the spec's quantized row. -/
theorem qrow_of {n : ℕ} (v : Fin n → EReal) (k : Fin n) (a : EReal) (ha : a = v k) :
    FloatOps.hostDivf (F := Ideal) (φ := .f32)
        (FloatOps.minimumf (FloatOps.ofBits .f32 0x42FE0000#32) (FloatOps.maximumf (FloatOps.ofBits .f32 0xC3000000#32)
          (FloatOps.hostUnary .roundeven (FloatOps.mulf a (qscale v))))) (qscale v)
      = qrow v k := by
  subst ha
  rfl

/-! ## The first quantization of x (stages 0 to 11) -/

theorem amax_v1 (x : (⟨S4x2048x2048, .f32⟩ : BufTy).Contents (Elt Ideal)) (b : Fin 4) (s : Fin 2048) :
    val_main_v1 (F := Ideal) x (ix2 b s) = amax (fun d' => x (ix3 b s d')) := by
  unfold val_main_v1 val_main_v0
  exact rowmax_abs x (val_main_cst (F := Ideal)) rfl reducesTo_S4x2048x2048_S4x2048_d2 red_2048 b s

theorem scale_v5 (x : (⟨S4x2048x2048, .f32⟩ : BufTy).Contents (Elt Ideal)) (b : Fin 4) (s : Fin 2048) (u : Fin 1) :
    val_main_v5 (F := Ideal) x (ix3 b s u) = qscale (fun d' => x (ix3 b s d')) := by
  rw [val_main_v5_apply, val_main_v4_apply, val_main_cst_1_apply, val_main_v3_apply, val_main_call0_v1_apply, val_main_call0_v0_apply, val_main_cst_0_apply, val_main_v2_apply]
  have e : idx_main_v2 (ix3 b s u) = ix2 b s := funext fun a => Fin.ext (by
    match a with
    | ⟨0, _⟩ => rfl
    | ⟨1, _⟩ => rfl)
  rw [e, amax_v1]
  exact qscale_of (fun d' : Fin 2048 => x (ix3 b s d'))

theorem row_v11 (x : (⟨S4x2048x2048, .f32⟩ : BufTy).Contents (Elt Ideal)) (b : Fin 4) (s : Fin 2048) (d : Fin 2048) :
    val_main_v11 (F := Ideal) x (ix3 b s d) = qrow (fun d' => x (ix3 b s d')) d := by
  rw [val_main_v11_apply, val_main_v9_apply, val_main_call2_v4_apply, val_main_call2_v3_apply, val_main_cst_3_apply, val_main_call2_v2_apply, val_main_call2_v1_apply, val_main_call2_v0_apply, val_main_cst_2_apply, val_main_v8_apply, val_main_v7_apply, val_main_v6_apply, val_main_v10_apply]
  have e1 : idx_main_v6 (ix3 b s d) = ix3 b s (0 : Fin 1) := funext fun a => Fin.ext (by
    match a with
    | ⟨0, _⟩ => rfl
    | ⟨1, _⟩ => rfl
    | ⟨2, _⟩ => rfl)
  have e2 : idx_main_v10 (ix3 b s d) = ix3 b s (0 : Fin 1) := funext fun a => Fin.ext (by
    match a with
    | ⟨0, _⟩ => rfl
    | ⟨1, _⟩ => rfl
    | ⟨2, _⟩ => rfl)
  rw [e1, e2, scale_v5]
  exact qrow_of (fun d' : Fin 2048 => x (ix3 b s d')) d _ rfl

/-! ## The second quantization of x (stages 25 to 36): the same row quantization -/

theorem amax_v26 (x : (⟨S4x2048x2048, .f32⟩ : BufTy).Contents (Elt Ideal)) (b : Fin 4) (s : Fin 2048) :
    val_main_v26 (F := Ideal) x (ix2 b s) = amax (fun d' => x (ix3 b s d')) := by
  unfold val_main_v26 val_main_v25
  exact rowmax_abs x (val_main_cst_10 (F := Ideal)) rfl reducesTo_S4x2048x2048_S4x2048_d2 red_2048 b s

theorem scale_v30 (x : (⟨S4x2048x2048, .f32⟩ : BufTy).Contents (Elt Ideal)) (b : Fin 4) (s : Fin 2048) (u : Fin 1) :
    val_main_v30 (F := Ideal) x (ix3 b s u) = qscale (fun d' => x (ix3 b s d')) := by
  rw [val_main_v30_apply, val_main_v29_apply, val_main_cst_12_apply, val_main_v28_apply, val_main_call7_v1_apply, val_main_call7_v0_apply, val_main_cst_11_apply, val_main_v27_apply]
  have e : idx_main_v27 (ix3 b s u) = ix2 b s := funext fun a => Fin.ext (by
    match a with
    | ⟨0, _⟩ => rfl
    | ⟨1, _⟩ => rfl)
  rw [e, amax_v26]
  exact qscale_of (fun d' : Fin 2048 => x (ix3 b s d'))

theorem row_v36 (x : (⟨S4x2048x2048, .f32⟩ : BufTy).Contents (Elt Ideal)) (b : Fin 4) (s : Fin 2048) (d : Fin 2048) :
    val_main_v36 (F := Ideal) x (ix3 b s d) = qrow (fun d' => x (ix3 b s d')) d := by
  rw [val_main_v36_apply, val_main_v34_apply, val_main_call9_v4_apply, val_main_call9_v3_apply, val_main_cst_14_apply, val_main_call9_v2_apply, val_main_call9_v1_apply, val_main_call9_v0_apply, val_main_cst_13_apply, val_main_v33_apply, val_main_v32_apply, val_main_v31_apply, val_main_v35_apply]
  have e1 : idx_main_v31 (ix3 b s d) = ix3 b s (0 : Fin 1) := funext fun a => Fin.ext (by
    match a with
    | ⟨0, _⟩ => rfl
    | ⟨1, _⟩ => rfl
    | ⟨2, _⟩ => rfl)
  have e2 : idx_main_v35 (ix3 b s d) = ix3 b s (0 : Fin 1) := funext fun a => Fin.ext (by
    match a with
    | ⟨0, _⟩ => rfl
    | ⟨1, _⟩ => rfl
    | ⟨2, _⟩ => rfl)
  rw [e1, e2, scale_v30]
  exact qrow_of (fun d' : Fin 2048 => x (ix3 b s d')) d _ rfl

/-! ## The hidden array (stages 23, 24, 48, 49) -/

/-- Row 2048 b + s of the flat rows. -/
abbrev rowOf (b : Fin 4) (s : Fin 2048) : Fin 8192 :=
  ⟨b.val * 2048 + s.val, by have := b.isLt; have := s.isLt; omega⟩

theorem flat_row (x : (⟨S4x2048x2048, .f32⟩ : BufTy).Contents (Elt Ideal)) (b : Fin 4) (s : Fin 2048) :
    (fun d' : Fin 2048 => flat x (ix2 (rowOf b s) d')) = fun d' => x (ix3 b s d') :=
  funext fun d' => flat_ix2 x b s d'

theorem dot_v23 (x : (⟨S4x2048x2048, .f32⟩ : BufTy).Contents (Elt Ideal)) (w1 : (⟨S5632x2048, .f32⟩ : BufTy).Contents (Elt Ideal))
    (b : Fin 4) (s : Fin 2048) (h : Fin 5632) :
    val_main_v23 (F := Ideal) x w1 (ix3 b s h)
      = ∑ d : Fin 2048, qrow (fun d' => x (ix3 b s d')) d * val_main_v22 (F := Ideal) w1 (ix2 h d) := by
  rw [val_main_v23_apply]
  refine Finset.sum_congr rfl fun k _ => ?_
  have el : lidx_main_v23 (ix3 b s h) k = ix3 b s k := funext fun a => Fin.ext (by
    match a with
    | ⟨0, _⟩ => rfl
    | ⟨1, _⟩ => rfl
    | ⟨2, _⟩ => rfl)
  have er : ridx_main_v23 (ix3 b s h) k = ix2 h k := funext fun a => Fin.ext (by
    match a with
    | ⟨0, _⟩ => rfl
    | ⟨1, _⟩ => rfl)
  rw [el, er, row_v11]

theorem dot_v48 (x : (⟨S4x2048x2048, .f32⟩ : BufTy).Contents (Elt Ideal)) (w3 : (⟨S5632x2048, .f32⟩ : BufTy).Contents (Elt Ideal))
    (b : Fin 4) (s : Fin 2048) (h : Fin 5632) :
    val_main_v48 (F := Ideal) x w3 (ix3 b s h)
      = ∑ d : Fin 2048, qrow (fun d' => x (ix3 b s d')) d * val_main_v47 (F := Ideal) w3 (ix2 h d) := by
  rw [val_main_v48_apply]
  refine Finset.sum_congr rfl fun k _ => ?_
  have el : lidx_main_v48 (ix3 b s h) k = ix3 b s k := funext fun a => Fin.ext (by
    match a with
    | ⟨0, _⟩ => rfl
    | ⟨1, _⟩ => rfl
    | ⟨2, _⟩ => rfl)
  have er : ridx_main_v48 (ix3 b s h) k = ix2 h k := funext fun a => Fin.ext (by
    match a with
    | ⟨0, _⟩ => rfl
    | ⟨1, _⟩ => rfl)
  rw [el, er, row_v36]

/-- The reference's spelling a * (1 / (1 + exp (-a))) is a times the logistic of a. -/
theorem silu_v24 (x : (⟨S4x2048x2048, .f32⟩ : BufTy).Contents (Elt Ideal)) (w1 : (⟨S5632x2048, .f32⟩ : BufTy).Contents (Elt Ideal)) (i : S4x2048x5632.Idx) :
    val_main_v24 (F := Ideal) x w1 i
      = val_main_v23 (F := Ideal) x w1 i * Ideal.logistic (val_main_v23 (F := Ideal) x w1 i) := by
  rw [val_main_v24_apply, val_main_call6_v5_apply, val_main_call6_v4_apply, val_main_call6_cst_0_apply,
    val_main_call6_v3_apply, val_main_call6_v2_apply, val_main_call6_cst_apply, val_main_call6_v1_apply,
    val_main_call6_v0_apply]
  generalize val_main_v23 (F := Ideal) x w1 i = a
  show a * Ideal.div (Ideal.ofBits .f32 0x3F800000#32) (Ideal.ofBits .f32 0x3F800000#32 + Ideal.exp (-a)) = a * Ideal.logistic a
  rw [Ideal.ofBits_one_f32]
  rfl

theorem hid_v49 (x : (⟨S4x2048x2048, .f32⟩ : BufTy).Contents (Elt Ideal)) (w1 w3 : (⟨S5632x2048, .f32⟩ : BufTy).Contents (Elt Ideal)) (b : Fin 4) (s : Fin 2048) (h : Fin 5632) :
    val_main_v49 (F := Ideal) x w1 w3 (ix3 b s h)
      = hid (flat x) (val_main_v22 (F := Ideal) w1) (val_main_v47 (F := Ideal) w3) (rowOf b s) h := by
  have h1 : val_main_v49 (F := Ideal) x w1 w3 (ix3 b s h)
      = gate (∑ d : Fin 2048, qrow (fun d' => x (ix3 b s d')) d * val_main_v22 (F := Ideal) w1 (ix2 h d))
          (∑ d : Fin 2048, qrow (fun d' => x (ix3 b s d')) d * val_main_v47 (F := Ideal) w3 (ix2 h d)) := by
    rw [val_main_v49_apply, silu_v24, dot_v23, dot_v48]
    rfl
  generalize val_main_v22 (F := Ideal) w1 = q1 at h1 ⊢
  generalize val_main_v47 (F := Ideal) w3 = q3 at h1 ⊢
  exact h1.trans (congrArg (fun v : Fin 2048 → EReal =>
    gate (∑ d : Fin 2048, qrow v d * q1 (ix2 h d)) (∑ d : Fin 2048, qrow v d * q3 (ix2 h d))) (flat_row x b s).symm)

/-! ## The quantization of the hidden array (stages 50 to 61), over its last axis -/

theorem amax_v51 (x : (⟨S4x2048x2048, .f32⟩ : BufTy).Contents (Elt Ideal)) (w1 w3 : (⟨S5632x2048, .f32⟩ : BufTy).Contents (Elt Ideal)) (b : Fin 4) (s : Fin 2048) :
    val_main_v51 (F := Ideal) x w1 w3 (ix2 b s) = amax (fun k' => val_main_v49 (F := Ideal) x w1 w3 (ix3 b s k')) := by
  unfold val_main_v51 val_main_v50
  exact rowmax_abs (val_main_v49 (F := Ideal) x w1 w3) (val_main_cst_21 (F := Ideal)) rfl
    reducesTo_S4x2048x5632_S4x2048_d2 red_5632 b s

theorem scale_v55 (x : (⟨S4x2048x2048, .f32⟩ : BufTy).Contents (Elt Ideal)) (w1 w3 : (⟨S5632x2048, .f32⟩ : BufTy).Contents (Elt Ideal)) (b : Fin 4) (s : Fin 2048) (u : Fin 1) :
    val_main_v55 (F := Ideal) x w1 w3 (ix3 b s u) = qscale (fun k' => val_main_v49 (F := Ideal) x w1 w3 (ix3 b s k')) := by
  rw [val_main_v55_apply, val_main_v54_apply, val_main_cst_23_apply, val_main_v53_apply, val_main_call13_v1_apply,
    val_main_call13_v0_apply, val_main_cst_22_apply, val_main_v52_apply]
  have e : idx_main_v52 (ix3 b s u) = ix2 b s := funext fun a => Fin.ext (by
    match a with
    | ⟨0, _⟩ => rfl
    | ⟨1, _⟩ => rfl)
  rw [e, amax_v51]
  exact qscale_of (fun k' : Fin 5632 => val_main_v49 (F := Ideal) x w1 w3 (ix3 b s k'))

theorem row_v61 (x : (⟨S4x2048x2048, .f32⟩ : BufTy).Contents (Elt Ideal)) (w1 w3 : (⟨S5632x2048, .f32⟩ : BufTy).Contents (Elt Ideal)) (b : Fin 4) (s : Fin 2048) (k : Fin 5632) :
    val_main_v61 (F := Ideal) x w1 w3 (ix3 b s k) = qrow (fun k' => val_main_v49 (F := Ideal) x w1 w3 (ix3 b s k')) k := by
  rw [val_main_v61_apply, val_main_v59_apply, val_main_call15_v4_apply, val_main_call15_v3_apply, val_main_cst_25_apply,
    val_main_call15_v2_apply, val_main_call15_v1_apply, val_main_call15_v0_apply, val_main_cst_24_apply,
    val_main_v58_apply, val_main_v57_apply, val_main_v56_apply, val_main_v60_apply]
  have e56 : idx_main_v56 (ix3 b s k) = ix3 b s (0 : Fin 1) := funext fun a => Fin.ext (by
    match a with
    | ⟨0, _⟩ => rfl
    | ⟨1, _⟩ => rfl
    | ⟨2, _⟩ => rfl)
  have e60 : idx_main_v60 (ix3 b s k) = ix3 b s (0 : Fin 1) := funext fun a => Fin.ext (by
    match a with
    | ⟨0, _⟩ => rfl
    | ⟨1, _⟩ => rfl
    | ⟨2, _⟩ => rfl)
  rw [e56, e60, scale_v55]
  exact qrow_of (fun k' : Fin 5632 => val_main_v49 (F := Ideal) x w1 w3 (ix3 b s k')) k _ rfl

theorem hidden_row (x : (⟨S4x2048x2048, .f32⟩ : BufTy).Contents (Elt Ideal)) (w1 w3 : (⟨S5632x2048, .f32⟩ : BufTy).Contents (Elt Ideal)) (b : Fin 4) (s : Fin 2048) :
    (fun k' : Fin 5632 => val_main_v49 (F := Ideal) x w1 w3 (ix3 b s k'))
      = fun k' => G0 (flat x) (val_main_v22 (F := Ideal) w1) (val_main_v47 (F := Ideal) w3) (ix2 (rowOf b s) k') :=
  funext fun k' => (hid_v49 x w1 w3 b s k').trans (G0_ix2 _ _ _ _ _).symm

/-! ## The last dot product (stage 73) -/

/-- The quantized hidden array's row, in the spec's terms. -/
theorem row_v61_spec (x : (⟨S4x2048x2048, .f32⟩ : BufTy).Contents (Elt Ideal)) (w1 w3 : (⟨S5632x2048, .f32⟩ : BufTy).Contents (Elt Ideal)) (b : Fin 4) (s : Fin 2048) (k : Fin 5632) :
    val_main_v61 (F := Ideal) x w1 w3 (ix3 b s k)
      = qrow (fun k' => G0 (flat x) (val_main_v22 (F := Ideal) w1) (val_main_v47 (F := Ideal) w3) (ix2 (rowOf b s) k')) k :=
  (row_v61 x w1 w3 b s k).trans (congrArg (fun v : Fin 5632 → EReal => qrow v k) (hidden_row x w1 w3 b s))

theorem out_v73 (x : (⟨S4x2048x2048, .f32⟩ : BufTy).Contents (Elt Ideal)) (w1 : (⟨S5632x2048, .f32⟩ : BufTy).Contents (Elt Ideal))
    (w2 : (⟨S2048x5632, .f32⟩ : BufTy).Contents (Elt Ideal)) (w3 : (⟨S5632x2048, .f32⟩ : BufTy).Contents (Elt Ideal))
    (b : Fin 4) (s : Fin 2048) (e : Fin 2048) :
    val_main_v73 (F := Ideal) x w1 w2 w3 (ix3 b s e)
      = outv (G0 (flat x) (val_main_v22 (F := Ideal) w1) (val_main_v47 (F := Ideal) w3)) (val_main_v72 (F := Ideal) w2)
          (rowOf b s) e := by
  rw [val_main_v73_apply]
  unfold outv
  refine Finset.sum_congr rfl fun k _ => ?_
  have el : lidx_main_v73 (ix3 b s e) k = ix3 b s k := funext fun a => Fin.ext (by
    match a with
    | ⟨0, _⟩ => rfl
    | ⟨1, _⟩ => rfl
    | ⟨2, _⟩ => rfl)
  have er : ridx_main_v73 (ix3 b s e) k = ix2 e k := funext fun a => Fin.ext (by
    match a with
    | ⟨0, _⟩ => rfl
    | ⟨1, _⟩ => rfl)
  rw [el, er, row_v61_spec]

/-- The reference's result is the whole function of x and the three quantized weight arrays. -/
theorem result_eq (x : (⟨S4x2048x2048, .f32⟩ : BufTy).Contents (Elt Ideal)) (w1 : (⟨S5632x2048, .f32⟩ : BufTy).Contents (Elt Ideal))
    (w2 : (⟨S2048x5632, .f32⟩ : BufTy).Contents (Elt Ideal)) (w3 : (⟨S5632x2048, .f32⟩ : BufTy).Contents (Elt Ideal)) :
    val_main_v73 (F := Ideal) x w1 w2 w3
      = Gfull x (val_main_v22 (F := Ideal) w1) (val_main_v47 (F := Ideal) w3) (val_main_v72 (F := Ideal) w2) := by
  funext i
  obtain ⟨b, s, e, rfl⟩ : ∃ (b : Fin 4) (s : Fin 2048) (e : Fin 2048), i = ix3 b s e := ⟨i 0, i 1, i 2, eq_ix3 i⟩
  rw [Gfull_ix3]
  exact out_v73 x w1 w2 w3 b s e

end Cert.ReferenceIdeal.RefValue

end
-- ==== Proof.Bridge.lean ====
/- The bridge. The kernel program's result is the whole function of the spec: its last host operation reads back the second
   region's output array, which is the output G1 of the first region's output array and the third quantized weight array,
   and that array is the hidden array G0 of the flat rows of x and the two other quantized weight arrays — the same three
   quantized weight arrays the reference computes, by the same host operations. The reference's last stage is that whole
   function too. So from memories that agree on the arguments both programs end with the same result. -/
import proofs.«149337_j33191507264221_1_alg».proof.Defs
import proofs.«149337_j33191507264221_1_alg».proof.Proof.KI.Run
import proofs.«149337_j33191507264221_1_alg».proof.Proof.KI.Value0
import proofs.«149337_j33191507264221_1_alg».proof.Proof.KI.Value1
import proofs.«149337_j33191507264221_1_alg».proof.Proof.KI.HostVals
import proofs.«149337_j33191507264221_1_alg».proof.Proof.K.Run
import proofs.«149337_j33191507264221_1_alg».proof.Proof.RefStages
import proofs.«149337_j33191507264221_1_alg».proof.Proof.RefValue
import proofs.«149337_j33191507264221_1_alg».proof.Proof.Gen.Kernel
import proofs.«149337_j33191507264221_1_alg».proof.Proof.Gen.KernelIdeal
import proofs.«149337_j33191507264221_1_alg».proof.Proof.Gen.ReferenceIdeal
import proofs.«149337_j33191507264221_1_alg».proof.Proof.Gen.Pre_finite_inputs

set_option maxRecDepth 16384

noncomputable section

namespace Cert.Proof.Bridge

open Idealize.ShloMosaic Idealize.ShloMosaic.TcCoe Idealize.ShloMosaic.ValueIdx Idealize.SL.Sem Cert.Spec

section KernelSide

open Cert.KernelIdeal Cert.KernelIdeal.Gen Cert.KernelIdeal.Hand Cert.KernelIdeal.Val

variable (m : (ℓ : Loc nD τ sig) → Buf (Elt Ideal) ℓ)

/-- The first region leaves the hidden array of the flat rows of x and the quantized first and third weight arrays. -/
theorem x0_eq (c : Dev nD) :
    X0 m c = G0 (flat (m ((c.tc : Thread nD τ).loc main_arg0)))
      (Cert.ReferenceIdeal.ReadP.val_main_v22 (F := Ideal) (m ((c.tc : Thread nD τ).loc main_arg1)))
      (Cert.ReferenceIdeal.ReadP.val_main_v47 (F := Ideal) (m ((c.tc : Thread nD τ).loc main_arg3))) := by
  unfold X0
  rw [arrAt0 (E0 m) c]
  show G0 (Gen.V19 m c main_v0) (Gen.V19 m c main_v12) (Gen.V19 m c main_v24) = _
  rw [v0_eq m c, v12_eq m c, v24_eq m c]

/-- The second region leaves the output of that hidden array and the quantized second weight array. -/
theorem x1_eq (c : Dev nD) :
    X1 m c = G1 (X0 m c) (Cert.ReferenceIdeal.ReadP.val_main_v72 (F := Ideal) (m ((c.tc : Thread nD τ).loc main_arg2))) := by
  unfold X1
  rw [arrAt1 (E1 m) c]
  show G1 (W20 m c main_v37) (W20 m c main_v36) = _
  have h37 : W20 m c main_v37 = X0 m c := Function.update_self ..
  have h36 : W20 m c main_v36 = Gen.V19 m c main_v36 :=
    Function.update_of_ne (StableHlo.devRef_ne_of_ne (by decide) : (Proc.devRef .tc main_v36 : DevRef τ sig) ≠ Proc.devRef .tc main_v37) ..
  rw [h37, h36, v36_eq m c]

/-- The kernel program's result is the whole function of its arguments. -/
theorem kernel_result (c : Dev nD) :
    Gen.V22 m (outs m) c main_v39
      = Gfull (m ((c.tc : Thread nD τ).loc main_arg0))
          (Cert.ReferenceIdeal.ReadP.val_main_v22 (F := Ideal) (m ((c.tc : Thread nD τ).loc main_arg1)))
          (Cert.ReferenceIdeal.ReadP.val_main_v47 (F := Ideal) (m ((c.tc : Thread nD τ).loc main_arg3)))
          (Cert.ReferenceIdeal.ReadP.val_main_v72 (F := Ideal) (m ((c.tc : Thread nD τ).loc main_arg2))) := by
  funext i
  obtain ⟨b, s, e, rfl⟩ : ∃ (b : Fin 4) (s : Fin 2048) (e : Fin 2048), i = ix3 b s e := ⟨i 0, i 1, i 2, eq_ix3 i⟩
  rw [v39_apply m (outs m) c b s e, Gfull_ix3]
  have h38 : Gen.V21 m (outs m) c main_v38 = X1 m c := by
    rw [V21_eq m c]
    exact Function.update_self ..
  rw [h38, x1_eq m c, x0_eq m c, G1_ix2]

end KernelSide

/-! ## The claims -/

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Stages.run (F := Ideal) m ρ)

theorem preserves : Cert.preserves_Kernel_KernelIdeal := trivial

/-- Both idealized programs end at the whole function of the arguments they agree on. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Gfull (m ((c.tc : Thread Cert.KernelIdeal.nD Cert.KernelIdeal.τ).loc Cert.KernelIdeal.main_arg0))
      (Cert.ReferenceIdeal.ReadP.val_main_v22 (F := Ideal) (m ((c.tc : Thread Cert.KernelIdeal.nD Cert.KernelIdeal.τ).loc Cert.KernelIdeal.main_arg1)))
      (Cert.ReferenceIdeal.ReadP.val_main_v47 (F := Ideal) (m ((c.tc : Thread Cert.KernelIdeal.nD Cert.KernelIdeal.τ).loc Cert.KernelIdeal.main_arg3)))
      (Cert.ReferenceIdeal.ReadP.val_main_v72 (F := Ideal) (m ((c.tc : Thread Cert.KernelIdeal.nD Cert.KernelIdeal.τ).loc Cert.KernelIdeal.main_arg2))), ?_, ?_⟩
  · exact (θ_run Cert.KernelIdeal.defs _ _).mono (fun _ h c => ⟨(h c).1.trans (kernel_result m c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Stages.run (F := Ideal) m' ρ')
    rw [(hagree c).1, (hagree c).2.1, (hagree c).2.2.1, (hagree c).2.2.2]
    exact Cert.ReferenceIdeal.RefValue.result_eq _ _ _ _

end Cert.Proof.Bridge

end
-- ==== Proof.lean ====
/- The certificate's claims assembled: the two kernel programs' frames are the launch over their two regions (Proof/K,
   Proof/KI), the reference's frame its run with the result dropped, the idealization rewrote nothing, and the two idealized
   programs end at one function of the arguments (Proof/Bridge.lean). -/
import proofs.«149337_j33191507264221_1_alg».proof.Defs
import proofs.«149337_j33191507264221_1_alg».proof.Proof.Bridge

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Bridge.frame_k, Cert.Proof.Bridge.frame_ki, Cert.Proof.Bridge.frame_ri, Cert.Proof.Bridge.preserves,
    Cert.Proof.Bridge.algebraic⟩

end Cert.Proof

end
